-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S2x512x2048 : Shape := ⟨3, ![2, 512, 2048]⟩
abbrev S8192x1024 : Shape := ⟨2, ![8192, 1024]⟩
abbrev S2 : Shape := ⟨1, ![2]⟩
abbrev S16 : Shape := ⟨1, ![16]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S16384x1024, .bf16⟩
  | .local _ .vmem, ⟨0, _⟩ => ⟨S2x512x2048, .f32⟩
  | .local _ .vmem, ⟨1, _⟩ => ⟨S8192x1024, .bf16⟩
  | .local _ .vmem, ⟨2, _⟩ => ⟨S8192x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 3 → Nat :=
  let c0 : Index := 0#32
  let c0_25 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v32 : BitVec 32 := Scalar.muli v9 c1024_i32
  let v33 : Index := Scalar.indexCast v32
  ![0, 0, v33.toNat]
def k0_off2 (d0 : Dev nD) (c0_i32_29 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v40 : BitVec 32 := Scalar.muli v8 c8192_i32
  let v41 : BitVec 32 := Scalar.addi v40 c0_i32_29
  let c0_i32_36 : BitVec 32 := 0#32
  ![v41.toNat, 0]
def k0_dev2 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v42 : BitVec 32 := Scalar.muli v2 c4_i32_32
  let v43 : BitVec 32 := Scalar.addi c0_i32_33 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v44 : BitVec 32 := Scalar.muli v5 c2_i32_34
  let v45 : BitVec 32 := Scalar.addi v43 v44
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_35 : BitVec 32 := 1#32
  let v46 : BitVec 32 := Scalar.muli v9 c1_i32_35
  let v47 : BitVec 32 := Scalar.addi v45 v46
  v47.toNat
def k0_off3 (d0 : Dev nD) : Fin 3 → Nat :=
  let c0_40 : Index := 0#32
  let c0_41 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_39 : BitVec 32 := 1024#32
  let v54 : BitVec 32 := Scalar.muli v8 c1024_i32_39
  let v55 : Index := Scalar.indexCast v54
  ![0, 0, v55.toNat]
def k0_off4 (d0 : Dev nD) : Fin 3 → Nat :=
  let c1 : Index := 1#32
  let c0_63 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32_62 : BitVec 32 := 1024#32
  let v78 : BitVec 32 := Scalar.muli v9 c1024_i32_62
  let v79 : Index := Scalar.indexCast v78
  ![1, 0, v79.toNat]
def k0_dev3 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v88 : BitVec 32 := Scalar.muli v2 c4_i32_69
  let v89 : BitVec 32 := Scalar.addi c0_i32_70 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v90 : BitVec 32 := Scalar.muli v5 c2_i32_71
  let v91 : BitVec 32 := Scalar.addi v89 v90
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_72 : BitVec 32 := 1#32
  let v92 : BitVec 32 := Scalar.muli v9 c1_i32_72
  let v93 : BitVec 32 := Scalar.addi v91 v92
  v93.toNat
def k0_off5 (d0 : Dev nD) : Fin 3 → Nat :=
  let c1_77 : Index := 1#32
  let c0_78 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_76 : BitVec 32 := 1024#32
  let v100 : BitVec 32 := Scalar.muli v8 c1024_i32_76
  let v101 : Index := Scalar.indexCast v100
  ![1, 0, v101.toNat]
def k0_dev4 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v134 : BitVec 32 := Scalar.muli v2 c4_i32_106
  let v135 : BitVec 32 := Scalar.addi c0_i32_107 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v136 : BitVec 32 := Scalar.muli v5 c2_i32_108
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_109 : BitVec 32 := 1#32
  let v138 : BitVec 32 := Scalar.muli v9 c1_i32_109
  let v139 : BitVec 32 := Scalar.addi v137 v138
  v139.toNat
def k0_dev5 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v180 : BitVec 32 := Scalar.muli v2 c4_i32_142
  let v181 : BitVec 32 := Scalar.addi c0_i32_143 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v182 : BitVec 32 := Scalar.muli v5 c2_i32_144
  let v183 : BitVec 32 := Scalar.addi v181 v182
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_145 : BitVec 32 := 1#32
  let v184 : BitVec 32 := Scalar.muli v9 c1_i32_145
  let v185 : BitVec 32 := Scalar.addi v183 v184
  v185.toNat
def k0_dev6 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v226 : BitVec 32 := Scalar.muli v2 c4_i32_179
  let v227 : BitVec 32 := Scalar.addi c0_i32_180 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v228 : BitVec 32 := Scalar.muli v5 c2_i32_181
  let v229 : BitVec 32 := Scalar.addi v227 v228
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_182 : BitVec 32 := 1#32
  let v230 : BitVec 32 := Scalar.muli v9 c1_i32_182
  let v231 : BitVec 32 := Scalar.addi v229 v230
  v231.toNat
def k0_dev7 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v272 : BitVec 32 := Scalar.muli v2 c4_i32_215
  let v273 : BitVec 32 := Scalar.addi c0_i32_216 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v274 : BitVec 32 := Scalar.muli v5 c2_i32_217
  let v275 : BitVec 32 := Scalar.addi v273 v274
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_218 : BitVec 32 := 1#32
  let v276 : BitVec 32 := Scalar.muli v9 c1_i32_218
  let v277 : BitVec 32 := Scalar.addi v275 v276
  v277.toNat
def k0_dev8 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v318 : BitVec 32 := Scalar.muli v2 c4_i32_251
  let v319 : BitVec 32 := Scalar.addi c0_i32_252 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v320 : BitVec 32 := Scalar.muli v5 c2_i32_253
  let v321 : BitVec 32 := Scalar.addi v319 v320
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_254 : BitVec 32 := 1#32
  let v322 : BitVec 32 := Scalar.muli v9 c1_i32_254
  let v323 : BitVec 32 := Scalar.addi v321 v322
  v323.toNat
def k0_dev9 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v364 : BitVec 32 := Scalar.muli v2 c4_i32_287
  let v365 : BitVec 32 := Scalar.addi c0_i32_288 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v366 : BitVec 32 := Scalar.muli v5 c2_i32_289
  let v367 : BitVec 32 := Scalar.addi v365 v366
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_290 : BitVec 32 := 1#32
  let v368 : BitVec 32 := Scalar.muli v9 c1_i32_290
  let v369 : BitVec 32 := Scalar.addi v367 v368
  v369.toNat
def k0_dev10 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v410 : BitVec 32 := Scalar.muli v2 c4_i32_323
  let v411 : BitVec 32 := Scalar.addi c0_i32_324 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v412 : BitVec 32 := Scalar.muli v5 c2_i32_325
  let v413 : BitVec 32 := Scalar.addi v411 v412
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_326 : BitVec 32 := 1#32
  let v414 : BitVec 32 := Scalar.muli v9 c1_i32_326
  let v415 : BitVec 32 := Scalar.addi v413 v414
  v415.toNat
def k0_dev11 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v456 : BitVec 32 := Scalar.muli v2 c4_i32_359
  let v457 : BitVec 32 := Scalar.addi c0_i32_360 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_361 : BitVec 32 := 2#32
  let v458 : BitVec 32 := Scalar.muli v5 c2_i32_361
  let v459 : BitVec 32 := Scalar.addi v457 v458
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_362 : BitVec 32 := 1#32
  let v460 : BitVec 32 := Scalar.muli v9 c1_i32_362
  let v461 : BitVec 32 := Scalar.addi v459 v460
  v461.toNat
def k0_dev12 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v502 : BitVec 32 := Scalar.muli v2 c4_i32_395
  let v503 : BitVec 32 := Scalar.addi c0_i32_396 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v504 : BitVec 32 := Scalar.muli v5 c2_i32_397
  let v505 : BitVec 32 := Scalar.addi v503 v504
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_398 : BitVec 32 := 1#32
  let v506 : BitVec 32 := Scalar.muli v9 c1_i32_398
  let v507 : BitVec 32 := Scalar.addi v505 v506
  v507.toNat
def k0_dev13 (d0 : Dev nD) : Nat :=
  let c0_i32_432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_431 : BitVec 32 := 4#32
  let v548 : BitVec 32 := Scalar.muli v2 c4_i32_431
  let v549 : BitVec 32 := Scalar.addi c0_i32_432 v548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v550 : BitVec 32 := Scalar.muli v5 c2_i32_433
  let v551 : BitVec 32 := Scalar.addi v549 v550
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_434 : BitVec 32 := 1#32
  let v552 : BitVec 32 := Scalar.muli v9 c1_i32_434
  let v553 : BitVec 32 := Scalar.addi v551 v552
  v553.toNat
def k0_dev14 (d0 : Dev nD) : Nat :=
  let c0_i32_468 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_467 : BitVec 32 := 4#32
  let v594 : BitVec 32 := Scalar.muli v2 c4_i32_467
  let v595 : BitVec 32 := Scalar.addi c0_i32_468 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_469 : BitVec 32 := 2#32
  let v596 : BitVec 32 := Scalar.muli v5 c2_i32_469
  let v597 : BitVec 32 := Scalar.addi v595 v596
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_470 : BitVec 32 := 1#32
  let v598 : BitVec 32 := Scalar.muli v9 c1_i32_470
  let v599 : BitVec 32 := Scalar.addi v597 v598
  v599.toNat
def k0_dev15 (d0 : Dev nD) : Nat :=
  let c0_i32_504 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_503 : BitVec 32 := 4#32
  let v640 : BitVec 32 := Scalar.muli v2 c4_i32_503
  let v641 : BitVec 32 := Scalar.addi c0_i32_504 v640
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_505 : BitVec 32 := 2#32
  let v642 : BitVec 32 := Scalar.muli v5 c2_i32_505
  let v643 : BitVec 32 := Scalar.addi v641 v642
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_506 : BitVec 32 := 1#32
  let v644 : BitVec 32 := Scalar.muli v9 c1_i32_506
  let v645 : BitVec 32 := Scalar.addi v643 v644
  v645.toNat
def k0_dev16 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v686 : BitVec 32 := Scalar.muli v2 c4_i32_539
  let v687 : BitVec 32 := Scalar.addi c0_i32_540 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v688 : BitVec 32 := Scalar.muli v5 c2_i32_541
  let v689 : BitVec 32 := Scalar.addi v687 v688
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_542 : BitVec 32 := 1#32
  let v690 : BitVec 32 := Scalar.muli v9 c1_i32_542
  let v691 : BitVec 32 := Scalar.addi v689 v690
  v691.toNat
def k0_dev17 (d0 : Dev nD) : Nat :=
  let c0_i32_571 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_570 : BitVec 32 := 4#32
  let v727 : BitVec 32 := Scalar.muli v2 c4_i32_570
  let v728 : BitVec 32 := Scalar.addi c0_i32_571 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_572 : BitVec 32 := 2#32
  let v729 : BitVec 32 := Scalar.muli v5 c2_i32_572
  let v730 : BitVec 32 := Scalar.addi v728 v729
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_573 : BitVec 32 := 1#32
  let v731 : BitVec 32 := Scalar.muli v9 c1_i32_573
  let v732 : BitVec 32 := Scalar.addi v730 v731
  v732.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x512x2048_S1x512x2048_0_0_0 : ∀ a, (![0, 0, 0] : Fin 3 → Nat) a + S1x512x2048.size a ≤ S2x512x2048.size a
  squeezes_S1x512x2048_S512x2048 : S1x512x2048.Squeezes S512x2048
  inb_S8192x2048_S512x2048_0_0 : ∀ a, (![0, 0] : Fin 2 → Nat) a + S512x2048.size a ≤ S8192x2048.size a
  inb_S2_S1_1 : ∀ a, (![1] : Fin 1 → Nat) a + S1.size a ≤ S2.size a
  inb_S2x512x2048_S1x512x2048_1_0_0 : ∀ a, (![1, 0, 0] : Fin 3 → Nat) a + S1x512x2048.size a ≤ S2x512x2048.size a
  inb_S8192x2048_S512x2048_512_0 : ∀ a, (![512, 0] : Fin 2 → Nat) a + S512x2048.size a ≤ S8192x2048.size a
  h_S1x512x1024 : 0 < S1x512x1024.numel
  shapeCasts_S1x512x1024_S512x1024 : S1x512x1024.ShapeCasts S512x1024
  bitsLt_bf16_f32 : FTy.bits .bf16 < FTy.bits .f32
  inb_S8192x1024_S512x1024_0_0 : ∀ a, (![0, 0] : Fin 2 → Nat) a + S512x1024.size a ≤ S8192x1024.size a
  h_S512x1024 : 0 < S512x1024.numel
  shapeCasts_S512x1024_S512x1024 : S512x1024.ShapeCasts S512x1024
  packedbf16_S8192x1024_S512x1024_0_0 : (Rect.unit (s := S8192x1024) ![0, 0] S512x1024.size inb_S8192x1024_S512x1024_0_0).PackedRows (EltTy.packing .bf16)
  inb_S16_S1_0 : ∀ a, (![0] : Fin 1 → Nat) a + S1.size a ≤ S16.size a
  wordsbf16_S8192x1024_S512x1024_0_0 : (Rect.unit (s := S8192x1024) ![0, 0] S512x1024.size inb_S8192x1024_S512x1024_0_0).WholeWords (EltTy.packing .bf16)
  inb_S8192x2048_S512x2048_1024_0 : ∀ a, (![1024, 0] : Fin 2 → Nat) a + S512x2048.size a ≤ S8192x2048.size a
  inb_S8192x1024_S512x1024_512_0 : ∀ a, (![512, 0] : Fin 2 → Nat) a + S512x1024.size a ≤ S8192x1024.size a
  packedbf16_S8192x1024_S512x1024_512_0 : (Rect.unit (s := S8192x1024) ![512, 0] S512x1024.size inb_S8192x1024_S512x1024_512_0).PackedRows (EltTy.packing .bf16)
  inb_S16_S1_1 : ∀ a, (![1] : Fin 1 → Nat) a + S1.size a ≤ S16.size a
  wordsbf16_S8192x1024_S512x1024_512_0 : (Rect.unit (s := S8192x1024) ![512, 0] S512x1024.size inb_S8192x1024_S512x1024_512_0).WholeWords (EltTy.packing .bf16)
  inb_S8192x2048_S512x2048_1536_0 : ∀ a, (![1536, 0] : Fin 2 → Nat) a + S512x2048.size a ≤ S8192x2048.size a
  inb_S8192x1024_S512x1024_1024_0 : ∀ a, (![1024, 0] : Fin 2 → Nat) a + S512x1024.size a ≤ S8192x1024.size a
  packedbf16_S8192x1024_S512x1024_1024_0 : (Rect.unit (s := S8192x1024) ![1024, 0] S512x1024.size inb_S8192x1024_S512x1024_1024_0).PackedRows (EltTy.packing .bf16)
  inb_S16_S1_2 : ∀ a, (![2] : Fin 1 → Nat) a + S1.size a ≤ S16.size a
  wordsbf16_S8192x1024_S512x1024_1024_0 : (Rect.unit (s := S8192x1024) ![1024, 0] S512x1024.size inb_S8192x1024_S512x1024_1024_0).WholeWords (EltTy.packing .bf16)
  inb_S8192x2048_S512x2048_2048_0 : ∀ a, (![2048, 0] : Fin 2 → Nat) a + S512x2048.size a ≤ S8192x2048.size a
  inb_S8192x1024_S512x1024_1536_0 : ∀ a, (![1536, 0] : Fin 2 → Nat) a + S512x1024.size a ≤ S8192x1024.size a
  packedbf16_S8192x1024_S512x1024_1536_0 : (Rect.unit (s := S8192x1024) ![1536, 0] S512x1024.size inb_S8192x1024_S512x1024_1536_0).PackedRows (EltTy.packing .bf16)
  inb_S16_S1_3 : ∀ a, (![3] : Fin 1 → Nat) a + S1.size a ≤ S16.size a
  wordsbf16_S8192x1024_S512x1024_1536_0 : (Rect.unit (s := S8192x1024) ![1536, 0] S512x1024.size inb_S8192x1024_S512x1024_1536_0).WholeWords (EltTy.packing .bf16)
  inb_S8192x2048_S512x2048_2560_0 : ∀ a, (![2560, 0] : Fin 2 → Nat) a + S512x2048.size a ≤ S8192x2048.size a
  inb_S8192x1024_S512x1024_2048_0 : ∀ a, (![2048, 0] : Fin 2 → Nat) a + S512x1024.size a ≤ S8192x1024.size a
  packedbf16_S8192x1024_S512x1024_2048_0 : (Rect.unit (s := S8192x1024) ![2048, 0] S512x1024.size inb_S8192x1024_S512x1024_2048_0).PackedRows (EltTy.packing .bf16)
  inb_S16_S1_4 : ∀ a, (![4] : Fin 1 → Nat) a + S1.size a ≤ S16.size a
  wordsbf16_S8192x1024_S512x1024_2048_0 : (Rect.unit (s := S8192x1024) ![2048, 0] S512x1024.size inb_S8192x1024_S512x1024_2048_0).WholeWords (EltTy.packing .bf16)
  inb_S8192x2048_S512x2048_3072_0 : ∀ a, (![3072, 0] : Fin 2 → Nat) a + S512x2048.size a ≤ S8192x2048.size a
  inb_S8192x1024_S512x1024_2560_0 : ∀ a, (![2560, 0] : Fin 2 → Nat) a + S512x1024.size a ≤ S8192x1024.size a
  packedbf16_S8192x1024_S512x1024_2560_0 : (Rect.unit (s := S8192x1024) ![2560, 0] S512x1024.size inb_S8192x1024_S512x1024_2560_0).PackedRows (EltTy.packing .bf16)
  inb_S16_S1_5 : ∀ a, (![5] : Fin 1 → Nat) a + S1.size a ≤ S16.size a
  wordsbf16_S8192x1024_S512x1024_2560_0 : (Rect.unit (s := S8192x1024) ![2560, 0] S512x1024.size inb_S8192x1024_S512x1024_2560_0).WholeWords (EltTy.packing .bf16)
  inb_S8192x2048_S512x2048_3584_0 : ∀ a, (![3584, 0] : Fin 2 → Nat) a + S512x2048.size a ≤ S8192x2048.size a
  inb_S8192x1024_S512x1024_3072_0 : ∀ a, (![3072, 0] : Fin 2 → Nat) a + S512x1024.size a ≤ S8192x1024.size a
  packedbf16_S8192x1024_S512x1024_3072_0 : (Rect.unit (s := S8192x1024) ![3072, 0] S512x1024.size inb_S8192x1024_S512x1024_3072_0).PackedRows (EltTy.packing .bf16)
  inb_S16_S1_6 : ∀ a, (![6] : Fin 1 → Nat) a + S1.size a ≤ S16.size a
  wordsbf16_S8192x1024_S512x1024_3072_0 : (Rect.unit (s := S8192x1024) ![3072, 0] S512x1024.size inb_S8192x1024_S512x1024_3072_0).WholeWords (EltTy.packing .bf16)
  inb_S8192x2048_S512x2048_4096_0 : ∀ a, (![4096, 0] : Fin 2 → Nat) a + S512x2048.size a ≤ S8192x2048.size a
  inb_S8192x1024_S512x1024_3584_0 : ∀ a, (![3584, 0] : Fin 2 → Nat) a + S512x1024.size a ≤ S8192x1024.size a
  packedbf16_S8192x1024_S512x1024_3584_0 : (Rect.unit (s := S8192x1024) ![3584, 0] S512x1024.size inb_S8192x1024_S512x1024_3584_0).PackedRows (EltTy.packing .bf16)
  inb_S16_S1_7 : ∀ a, (![7] : Fin 1 → Nat) a + S1.size a ≤ S16.size a
  wordsbf16_S8192x1024_S512x1024_3584_0 : (Rect.unit (s := S8192x1024) ![3584, 0] S512x1024.size inb_S8192x1024_S512x1024_3584_0).WholeWords (EltTy.packing .bf16)
  inb_S8192x2048_S512x2048_4608_0 : ∀ a, (![4608, 0] : Fin 2 → Nat) a + S512x2048.size a ≤ S8192x2048.size a
  inb_S8192x1024_S512x1024_4096_0 : ∀ a, (![4096, 0] : Fin 2 → Nat) a + S512x1024.size a ≤ S8192x1024.size a
  packedbf16_S8192x1024_S512x1024_4096_0 : (Rect.unit (s := S8192x1024) ![4096, 0] S512x1024.size inb_S8192x1024_S512x1024_4096_0).PackedRows (EltTy.packing .bf16)
  inb_S16_S1_8 : ∀ a, (![8] : Fin 1 → Nat) a + S1.size a ≤ S16.size a
  wordsbf16_S8192x1024_S512x1024_4096_0 : (Rect.unit (s := S8192x1024) ![4096, 0] S512x1024.size inb_S8192x1024_S512x1024_4096_0).WholeWords (EltTy.packing .bf16)
  inb_S8192x2048_S512x2048_5120_0 : ∀ a, (![5120, 0] : Fin 2 → Nat) a + S512x2048.size a ≤ S8192x2048.size a
  inb_S8192x1024_S512x1024_4608_0 : ∀ a, (![4608, 0] : Fin 2 → Nat) a + S512x1024.size a ≤ S8192x1024.size a
  packedbf16_S8192x1024_S512x1024_4608_0 : (Rect.unit (s := S8192x1024) ![4608, 0] S512x1024.size inb_S8192x1024_S512x1024_4608_0).PackedRows (EltTy.packing .bf16)
  inb_S16_S1_9 : ∀ a, (![9] : Fin 1 → Nat) a + S1.size a ≤ S16.size a
  wordsbf16_S8192x1024_S512x1024_4608_0 : (Rect.unit (s := S8192x1024) ![4608, 0] S512x1024.size inb_S8192x1024_S512x1024_4608_0).WholeWords (EltTy.packing .bf16)
  inb_S8192x2048_S512x2048_5632_0 : ∀ a, (![5632, 0] : Fin 2 → Nat) a + S512x2048.size a ≤ S8192x2048.size a
  inb_S8192x1024_S512x1024_5120_0 : ∀ a, (![5120, 0] : Fin 2 → Nat) a + S512x1024.size a ≤ S8192x1024.size a
  packedbf16_S8192x1024_S512x1024_5120_0 : (Rect.unit (s := S8192x1024) ![5120, 0] S512x1024.size inb_S8192x1024_S512x1024_5120_0).PackedRows (EltTy.packing .bf16)
  inb_S16_S1_10 : ∀ a, (![10] : Fin 1 → Nat) a + S1.size a ≤ S16.size a
  wordsbf16_S8192x1024_S512x1024_5120_0 : (Rect.unit (s := S8192x1024) ![5120, 0] S512x1024.size inb_S8192x1024_S512x1024_5120_0).WholeWords (EltTy.packing .bf16)
  inb_S8192x2048_S512x2048_6144_0 : ∀ a, (![6144, 0] : Fin 2 → Nat) a + S512x2048.size a ≤ S8192x2048.size a
  inb_S8192x1024_S512x1024_5632_0 : ∀ a, (![5632, 0] : Fin 2 → Nat) a + S512x1024.size a ≤ S8192x1024.size a
  packedbf16_S8192x1024_S512x1024_5632_0 : (Rect.unit (s := S8192x1024) ![5632, 0] S512x1024.size inb_S8192x1024_S512x1024_5632_0).PackedRows (EltTy.packing .bf16)
  inb_S16_S1_11 : ∀ a, (![11] : Fin 1 → Nat) a + S1.size a ≤ S16.size a
  wordsbf16_S8192x1024_S512x1024_5632_0 : (Rect.unit (s := S8192x1024) ![5632, 0] S512x1024.size inb_S8192x1024_S512x1024_5632_0).WholeWords (EltTy.packing .bf16)
  inb_S8192x2048_S512x2048_6656_0 : ∀ a, (![6656, 0] : Fin 2 → Nat) a + S512x2048.size a ≤ S8192x2048.size a
  inb_S8192x1024_S512x1024_6144_0 : ∀ a, (![6144, 0] : Fin 2 → Nat) a + S512x1024.size a ≤ S8192x1024.size a
  packedbf16_S8192x1024_S512x1024_6144_0 : (Rect.unit (s := S8192x1024) ![6144, 0] S512x1024.size inb_S8192x1024_S512x1024_6144_0).PackedRows (EltTy.packing .bf16)
  inb_S16_S1_12 : ∀ a, (![12] : Fin 1 → Nat) a + S1.size a ≤ S16.size a
  wordsbf16_S8192x1024_S512x1024_6144_0 : (Rect.unit (s := S8192x1024) ![6144, 0] S512x1024.size inb_S8192x1024_S512x1024_6144_0).WholeWords (EltTy.packing .bf16)
  inb_S8192x2048_S512x2048_7168_0 : ∀ a, (![7168, 0] : Fin 2 → Nat) a + S512x2048.size a ≤ S8192x2048.size a
  inb_S8192x1024_S512x1024_6656_0 : ∀ a, (![6656, 0] : Fin 2 → Nat) a + S512x1024.size a ≤ S8192x1024.size a
  packedbf16_S8192x1024_S512x1024_6656_0 : (Rect.unit (s := S8192x1024) ![6656, 0] S512x1024.size inb_S8192x1024_S512x1024_6656_0).PackedRows (EltTy.packing .bf16)
  inb_S16_S1_13 : ∀ a, (![13] : Fin 1 → Nat) a + S1.size a ≤ S16.size a
  wordsbf16_S8192x1024_S512x1024_6656_0 : (Rect.unit (s := S8192x1024) ![6656, 0] S512x1024.size inb_S8192x1024_S512x1024_6656_0).WholeWords (EltTy.packing .bf16)
  inb_S8192x2048_S512x2048_7680_0 : ∀ a, (![7680, 0] : Fin 2 → Nat) a + S512x2048.size a ≤ S8192x2048.size a
  inb_S8192x1024_S512x1024_7168_0 : ∀ a, (![7168, 0] : Fin 2 → Nat) a + S512x1024.size a ≤ S8192x1024.size a
  packedbf16_S8192x1024_S512x1024_7168_0 : (Rect.unit (s := S8192x1024) ![7168, 0] S512x1024.size inb_S8192x1024_S512x1024_7168_0).PackedRows (EltTy.packing .bf16)
  inb_S16_S1_14 : ∀ a, (![14] : Fin 1 → Nat) a + S1.size a ≤ S16.size a
  wordsbf16_S8192x1024_S512x1024_7168_0 : (Rect.unit (s := S8192x1024) ![7168, 0] S512x1024.size inb_S8192x1024_S512x1024_7168_0).WholeWords (EltTy.packing .bf16)
  inb_S8192x1024_S512x1024_7680_0 : ∀ a, (![7680, 0] : Fin 2 → Nat) a + S512x1024.size a ≤ S8192x1024.size a
  packedbf16_S8192x1024_S512x1024_7680_0 : (Rect.unit (s := S8192x1024) ![7680, 0] S512x1024.size inb_S8192x1024_S512x1024_7680_0).PackedRows (EltTy.packing .bf16)
  inb_S16_S1_15 : ∀ a, (![15] : Fin 1 → Nat) a + S1.size a ≤ S16.size a
  wordsbf16_S8192x1024_S512x1024_7680_0 : (Rect.unit (s := S8192x1024) ![7680, 0] S512x1024.size inb_S8192x1024_S512x1024_7680_0).WholeWords (EltTy.packing .bf16)
  hcc0_scratch3 : 0 + S2.numel ≤ 50
  hcc0_scratch4 : 2 + S16.numel ≤ 50
  hcc0_scratch5 : 18 + S16.numel ≤ 50
  hcc0_scratch6 : 34 + S16.numel ≤ 50
  k0_dev1_lt : ∀ d0 : Dev nD, (k0_dev1 d0) < nD
  k0_off1_inb : ∀ d0 : Dev nD, ∀ a, (k0_off1 d0) a + S1x512x1024.size a ≤ S2x512x2048.size a
  k0_off2_inb : ∀ d0 : Dev nD, ∀ (r : Fin 16), ∀ a, (k0_off2 d0 (BitVec.ofNat 32 (512 * r.val))) a + S512x1024.size a ≤ S16384x1024.size a
  k0_off2_wordsbf16 : ∀ d0 : Dev nD, ∀ (r : Fin 16), (Rect.unit (s := S16384x1024) (k0_off2 d0 (BitVec.ofNat 32 (512 * r.val))) S512x1024.size (k0_off2_inb d0 r)).WholeWords (EltTy.packing .bf16)
  k0_dev2_lt : ∀ d0 : Dev nD, (k0_dev2 d0) < nD
  k0_off3_inb : ∀ d0 : Dev nD, ∀ a, (k0_off3 d0) a + S1x512x1024.size a ≤ S2x512x2048.size a
  k0_off4_inb : ∀ d0 : Dev nD, ∀ a, (k0_off4 d0) a + S1x512x1024.size a ≤ S2x512x2048.size a
  k0_dev3_lt : ∀ d0 : Dev nD, (k0_dev3 d0) < nD
  k0_off5_inb : ∀ d0 : Dev nD, ∀ a, (k0_off5 d0) a + S1x512x1024.size a ≤ S2x512x2048.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD

variable [Facts₀]

abbrev cc0_scratch3 : DmaSems sig S2 := SemArray.consecutive 0 S2 hcc0_scratch3
abbrev cc0_scratch4 : DmaSems sig S16 := SemArray.consecutive 2 S16 hcc0_scratch4
abbrev cc0_scratch5 : DmaSems sig S16 := SemArray.consecutive 18 S16 hcc0_scratch5
abbrev cc0_scratch6 : DmaSems sig S16 := SemArray.consecutive 34 S16 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 2
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Kernel.Protocol.lean ====
import proofs.«900631_g7700000000000632_dist_a2a_v7x_xyz2x2x2_z_m8192_n1024_bf16_1_alg».proof.Proof.Gen.Kernel
import proofs.«900631_g7700000000000632_dist_a2a_v7x_xyz2x2x2_z_m8192_n1024_bf16_1_alg».proof.Proof.Gen.Kernel.Skeleton
import proofs.«900631_g7700000000000632_dist_a2a_v7x_xyz2x2x2_z_m8192_n1024_bf16_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

/-!
# The exchange protocol of the two-device column swap

Eight devices in a 2×2×2 mesh; device `c` and its partner `peer c` (the device whose last mesh
coordinate is flipped) exchange halves.  Device `c` holds rows `[8192·z, 8192·z + 8192)` of the whole
input (`z` its last coordinate) and must end holding columns `[1024·z, 1024·z + 1024)` of every row.
It cuts its block into sixteen chunks of 512 rows; chunk `i`'s own columns go by a local copy into
rows `8192·z + 512·i …` of its result, the partner's columns by an addressed copy into the same rows
of the partner's result.

The cells: the barrier semaphore (one unit, from the partner: "I am inside; here are the rows of my
result you will write, and my receive cells are open"), sixteen send cells (the chunk's source comes
back) and sixteen receive cells (the rows the partner wrote, at their final contents).
-/

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's rounds, the local transfers' counters -/

abbrev UB : Type := UR sig nD τ
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by
  unfold ER; infer_instance

/-! ## The partner -/

/-- The device whose last mesh coordinate is flipped. -/
def peer (c : Dev nD) : Dev nD := ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide
theorem peer_z (c : Dev nD) : (peer c).val % 2 = 1 - c.val % 2 := by revert c; decide

def swap : Dev nD ≃ Dev nD := ⟨peer, peer, peer_peer, peer_peer⟩

/-! ## Memrefs, slices, semaphores, cells -/

abbrev xM : Memref sig .tc .hbm S8192x2048 .f32 := Memref.whole main_arg0
abbrev oM : Memref sig .tc .hbm S16384x1024 .bf16 := Memref.whole main_v1
abbrev inM : Memref sig .tc .vmem S2x512x2048 .f32 := Memref.whole cc0_scratch0
abbrev sbM : Memref sig .tc .vmem S8192x1024 .bf16 := Memref.whole cc0_scratch1
abbrev lbM : Memref sig .tc .vmem S8192x1024 .bf16 := Memref.whole cc0_scratch2

/-- The rows of a result array that device `d`'s chunk `i` goes to (on `d` by the local copy, on its partner by the
    addressed one): rows `8192·z_d + 512·i …`. -/
abbrev oSl (d : Dev nD) (i : Fin 16) : Memref sig .tc .hbm S512x1024 .bf16 :=
  oM.slice (Rect.unit (s := S16384x1024) (k0_off2 d (BitVec.ofNat 32 (512 * i.val))) S512x1024.size (k0_off2_inb d i)) (fun _ => rfl)

theorem sb_inb (i : Fin 16) : ∀ a, (![512 * i.val, 0] : Fin 2 → Nat) a + S512x1024.size a ≤ S8192x1024.size a := by
  revert i; decide
/-- Chunk `i`'s rows of a staging buffer. -/
abbrev sbSl (i : Fin 16) : Memref sig .tc .vmem S512x1024 .bf16 :=
  sbM.slice (Rect.unit (s := S8192x1024) ![512 * i.val, 0] S512x1024.size (sb_inb i)) (fun _ => rfl)

theorem s16_inb (i : Fin 16) : ∀ a, (![i.val] : Fin 1 → Nat) a + S1.size a ≤ S16.size a := by revert i; decide

abbrev barS : Sem sig := (SemArray.scalar (sig.barrier 0 rfl) : Sems sig S_).sem
abbrev sendSem (i : Fin 16) : DmaSem sig := ((cc0_scratch5.slice (Rect.unit (s := S16) ![i.val] S1.size (s16_inb i))).squeeze S_ squeezes_S1_S_).sem
abbrev recvSem (i : Fin 16) : DmaSem sig := ((cc0_scratch6.slice (Rect.unit (s := S16) ![i.val] S1.size (s16_inb i))).squeeze S_ squeezes_S1_S_).sem

abbrev barCell (c : Dev nD) : GSem nD τ sig := ((c : Thread nD τ), .reg barS)
abbrev sendCell (c : Dev nD) (i : Fin 16) : GSem nD τ sig := ((c : Thread nD τ), .dma (sendSem i))
abbrev recvCell (c : Dev nD) (i : Fin 16) : GSem nD τ sig := ((c : Thread nD τ), .dma (recvSem i))

theorem sendSem_val (i : Fin 16) : (sendSem i).val = 18 + i.val := by revert i; decide
theorem recvSem_val (i : Fin 16) : (recvSem i).val = 34 + i.val := by revert i; decide

/-- Which of the exchange's cells a semaphore is. -/
inductive CK where
  | bar
  | send (i : Fin 16)
  | recv (i : Fin 16)
  deriving DecidableEq

def ckOf : SemLoc sig → Option CK
  | .reg s => if s = barS then some .bar else none
  | .dma q =>
    if h : 18 ≤ q.val ∧ q.val < 34 then some (.send ⟨q.val - 18, by omega⟩)
    else if h' : 34 ≤ q.val ∧ q.val < 50 then some (.recv ⟨q.val - 34, by omega⟩) else none

theorem ckOf_bar : ckOf (.reg barS) = some .bar := by
  show (if barS = barS then some CK.bar else none) = _
  exact if_pos rfl
theorem ckOf_send (i : Fin 16) : ckOf (.dma (sendSem i)) = some (.send i) := by
  have h := sendSem_val i
  show (if h : 18 ≤ (sendSem i).val ∧ (sendSem i).val < 34 then some (CK.send ⟨(sendSem i).val - 18, by omega⟩) else _) = _
  rw [dif_pos ⟨by omega, by have := i.isLt; omega⟩]
  exact congrArg (fun j => some (CK.send j)) (Fin.ext (by simp only [h]; omega))
theorem ckOf_recv (i : Fin 16) : ckOf (.dma (recvSem i)) = some (.recv i) := by
  have h := recvSem_val i
  show (if h : 18 ≤ (recvSem i).val ∧ (recvSem i).val < 34 then some (CK.send ⟨(recvSem i).val - 18, by omega⟩)
    else if h' : 34 ≤ (recvSem i).val ∧ (recvSem i).val < 50 then some (CK.recv ⟨(recvSem i).val - 34, by omega⟩) else none) = _
  rw [dif_neg (by omega), dif_pos ⟨by omega, by have := i.isLt; omega⟩]
  exact congrArg (fun j => some (CK.recv j)) (Fin.ext (by simp only [h]; omega))

/-- The credit of one chunk's copy into a result array. -/
abbrev N : ℕ := (oSl (0 : Dev nD) 0).view.dmaCredit
theorem N_pos : 0 < N := View.dmaCredit_pos _ (by decide)

/-! ## The values -/

variable (m : (ℓ : Loc nD τ sig) → Buf (Elt F) ℓ)

/-- A float of the input rounded to the result's format. -/
def tr (x : F .f32) : F .bf16 := FloatOps.truncf .bf16 bitsLt_bf16_f32 x

/-- Device `d`'s block of the input, as a function on its indices. -/
abbrev xOf (d : Dev nD) : S8192x2048.Idx → F .f32 := m ((d : Thread nD τ).loc main_arg0)

/-- What device `c`'s result array ends holding: row `R`, column `j` is the rounding of row `R % 8192`, column
    `1024·z_c + j` of the block of the device in `c`'s pair whose last coordinate is `R / 8192`. -/
def Gfun (c : Dev nD) : Buf (Elt F) ((c : Thread nD τ).loc main_v1) := fun idx =>
  tr (xOf m (if (idx 0).val / 8192 = c.val % 2 then c else peer c)
    (ValueIdx.ix2 (⟨(idx 0).val % 8192, Nat.mod_lt _ (by decide)⟩ : Fin 8192)
      (⟨1024 * (c.val % 2) + (idx 1).val, by have := (idx 1).isLt; have : (idx 1).val < 1024 := this; omega⟩ : Fin 2048)))

/-- Chunk `i`'s rows of device `d`'s view, in the result array on device `q`, at contents `f`. -/
def slot (q d : Dev nD) (i : Fin 16) (f : Buf (Elt F) ((q : Thread nD τ).loc main_v1)) : sProp 𝕄 :=
  (oSl d i).view.loc (q : Thread nD τ) ↦[(oSl d i).view.set]{fullShare} f

/-- Chunk `i`'s rows of the send staging buffer on device `c`. -/
def sbuf (c : Dev nD) (i : Fin 16) (f : Buf (Elt F) ((c : Thread nD τ).loc cc0_scratch1)) : sProp 𝕄 :=
  (sbSl i).view.loc (c : Thread nD τ) ↦[(sbSl i).view.set]{fullShare} f

/-! ## The schedule -/

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- What the partner's barrier signal hands device `c`: the rows of the partner's result that `c`'s sixteen chunks go
    to, at whatever they hold, and that the partner's sixteen receive cells are open. -/
def barPay (c : Dev nD) : sProp 𝕄 :=
  bigSep Finset.univ fun i : Fin 16 => iprop((∃ f, slot (peer c) c i f) ∗ reached ER (recvCell (peer c) i) 0)

/-- What a cell's one duty hands its owner. -/
def pay (g : GSem nD τ sig) : sProp 𝕄 :=
  match ckOf g.2 with
  | some .bar => barPay g.1.1
  | some (.send i) => iprop(∃ f, sbuf g.1.1 i f)
  | some (.recv i) => slot g.1.1 (peer g.1.1) i (Gfun m g.1.1)
  | none => iprop(emp)

/-- One round, one duty a cell: the barrier cell one unit, a send or receive cell one chunk's credit. -/
def sched : Rounds.Schedule (GSem nD τ sig) Unit 𝕄 where
  duties g r := if r = 0 ∧ g.1.2 = .tc ∧ (ckOf g.2).isSome = true then {()} else ∅
  unitless _ := False
  amount g _ _ := if g.2 = .reg barS then 1 else N
  payload g _ _ := pay m g
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (pay m g)
  unfold pay barPay slot sbuf
  split <;> infer_instance

section Tables
variable (c : Dev nD) (i : Fin 16)

theorem duties_bar : (sched (F := F) m).duties (barCell c) 0 = {()} := by
  dsimp only [sched]; rw [if_pos ⟨rfl, rfl, by rw [ckOf_bar]; rfl⟩]
theorem duties_send : (sched (F := F) m).duties (sendCell c i) 0 = {()} := by
  dsimp only [sched]; rw [if_pos ⟨rfl, rfl, by rw [ckOf_send]; rfl⟩]
theorem duties_recv : (sched (F := F) m).duties (recvCell c i) 0 = {()} := by
  dsimp only [sched]; rw [if_pos ⟨rfl, rfl, by rw [ckOf_recv]; rfl⟩]
theorem duties_later (g : GSem nD τ sig) : ∀ r, 1 ≤ r → (sched (F := F) m).duties g r = ∅ :=
  fun r hr => by dsimp only [sched]; rw [if_neg fun h => by omega]

theorem send_ne_bar : (SemLoc.dma (sendSem i) : SemLoc sig) ≠ .reg barS := fun h => by cases h
theorem recv_ne_bar : (SemLoc.dma (recvSem i) : SemLoc sig) ≠ .reg barS := fun h => by cases h

theorem amount_bar (d : Unit) : (sched (F := F) m).amount (barCell c) 0 d = 1 := by dsimp only [sched]; exact if_pos rfl
theorem amount_send (d : Unit) : (sched (F := F) m).amount (sendCell c i) 0 d = N := by dsimp only [sched]; exact if_neg (send_ne_bar i)
theorem amount_recv (d : Unit) : (sched (F := F) m).amount (recvCell c i) 0 d = N := by dsimp only [sched]; exact if_neg (recv_ne_bar i)

theorem expect_bar : (sched (F := F) m).expect (barCell c) 0 = 1 := by
  unfold Schedule.expect Schedule.amountOf; rw [duties_bar, Finset.sum_singleton, amount_bar]
theorem expect_send : (sched (F := F) m).expect (sendCell c i) 0 = N := by
  unfold Schedule.expect Schedule.amountOf; rw [duties_send, Finset.sum_singleton, amount_send]
theorem expect_recv : (sched (F := F) m).expect (recvCell c i) 0 = N := by
  unfold Schedule.expect Schedule.amountOf; rw [duties_recv, Finset.sum_singleton, amount_recv]

theorem payload_bar (d : Unit) : (sched (F := F) m).payload (barCell c) 0 d = barPay c := by
  show pay m (barCell c) = _; unfold pay; rw [show ckOf (barCell c).2 = some .bar from ckOf_bar]
theorem payload_send (d : Unit) : (sched (F := F) m).payload (sendCell c i) 0 d = iprop(∃ f, sbuf c i f) := by
  show pay m (sendCell c i) = _; unfold pay; rw [show ckOf (sendCell c i).2 = some (.send i) from ckOf_send i]
theorem payload_recv (d : Unit) : (sched (F := F) m).payload (recvCell c i) 0 d = slot c (peer c) i (Gfun m c) := by
  show pay m (recvCell c i) = _; unfold pay; rw [show ckOf (recvCell c i).2 = some (.recv i) from ckOf_recv i]

end Tables

/-! ## What each device owes at launch; the levels -/

/-- Device `c` owes its partner's sixteen receive cells a chunk's credit each and its partner's barrier cell one
    unit — summed so that the barrier signal peels the last summand and chunk `i`'s copy the one before what is left. -/
def O₀ (c : Dev nD) : CellTallies nD τ sig Unit :=
  tallyAt (recvCell (peer c) 15) () N
    + tallyAt (recvCell (peer c) 14) () N
    + tallyAt (recvCell (peer c) 13) () N
    + tallyAt (recvCell (peer c) 12) () N
    + tallyAt (recvCell (peer c) 11) () N
    + tallyAt (recvCell (peer c) 10) () N
    + tallyAt (recvCell (peer c) 9) () N
    + tallyAt (recvCell (peer c) 8) () N
    + tallyAt (recvCell (peer c) 7) () N
    + tallyAt (recvCell (peer c) 6) () N
    + tallyAt (recvCell (peer c) 5) () N
    + tallyAt (recvCell (peer c) 4) () N
    + tallyAt (recvCell (peer c) 3) () N
    + tallyAt (recvCell (peer c) 2) () N
    + tallyAt (recvCell (peer c) 1) () N
    + tallyAt (recvCell (peer c) 0) () N
    + tallyAt (barCell (peer c)) () 1

def L (g : GSem nD τ sig) : Finset Unit := if g.1.2 = .tc then {()} else ∅
/-- Barrier cells at 1, receive cells at 2, everything else at 0: a device waits on its barrier cell owing receive
    credit only, and on its local and send cells owing at most barrier and receive units. -/
def lv (g : GSem nD τ sig) (_ : Unit) : ℕ :=
  match ckOf g.2 with
  | some .bar => 1
  | some (.recv _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [show ckOf (barCell c).2 = some .bar from ckOf_bar]
theorem lv_recv (c : Dev nD) (i : Fin 16) : lv (recvCell c i) () = 2 := by
  unfold lv; rw [show ckOf (recvCell c i).2 = some (.recv i) from ckOf_recv i]
theorem lv_send (c : Dev nD) (i : Fin 16) : lv (sendCell c i) () = 0 := by
  unfold lv; rw [show ckOf (sendCell c i).2 = some (.send i) from ckOf_send i]

theorem ckOf_local (q : DmaSem sig) (hq : q.val < 18) : ckOf (.dma q) = none := by
  show (if h : 18 ≤ q.val ∧ q.val < 34 then some (CK.send ⟨q.val - 18, by omega⟩)
    else if h' : 34 ≤ q.val ∧ q.val < 50 then some (CK.recv ⟨q.val - 34, by omega⟩) else none) = none
  rw [dif_neg (by omega), dif_neg (by omega)]
theorem lv_local (c : Dev nD) (q : DmaSem sig) (hq : q.val < 18) : lv ((c : Thread nD τ), .dma q) () = 0 := by
  unfold lv; rw [show ckOf ((c : Thread nD τ), SemLoc.dma q).2 = none from ckOf_local q hq]

/-- Sums of chunk credits owed to the partner's receive cells. -/
inductive OwesRecv (c : Dev nD) : CellTallies nD τ sig Unit → Prop
  | one (i : Fin 16) : OwesRecv c (tallyAt (recvCell (peer c) i) () N)
  | add {O D : CellTallies nD τ sig Unit} : OwesRecv c O → OwesRecv c D → OwesRecv c (O + D)

omit [FloatOps F] in
/-- Owing one receive cell (level 2), a device may wait on any of its cells below level 2. -/
theorem mayWait_one (c : Dev nD) (s : SemLoc sig) (hs : lv ((c : Thread nD τ), s) () < 2) (i : Fin 16) :
    (levAts L lv : sProp 𝕄) ⊢ MayWait (c : Thread nD τ) s () (tallyAt (recvCell (peer c) i) () N) :=
  Pipeline.mayWait_of_levAts (by rw [L_tc]; exact Finset.mem_singleton_self _) (fun g u hg => by
    rw [tallyAt_apply] at hg
    by_cases h : g = recvCell (peer c) i ∧ u = ()
    · obtain ⟨rfl, rfl⟩ := h; exact ⟨by rw [L_tc]; exact Finset.mem_singleton_self _, by rw [lv_recv]; exact hs⟩
    · rw [if_neg h] at hg; exact absurd hg (Nat.lt_irrefl 0))

omit [FloatOps F] in
theorem mayWait_owes (c : Dev nD) (s : SemLoc sig) (hs : lv ((c : Thread nD τ), s) () < 2) {O : CellTallies nD τ sig Unit} (h : OwesRecv c O) :
    (levAts L lv : sProp 𝕄) ⊢ MayWait (c : Thread nD τ) s () O := by
  induction h with
  | one i => exact mayWait_one c s hs i
  | add _ _ ih1 ih2 =>
    iintro #H
    iapply MayOwe.add
    isplitl
    · iapply ih1; iexact H
    · iapply ih2; iexact H

/-! ## The kernel's device chains: every one names the partner -/

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

abbrev 𝒱₀ : Variants := Variants.none

end Cert.Kernel.Exchange

end
-- ==== Proof.Kernel.Invariant.lean ====
import proofs.«900631_g7700000000000632_dist_a2a_v7x_xyz2x2x2_z_m8192_n1024_bf16_1_alg».proof.Proof.Kernel.Protocol

/-!
# What a device holds before and after the kernel body

Before: the exchange's ghost state (the invariants of the cells it touches, its positions, the tokens of the duties
it pays), its launch credit, the level facts, its block of the input, its result array as launched, the three
scratch buffers at whatever they hold, and its eighteen local DMA semaphores at zero.  After: the input block
unchanged, the result array at its final contents, the scratch buffers, and all fifty of its DMA semaphores at zero.
-/

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The cells' invariants device `c`'s body opens, under the names `K` they were allocated at: its own barrier, send
    and receive cells, and its partner's barrier and receive cells. -/
def invs (K : Dev nD → CK → ℕ) (c : Dev nD) : sProp 𝕄 :=
  iprop(cellInv ER (sched m) (K c .bar) (barCell c) ∗ cellInv ER (sched m) (K (peer c) .bar) (barCell (peer c))
    ∗ (bigSep Finset.univ fun i : Fin 16 => cellInv ER (sched m) (K c (.send i)) (sendCell c i))
    ∗ (bigSep Finset.univ fun i : Fin 16 => cellInv ER (sched m) (K c (.recv i)) (recvCell c i))
    ∗ (bigSep Finset.univ fun i : Fin 16 => cellInv ER (sched m) (K (peer c) (.recv i)) (recvCell (peer c) i)))

instance invs_persistent (K : Dev nD → CK → ℕ) (c : Dev nD) : BI.Persistent (invs m K c) := by unfold invs; infer_instance

/-- The exchange's ghost state device `c` starts from: the invariants; its positions at round 0 of its own cells;
    that round 0 of the cells it pays, and of its own send and receive cells, is reached; the tokens of the duties it
    pays — its partner's barrier duty, its own send duties, its partner's receive duties. -/
def ghost (K : Dev nD → CK → ℕ) (c : Dev nD) : sProp 𝕄 :=
  iprop(invs m K c
    ∗ atPos ER (barCell c) 0 ∅ 0
    ∗ (bigSep Finset.univ fun i : Fin 16 => atPos ER (sendCell c i) 0 ∅ 0)
    ∗ (bigSep Finset.univ fun i : Fin 16 => atPos ER (recvCell c i) 0 ∅ 0)
    ∗ reached ER (barCell (peer c)) 0
    ∗ (bigSep Finset.univ fun i : Fin 16 => reached ER (sendCell c i) 0)
    ∗ (bigSep Finset.univ fun i : Fin 16 => reached ER (recvCell c i) 0)
    ∗ dutyTok ER (barCell (peer c)) 0 ()
    ∗ (bigSep Finset.univ fun i : Fin 16 => dutyTok ER (sendCell c i) 0 ())
    ∗ (bigSep Finset.univ fun i : Fin 16 => dutyTok ER (recvCell (peer c) i) 0 ()))

/-- The local DMA semaphores (the two of the input ring, the sixteen of the local copies out) at zero. -/
def localSems (c : Dev nD) : sProp 𝕄 :=
  bigSep Finset.univ fun k : Fin 18 => semVal ((c : Thread nD τ), SemLoc.dma (⟨k.val, by have := k.isLt; show _ < 50; omega⟩ : DmaSem sig)) 0

/-- That, its launch credit (one barrier unit, a chunk's credit on each receive cell) and the level facts. -/
def start (c : Dev nD) : sProp 𝕄 :=
  iprop((∃ K, ghost m K c) ∗ localSems c ∗ cred (tallyAt (barCell c) () 1)
    ∗ (bigSep Finset.univ fun i : Fin 16 => cred (tallyAt (recvCell c i) () N)) ∗ levAts L lv)

/-- A buffer of device `c` held whole. -/
abbrev whole (c : Dev nD) (b : Ref sig .tc) (f : Buf (Elt F) ((c : Thread nD τ).loc b)) : sProp 𝕄 :=
  ((c : Thread nD τ).loc b) ↦{fullShare} f

def Φ₀ (c : Dev nD) : sProp 𝕄 :=
  iprop(start m c ∗ whole c main_arg0 (m ((c : Thread nD τ).loc main_arg0)) ∗ whole c main_v1 (m ((c : Thread nD τ).loc main_v1))
    ∗ (∃ f, whole c cc0_scratch0 f) ∗ (∃ f, whole c cc0_scratch1 f) ∗ (∃ f, whole c cc0_scratch2 f))

def Φ₁ (c : Dev nD) : sProp 𝕄 :=
  iprop(whole c main_arg0 (m ((c : Thread nD τ).loc main_arg0)) ∗ whole c main_v1 (Gfun m c)
    ∗ (∃ f, whole c cc0_scratch0 f) ∗ (∃ f, whole c cc0_scratch1 f) ∗ (∃ f, whole c cc0_scratch2 f)
    ∗ (bigSep Finset.univ fun q : DmaSem sig => semVal ((c : Thread nD τ), SemLoc.dma q) 0))

/-- The pipeline's proof data: no window is staged, so it is the two invariants and what the device owes. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Exchange

end
-- ==== Proof.Kernel.Slices.lean ====
import proofs.«900631_g7700000000000632_dist_a2a_v7x_xyz2x2x2_z_m8192_n1024_bf16_1_alg».proof.Proof.Kernel.Invariant

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The slices the body works through

The input ring's two slots, chunk `i`'s rows of the local staging buffer and of the input block, the schedule's payloads
spelt as the points-to assertions they are, and the rule for one chunk's addressed copy. -/

abbrev inSl0 : Memref sig .tc .vmem S512x2048 .f32 := (inM.slice (Rect.unit (s := S2x512x2048) ![0, 0, 0] S1x512x2048.size inb_S2x512x2048_S1x512x2048_0_0_0) (fun _ => rfl)).squeeze S512x2048 squeezes_S1x512x2048_S512x2048
abbrev inSl1 : Memref sig .tc .vmem S512x2048 .f32 := (inM.slice (Rect.unit (s := S2x512x2048) ![1, 0, 0] S1x512x2048.size inb_S2x512x2048_S1x512x2048_1_0_0) (fun _ => rfl)).squeeze S512x2048 squeezes_S1x512x2048_S512x2048
abbrev lbSl (i : Fin 16) : Memref sig .tc .vmem S512x1024 .bf16 :=
  lbM.slice (Rect.unit (s := S8192x1024) ![512 * i.val, 0] S512x1024.size (sb_inb i)) (fun _ => rfl)

theorem x_inb (i : Fin 16) : ∀ a, (![512 * i.val, 0] : Fin 2 → Nat) a + S512x2048.size a ≤ S8192x2048.size a := by
  revert i; decide
/-- Chunk `i`'s rows of the input block. -/
abbrev xSl (i : Fin 16) : Memref sig .tc .hbm S512x2048 .f32 :=
  xM.slice (Rect.unit (s := S8192x2048) ![512 * i.val, 0] S512x2048.size (x_inb i)) (fun _ => rfl)

/-- Chunk `i`'s rows of the local staging buffer on device `c`. -/
def lbuf (c : Dev nD) (i : Fin 16) (f : Buf (Elt F) ((c : Thread nD τ).loc cc0_scratch2)) : sProp 𝕄 :=
  (lbSl i).view.loc (c : Thread nD τ) ↦[(lbSl i).view.set]{fullShare} f

theorem payload_bar_own (c : Dev nD) (d : Unit) : (sched (F := F) m).payload (barCell c) 0 d =
    iprop(((∃ f, ((oSl c 0).view.loc ((peer c) : Thread nD τ) ↦[(oSl c 0).view.set]{fullShare} f)) ∗ reached ER (recvCell (peer c) 0) 0)
      ∗ ((∃ f, ((oSl c 1).view.loc ((peer c) : Thread nD τ) ↦[(oSl c 1).view.set]{fullShare} f)) ∗ reached ER (recvCell (peer c) 1) 0)
      ∗ ((∃ f, ((oSl c 2).view.loc ((peer c) : Thread nD τ) ↦[(oSl c 2).view.set]{fullShare} f)) ∗ reached ER (recvCell (peer c) 2) 0)
      ∗ ((∃ f, ((oSl c 3).view.loc ((peer c) : Thread nD τ) ↦[(oSl c 3).view.set]{fullShare} f)) ∗ reached ER (recvCell (peer c) 3) 0)
      ∗ ((∃ f, ((oSl c 4).view.loc ((peer c) : Thread nD τ) ↦[(oSl c 4).view.set]{fullShare} f)) ∗ reached ER (recvCell (peer c) 4) 0)
      ∗ ((∃ f, ((oSl c 5).view.loc ((peer c) : Thread nD τ) ↦[(oSl c 5).view.set]{fullShare} f)) ∗ reached ER (recvCell (peer c) 5) 0)
      ∗ ((∃ f, ((oSl c 6).view.loc ((peer c) : Thread nD τ) ↦[(oSl c 6).view.set]{fullShare} f)) ∗ reached ER (recvCell (peer c) 6) 0)
      ∗ ((∃ f, ((oSl c 7).view.loc ((peer c) : Thread nD τ) ↦[(oSl c 7).view.set]{fullShare} f)) ∗ reached ER (recvCell (peer c) 7) 0)
      ∗ ((∃ f, ((oSl c 8).view.loc ((peer c) : Thread nD τ) ↦[(oSl c 8).view.set]{fullShare} f)) ∗ reached ER (recvCell (peer c) 8) 0)
      ∗ ((∃ f, ((oSl c 9).view.loc ((peer c) : Thread nD τ) ↦[(oSl c 9).view.set]{fullShare} f)) ∗ reached ER (recvCell (peer c) 9) 0)
      ∗ ((∃ f, ((oSl c 10).view.loc ((peer c) : Thread nD τ) ↦[(oSl c 10).view.set]{fullShare} f)) ∗ reached ER (recvCell (peer c) 10) 0)
      ∗ ((∃ f, ((oSl c 11).view.loc ((peer c) : Thread nD τ) ↦[(oSl c 11).view.set]{fullShare} f)) ∗ reached ER (recvCell (peer c) 11) 0)
      ∗ ((∃ f, ((oSl c 12).view.loc ((peer c) : Thread nD τ) ↦[(oSl c 12).view.set]{fullShare} f)) ∗ reached ER (recvCell (peer c) 12) 0)
      ∗ ((∃ f, ((oSl c 13).view.loc ((peer c) : Thread nD τ) ↦[(oSl c 13).view.set]{fullShare} f)) ∗ reached ER (recvCell (peer c) 13) 0)
      ∗ ((∃ f, ((oSl c 14).view.loc ((peer c) : Thread nD τ) ↦[(oSl c 14).view.set]{fullShare} f)) ∗ reached ER (recvCell (peer c) 14) 0)
      ∗ ((∃ f, ((oSl c 15).view.loc ((peer c) : Thread nD τ) ↦[(oSl c 15).view.set]{fullShare} f)) ∗ reached ER (recvCell (peer c) 15) 0)) := by
  rw [payload_bar]; unfold barPay slot; rw [bigSep_fin16]
theorem payload_send_pt (c : Dev nD) (i : Fin 16) (d : Unit) : (sched (F := F) m).payload (sendCell c i) 0 d =
    iprop(∃ f, (sbSl i).view.loc (c : Thread nD τ) ↦[(sbSl i).view.set]{fullShare} f) := payload_send m c i d
theorem payload_recv_pt (c : Dev nD) (i : Fin 16) (d : Unit) : (sched (F := F) m).payload (recvCell c i) 0 d =
    ((oSl (peer c) i).view.loc (c : Thread nD τ) ↦[(oSl (peer c) i).view.set]{fullShare} Gfun m c) := payload_recv m c i d

/-- Chunk `i`'s addressed copy: the staging rows go out, and the partner's result rows come to hold what they hold at the end. -/
theorem wp_send_chunk (K : Dev nD → CK → ℕ) (c n : Dev nD) (hn : n = peer c) (i : Fin 16)
    {hsc : (oSl c i : Memref sig (Dev.tc n : Thread nD τ).2.kind .hbm S512x1024 .bf16).view.ref.isScScratch = false}
    {hsrc : (sbSl i : Memref sig .tc .vmem S512x1024 .bf16).view.WordExact} {hdst : (oSl c i : Memref sig .tc .hbm S512x1024 .bf16).view.WordExact}
    {hsem : DmaTarget.Typed .vmem (.dma (recvSem i)) (.remote (Dev.tc n : Thread nD τ) (oSl c i : Memref sig .tc .hbm S512x1024 .bf16) (.dma (sendSem i)) hsc)}
    {α : Type} {Q : α → sProp 𝕄} {k : PUnit → Prog (TpuEff nD τ sig (Elt F) Λ₀ .tc) α}
    (fs : Buf (Elt F) ((sbSl i).view.loc (c : Thread nD τ))) (fd : Buf (Elt F) ((oSl c i).view.loc (peer c : Thread nD τ)))
    (O : CellTallies nD τ sig Unit) (W : Waits sig Unit)
    (hG : ∀ idx ∈ (oSl c i).view.set, (oSl c i).view.write (Elt F) fd ((sbSl i).view.read (Elt F) fs) Finset.univ idx = Gfun m (peer c) idx) :
    iprop(cellInv ER (sched m) (K c (.send i)) (sendCell c i) ∗ cellInv ER (sched m) (K (peer c) (.recv i)) (recvCell (peer c) i)
        ∗ ((sbSl i).view.loc (c : Thread nD τ) ↦[(sbSl i).view.set]{fullShare} fs)
        ∗ ((oSl c i).view.loc (peer c : Thread nD τ) ↦[(oSl c i).view.set]{fullShare} fd)
        ∗ owes (c : Thread nD τ) (O + tallyAt (recvCell (peer c) i) () N) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSl i) (.remote (Dev.tc n : Thread nD τ) (oSl c i) (.dma (sendSem i)) hsc) (.dma (recvSem i)) hsrc hdst hsem) k) Q) := by
  subst hn
  exact Rounds.wp_send_pointsTo 𝒱₀ ER (sched m) (c : Thread nD τ) none (κ₁ := K c (.send i)) (κ₂ := K (peer c) (.recv i))
    (r₁ := 0) (r₂ := 0) (d₁ := ()) (d₂ := ()) (fs := fs) (fd := fd)
    (by rw [duties_send]; exact Finset.mem_singleton_self _) (by rw [duties_recv]; exact Finset.mem_singleton_self _)
    () () N rfl (amount_send m c i ()) (amount_recv m (peer c) i ()) O rfl (W := W)
    (by rw [payload_send]; unfold sbuf; iintro H; iexists fs; iexact H)
    (by rw [payload_recv]; unfold slot; rw [peer_peer]; exact Entails.of_eq (pointsTo_congr hG))

end Cert.Kernel.Exchange

end
-- ==== Proof.Kernel.BodySpec.lean ====
import proofs.«900631_g7700000000000632_dist_a2a_v7x_xyz2x2x2_z_m8192_n1024_bf16_1_alg».proof.Proof.Kernel.Slices

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## What the kernel body runs from and to

From: the exchange's ghost state laid out cell by cell, what the device owes, the rows of its own result that its partner
will write (ready to be handed over with the barrier signal), its local semaphores at zero, and every buffer it touches
cut into the slices it works through.  To: the input block unchanged, all thirty-two row blocks of its result at their
final contents, the scratch slices at whatever they hold, the local semaphores at zero again, and its send and receive
cells one round on. -/

def bodyPre (K : Dev nD → CK → ℕ) (c : Dev nD) (fin : Buf (Elt F) ((c : Thread nD τ).loc cc0_scratch0))
    (fsb : Buf (Elt F) ((c : Thread nD τ).loc cc0_scratch1)) (flb : Buf (Elt F) ((c : Thread nD τ).loc cc0_scratch2))
    (fo : Buf (Elt F) ((c : Thread nD τ).loc main_v1)) (W : Waits sig Unit) : sProp 𝕄 :=
  iprop(invs m K c ∗ owes (c : Thread nD τ) (O₀ c) W
    ∗ dutyTok ER (barCell (peer c)) 0 () ∗ reached ER (barCell (peer c)) 0 ∗ barPay (peer c)
    ∗ localSems c
    ∗ (bigSep Finset.univ fun i : Fin 16 => reached ER (sendCell c i) 0)
    ∗ atPos ER (barCell c) 0 ∅ 0
    ∗ (bigSep Finset.univ fun i : Fin 16 => atPos ER (sendCell c i) 0 ∅ 0)
    ∗ (bigSep Finset.univ fun i : Fin 16 => atPos ER (recvCell c i) 0 ∅ 0)
    ∗ (bigSep Finset.univ fun i : Fin 16 => dutyTok ER (sendCell c i) 0 ())
    ∗ (bigSep Finset.univ fun i : Fin 16 => dutyTok ER (recvCell (peer c) i) 0 ())
    ∗ cred (tallyAt (barCell c) () 1)
    ∗ (bigSep Finset.univ fun i : Fin 16 => cred (tallyAt (recvCell c i) () N))
    ∗ levAts L lv
    ∗ whole c main_arg0 (m ((c : Thread nD τ).loc main_arg0))
    ∗ (inSl0.view.loc (c : Thread nD τ) ↦[inSl0.view.set]{fullShare} fin)
    ∗ (inSl1.view.loc (c : Thread nD τ) ↦[inSl1.view.set]{fullShare} fin)
    ∗ (bigSep Finset.univ fun i : Fin 16 => sbuf c i fsb)
    ∗ (bigSep Finset.univ fun i : Fin 16 => lbuf c i flb)
    ∗ (bigSep Finset.univ fun i : Fin 16 => slot c c i fo))

def bodyPost (K : Dev nD → CK → ℕ) (c : Dev nD) : sProp 𝕄 :=
  iprop(whole c main_arg0 (m ((c : Thread nD τ).loc main_arg0))
    ∗ (bigSep Finset.univ fun i : Fin 16 => slot c c i (Gfun m c))
    ∗ (bigSep Finset.univ fun i : Fin 16 => slot c (peer c) i (Gfun m c))
    ∗ (∃ f, inSl0.view.loc (c : Thread nD τ) ↦[inSl0.view.set]{fullShare} f)
    ∗ (∃ f, inSl1.view.loc (c : Thread nD τ) ↦[inSl1.view.set]{fullShare} f)
    ∗ (bigSep Finset.univ fun i : Fin 16 => iprop(∃ f, sbuf c i f))
    ∗ (bigSep Finset.univ fun i : Fin 16 => iprop(∃ f, lbuf c i f))
    ∗ localSems c
    ∗ (bigSep Finset.univ fun i : Fin 16 => atPos ER (sendCell c i) 1 ∅ 0)
    ∗ (bigSep Finset.univ fun i : Fin 16 => atPos ER (recvCell c i) 1 ∅ 0)
    ∗ ∃ W, owes (c : Thread nD τ) 0 W)

/-- The kernel body on device `c`, as the pipeline calls it. -/
abbrev bodyProg : Prog (TpuEff nD τ sig (Elt F) Λ₀ .tc) PUnit :=
  cc0_body_skel (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6

end Cert.Kernel.Exchange

end
-- ==== Proof.Kernel.Values.lean ====
import proofs.«900631_g7700000000000632_dist_a2a_v7x_xyz2x2x2_z_m8192_n1024_bf16_1_alg».proof.Proof.Kernel.Slices
import Idealize.ShloMosaic.Lib.Pipeline.Value

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-!
# The values the exchange moves

What each of a device's sixteen chunks carries into a result array is that array's final contents `Gfun`.  The facts
are index equations: a chunk is a rectangle of the device's input block, a ring slot a rectangle of the ring with its
leading axis dropped, a load a rectangle of the ring, a staging row block and a result row block rectangles of their
buffers; following one entry through them adds the rectangles' offsets.
-/

/-! ## What a chunk carries

Chunk `i` of a device's input block `X` is its rows `512·i … 512·i + 511`; half `b` of it the columns
`1024·b … 1024·b + 1023`.  The body brings the chunk into a slot of the input ring, loads one half of the slot, rounds it
and stores it into rows `512·i …` of a staging buffer.  Read at an index, each of these steps only moves the index. -/

/-- Chunk `i`'s rows, column half `b`, of an input block, each entry rounded to the result's format. -/
def chunkOf (X : S8192x2048.Idx → F .f32) (i : Fin 16) (b : Fin 2) : FVec F S512x1024 .bf16 := fun y =>
  tr (X (ValueIdx.ix2 (⟨512 * i.val + (y 0).val, by have := (y 0).isLt; have : (y 0).val < 512 := this; have := i.isLt; omega⟩ : Fin 8192)
    (⟨1024 * b.val + (y 1).val, by have := (y 1).isLt; have : (y 1).val < 1024 := this; have := b.isLt; omega⟩ : Fin 2048)))

section Generic
variable {sig' : RefSig} {κ : Kind} {sp : Space} {s : Shape} {e : EltTy} {Val : EltTy → Type} [∀ e, Nonempty (Val e)]

/-- A buffer one of whose parts — a rectangle `r0` of it, re-indexed by another shape `s'` with as many elements — was
    last filled whole with `D` (whatever was written to the part before: the newest whole write decides every element
    of it), read through the whole buffer at coordinates `B`: where coordinate `x` of `B` is the place of the
    part's element `y'`, the value read is `D y'`. -/
theorem readAt_filled_part (w : View sig' κ sp s e) (r0 : Rect s) (s' : Shape) (h : s'.numel = r0.shape.numel)
    (B : LoadRect s) (D : s'.Idx → Val e) (L : List (View.Piece Val s' e)) (x : B.shape.Idx) (y' : s'.Idx)
    (hidx : B.idx x = r0.emb (Shape.reshapeEquiv h y')) :
    w.readAt Val B (((w.slice r0).reshape s' h).writes Val ((w.slice r0).reshape s' h).junk (⟨Rect.whole s', D⟩ :: L)) x = D y' := by
  have hD := View.read_writes_cons_emb ((w.slice r0).reshape s' h) ((w.slice r0).reshape s' h).junk (Rect.whole s') D L y'
  rw [Rect.emb_whole_apply, View.read_apply] at hD
  rw [View.readAt_apply, View.read_apply, hidx]
  exact hD

end Generic

theorem load_chunk0L (X : S8192x2048.Idx → F .f32) (i : Fin 16) (b : Fin 2) (off : Fin 3 → Nat) (hoff : off = ![0, 0, 1024 * b.val])
    (h : ∀ a, off a + S1x512x1024.size a ≤ S2x512x2048.size a) (L : List (View.Piece (Elt F) S512x2048 .f32)) :
    k0_pay1 (View.readAt (Elt F) (Memref.whole cc0_scratch0).view (Rect.unit (s := S2x512x2048) off S1x512x1024.size h).toLoadRect
      (inSl0.view.writes (Elt F) inSl0.view.junk (⟨Rect.whole S512x2048, ReadAs.same.apply (View.read (Elt F) (xSl i).view X)⟩ :: L)))
    = chunkOf X i b := by
  subst hoff
  funext y
  obtain ⟨p, q, rfl⟩ : ∃ (p : Fin 512) (q : Fin 1024), y = ValueIdx.ix2 p q := ⟨y 0, y 1, ValueIdx.eq_ix2 y⟩
  have hp := p.isLt
  have hq := q.isLt
  have hb := b.isLt
  have hi := i.isLt
  unfold k0_pay1
  rw [shapeCast_self]
  show FloatOps.truncf .bf16 bitsLt_bf16_f32 (shapeCast S512x1024 _ shapeCasts_S1x512x1024_S512x1024 (ValueIdx.ix2 p q))
    = FloatOps.truncf .bf16 bitsLt_bf16_f32 (X _)
  refine congrArg _ ?_
  -- the loaded vector has a leading axis of one coordinate: entry `(p, q)` of the payload is entry `(0, p, q)` of it
  refine (shapeCast_apply (s := S1x512x1024) _ _ (ValueIdx.ix2 p q) (ValueIdx.ix3 (0 : Fin 1) p q) (by
    rw [Shape.rowMajor_val_three, Shape.rowMajor_val_two]
    show (0 * 512 + p.val) * 1024 + q.val = p.val * 1024 + q.val
    omega)).trans ?_
  -- the slot is the ring's rectangle at `(0, 0, 0)` with its leading axis dropped: its entry `(p, l)` sits at `(0, p, l)` of the rectangle
  have hre : Shape.reshapeEquiv (s := (Rect.unit (s := S2x512x2048) ![0, 0, 0] S1x512x2048.size inb_S2x512x2048_S1x512x2048_0_0_0).shape) (s' := S512x2048)
      squeezes_S1x512x2048_S512x2048.numel_eq (ValueIdx.ix2 p (⟨1024 * b.val + q.val, by omega⟩ : Fin 2048))
      = ValueIdx.ix3 (0 : Fin 1) p (⟨1024 * b.val + q.val, by omega⟩ : Fin 2048) :=
    Shape.reshapeEquiv_eq_of_rowMajor _ (by
      rw [Shape.rowMajor_val_three, Shape.rowMajor_val_two]
      show (0 * 512 + p.val) * 2048 + (1024 * b.val + q.val) = p.val * 2048 + (1024 * b.val + q.val)
      omega)
  -- the load takes entry `(0, p, q)` from place `(0, p, 1024·b + q)` of the ring: entry `(p, 1024·b + q)` of slot `0`
  refine (readAt_filled_part (Memref.whole cc0_scratch0).view
    (Rect.unit (s := S2x512x2048) ![0, 0, 0] S1x512x2048.size inb_S2x512x2048_S1x512x2048_0_0_0) S512x2048 squeezes_S1x512x2048_S512x2048.numel_eq _ _ L _
    (ValueIdx.ix2 p (⟨1024 * b.val + q.val, by omega⟩ : Fin 2048)) ?_).trans ?_
  · rw [hre]
    funext a
    apply Fin.ext
    match a with
    | ⟨0, _⟩ => show 0 + 1 * 0 = 0 + 1 * 0; rfl
    | ⟨1, _⟩ => show 0 + 1 * p.val = 0 + 1 * p.val; rfl
    | ⟨2, _⟩ => show 1024 * b.val + 1 * q.val = 0 + 1 * (1024 * b.val + q.val); omega
  -- and the slot holds chunk `i` of the block: its entry `(p, l)` is the block's `(512·i + p, l)`
  show X _ = X _
  refine congrArg X ?_
  funext a
  apply Fin.ext
  match a with
  | ⟨0, _⟩ => show 512 * i.val + 1 * p.val = 512 * i.val + p.val; omega
  | ⟨1, _⟩ => show 0 + 1 * (1024 * b.val + q.val) = 1024 * b.val + q.val; omega

theorem load_chunk1L (X : S8192x2048.Idx → F .f32) (i : Fin 16) (b : Fin 2) (off : Fin 3 → Nat) (hoff : off = ![1, 0, 1024 * b.val])
    (h : ∀ a, off a + S1x512x1024.size a ≤ S2x512x2048.size a) (L : List (View.Piece (Elt F) S512x2048 .f32)) :
    k0_pay1 (View.readAt (Elt F) (Memref.whole cc0_scratch0).view (Rect.unit (s := S2x512x2048) off S1x512x1024.size h).toLoadRect
      (inSl1.view.writes (Elt F) inSl1.view.junk (⟨Rect.whole S512x2048, ReadAs.same.apply (View.read (Elt F) (xSl i).view X)⟩ :: L)))
    = chunkOf X i b := by
  subst hoff
  funext y
  obtain ⟨p, q, rfl⟩ : ∃ (p : Fin 512) (q : Fin 1024), y = ValueIdx.ix2 p q := ⟨y 0, y 1, ValueIdx.eq_ix2 y⟩
  have hp := p.isLt
  have hq := q.isLt
  have hb := b.isLt
  have hi := i.isLt
  unfold k0_pay1
  rw [shapeCast_self]
  show FloatOps.truncf .bf16 bitsLt_bf16_f32 (shapeCast S512x1024 _ shapeCasts_S1x512x1024_S512x1024 (ValueIdx.ix2 p q))
    = FloatOps.truncf .bf16 bitsLt_bf16_f32 (X _)
  refine congrArg _ ?_
  -- the loaded vector has a leading axis of one coordinate: entry `(p, q)` of the payload is entry `(0, p, q)` of it
  refine (shapeCast_apply (s := S1x512x1024) _ _ (ValueIdx.ix2 p q) (ValueIdx.ix3 (0 : Fin 1) p q) (by
    rw [Shape.rowMajor_val_three, Shape.rowMajor_val_two]
    show (0 * 512 + p.val) * 1024 + q.val = p.val * 1024 + q.val
    omega)).trans ?_
  -- the slot is the ring's rectangle at `(1, 0, 0)` with its leading axis dropped: its entry `(p, l)` sits at `(0, p, l)` of the rectangle
  have hre : Shape.reshapeEquiv (s := (Rect.unit (s := S2x512x2048) ![1, 0, 0] S1x512x2048.size inb_S2x512x2048_S1x512x2048_1_0_0).shape) (s' := S512x2048)
      squeezes_S1x512x2048_S512x2048.numel_eq (ValueIdx.ix2 p (⟨1024 * b.val + q.val, by omega⟩ : Fin 2048))
      = ValueIdx.ix3 (0 : Fin 1) p (⟨1024 * b.val + q.val, by omega⟩ : Fin 2048) :=
    Shape.reshapeEquiv_eq_of_rowMajor _ (by
      rw [Shape.rowMajor_val_three, Shape.rowMajor_val_two]
      show (0 * 512 + p.val) * 2048 + (1024 * b.val + q.val) = p.val * 2048 + (1024 * b.val + q.val)
      omega)
  -- the load takes entry `(0, p, q)` from place `(1, p, 1024·b + q)` of the ring: entry `(p, 1024·b + q)` of slot `1`
  refine (readAt_filled_part (Memref.whole cc0_scratch0).view
    (Rect.unit (s := S2x512x2048) ![1, 0, 0] S1x512x2048.size inb_S2x512x2048_S1x512x2048_1_0_0) S512x2048 squeezes_S1x512x2048_S512x2048.numel_eq _ _ L _
    (ValueIdx.ix2 p (⟨1024 * b.val + q.val, by omega⟩ : Fin 2048)) ?_).trans ?_
  · rw [hre]
    funext a
    apply Fin.ext
    match a with
    | ⟨0, _⟩ => show 1 + 1 * 0 = 1 + 1 * 0; rfl
    | ⟨1, _⟩ => show 0 + 1 * p.val = 0 + 1 * p.val; rfl
    | ⟨2, _⟩ => show 1024 * b.val + 1 * q.val = 0 + 1 * (1024 * b.val + q.val); omega
  -- and the slot holds chunk `i` of the block: its entry `(p, l)` is the block's `(512·i + p, l)`
  show X _ = X _
  refine congrArg X ?_
  funext a
  apply Fin.ext
  match a with
  | ⟨0, _⟩ => show 512 * i.val + 1 * p.val = 512 * i.val + p.val; omega
  | ⟨1, _⟩ => show 0 + 1 * (1024 * b.val + q.val) = 1024 * b.val + q.val; omega

/-- The slot filled once: the list of one write. -/
theorem load_chunk0 (X : S8192x2048.Idx → F .f32) (i : Fin 16) (b : Fin 2) (off : Fin 3 → Nat) (hoff : off = ![0, 0, 1024 * b.val])
    (h : ∀ a, off a + S1x512x1024.size a ≤ S2x512x2048.size a) :
    k0_pay1 (View.readAt (Elt F) (Memref.whole cc0_scratch0).view (Rect.unit (s := S2x512x2048) off S1x512x1024.size h).toLoadRect
      (inSl0.view.writes (Elt F) inSl0.view.junk [⟨Rect.whole S512x2048, ReadAs.same.apply (View.read (Elt F) (xSl i).view X)⟩]))
    = chunkOf X i b := load_chunk0L X i b off hoff h []

/-- The slot filled once: the list of one write. -/
theorem load_chunk1 (X : S8192x2048.Idx → F .f32) (i : Fin 16) (b : Fin 2) (off : Fin 3 → Nat) (hoff : off = ![1, 0, 1024 * b.val])
    (h : ∀ a, off a + S1x512x1024.size a ≤ S2x512x2048.size a) :
    k0_pay1 (View.readAt (Elt F) (Memref.whole cc0_scratch0).view (Rect.unit (s := S2x512x2048) off S1x512x1024.size h).toLoadRect
      (inSl1.view.writes (Elt F) inSl1.view.junk [⟨Rect.whole S512x2048, ReadAs.same.apply (View.read (Elt F) (xSl i).view X)⟩]))
    = chunkOf X i b := load_chunk1L X i b off hoff h []

/-! ### The payloads' names

Every chunk half is one load, one rounding and two re-indexings that keep every index where it is.  The body's text names
that term once per store (and, where a cut of the text falls between the rounding and the store, in two pieces); all
of them are the first one. -/

section PayNames
variable (v : Vec F S1x512x1024 .f32)
theorem pay4_eq : k0_pay4 v = k0_pay1 v := rfl
theorem pay5_eq : k0_pay5 v = k0_pay1 v := rfl
theorem pay6_eq : k0_pay6 v = k0_pay1 v := rfl
theorem pay9_eq : k0_pay9 v = k0_pay1 v := rfl
theorem pay10_eq : k0_pay10 v = k0_pay1 v := rfl
theorem pay11_eq : k0_pay11 v = k0_pay1 v := rfl
theorem pay12_eq : k0_pay12 v = k0_pay1 v := rfl
theorem pay13_eq : k0_pay13 v = k0_pay1 v := rfl
theorem pay14_eq : k0_pay14 v = k0_pay1 v := rfl
theorem pay15_eq : k0_pay15 v = k0_pay1 v := rfl
theorem pay16_eq : k0_pay16 v = k0_pay1 v := rfl
theorem pay17_eq : k0_pay17 v = k0_pay1 v := rfl
theorem pay18_eq : k0_pay18 v = k0_pay1 v := rfl
theorem pay19_eq : k0_pay19 v = k0_pay1 v := rfl
theorem pay20_eq : k0_pay20 v = k0_pay1 v := rfl
theorem pay23_eq : k0_pay23 v = k0_pay1 v := rfl
theorem pay24_eq : k0_pay24 v = k0_pay1 v := rfl
theorem pay25_eq : k0_pay25 v = k0_pay1 v := rfl
theorem pay28_eq : k0_pay28 v = k0_pay1 v := rfl
theorem pay29_eq : k0_pay29 v = k0_pay1 v := rfl
theorem pay30_eq : k0_pay30 v = k0_pay1 v := rfl
theorem pay33_eq : k0_pay33 v = k0_pay1 v := rfl
theorem pay34_eq : k0_pay34 v = k0_pay1 v := rfl
theorem pay35_eq : k0_pay35 v = k0_pay1 v := rfl
theorem pay36_eq : k0_pay36 v = k0_pay1 v := rfl
theorem pay37_eq : k0_pay37 v = k0_pay1 v := rfl
theorem pay3_pay2_eq : k0_pay3 (k0_pay2 v) = k0_pay1 v := rfl
theorem pay8_pay7_eq : k0_pay8 (k0_pay7 v) = k0_pay1 v := rfl
theorem pay22_pay21_eq : k0_pay22 (k0_pay21 v) = k0_pay1 v := rfl
theorem pay27_pay26_eq : k0_pay27 (k0_pay26 v) = k0_pay1 v := rfl
theorem pay32_pay31_eq : k0_pay32 (k0_pay31 v) = k0_pay1 v := rfl
end PayNames

theorem read_store_send (i : Fin 16) (f : (sbSl i).view.ty.Contents (Elt F)) (P : FVec F S512x1024 .bf16)
    (h : ∀ a, (![512 * i.val, 0] : Fin 2 → Nat) a + S512x1024.size a ≤ S8192x1024.size a) :
    (sbSl i).view.read (Elt F) (View.write (Elt F) ((Memref.whole cc0_scratch1).access (Rect.unit (s := S8192x1024) ![512 * i.val, 0] S512x1024.size h)) f P Finset.univ) = P :=
  View.read_write_univ f P

theorem read_store_local (i : Fin 16) (f : (lbSl i).view.ty.Contents (Elt F)) (P : FVec F S512x1024 .bf16)
    (h : ∀ a, (![512 * i.val, 0] : Fin 2 → Nat) a + S512x1024.size a ≤ S8192x1024.size a) :
    (lbSl i).view.read (Elt F) (View.write (Elt F) ((Memref.whole cc0_scratch2).access (Rect.unit (s := S8192x1024) ![512 * i.val, 0] S512x1024.size h)) f P Finset.univ) = P :=
  View.read_write_univ f P

/-! ## Where a chunk lands in a result array -/

/-- Entry `(p, q)` of the rows of a result array that device `d`'s chunk `i` goes to is entry
    `(8192·z_d + 512·i + p, q)` of the array. -/
theorem oSl_emb_val (d : Dev nD) (i : Fin 16) (y : S512x1024.Idx) (idx : S16384x1024.Idx) (hidx : idx = (oSl d i).view.emb y) :
    (idx 0).val = 8192 * (d.val % 2) + 512 * i.val + (y 0).val ∧ (idx 1).val = (y 1).val := by
  subst hidx
  have h := k0_off2_eq d i
  constructor
  · show (k0_off2 d (BitVec.ofNat 32 (512 * i.val))) 0 + 1 * (y 0).val = _
    rw [h]
    show 8192 * (d.val % 2) + 512 * i.val + 1 * (y 0).val = _
    omega
  · show (k0_off2 d (BitVec.ofNat 32 (512 * i.val))) 1 + 1 * (y 1).val = _
    rw [h]
    show 0 + 1 * (y 1).val = _
    omega

/-- The final contents of device `q`'s result array at the rows device `d`'s chunk `i` goes to, when `d` is the
    device of `q`'s pair whose rows those are and `q`'s last coordinate is `b`: the chunk's half `b`. -/
theorem Gfun_at_chunk (q d : Dev nD) (hd : d = q ∨ d = peer q) (i : Fin 16) (b : Fin 2) (hb : b.val = q.val % 2) (y : S512x1024.Idx) :
    Gfun m q ((oSl d i).view.emb y) = chunkOf (xOf m d) i b y := by
  obtain ⟨hi0, hi1⟩ := oSl_emb_val d i y _ rfl
  have hy0 : (y 0).val < 512 := (y 0).isLt
  have hy1 : (y 1).val < 1024 := (y 1).isLt
  have hi := i.isLt
  have hz : d.val % 2 < 2 := Nat.mod_lt _ (by decide)
  have hdiv : (((oSl d i).view.emb y : S16384x1024.Idx) 0).val / 8192 = d.val % 2 := by rw [hi0]; omega
  have hmod : (((oSl d i).view.emb y : S16384x1024.Idx) 0).val % 8192 = 512 * i.val + (y 0).val := by rw [hi0]; omega
  have hdev : (if (((oSl d i).view.emb y : S16384x1024.Idx) 0).val / 8192 = q.val % 2 then q else peer q) = d := by
    rw [hdiv]
    rcases hd with rfl | rfl
    · rw [if_pos rfl]
    · rw [if_neg (by rw [peer_z]; omega)]
  unfold Gfun chunkOf
  show tr (xOf m (if (((oSl d i).view.emb y : S16384x1024.Idx) 0).val / 8192 = q.val % 2 then q else peer q) _) = tr (xOf m d _)
  rw [hdev]
  refine congrArg (fun j => tr (xOf m d j)) ?_
  funext a
  apply Fin.ext
  match a with
  | ⟨0, _⟩ => exact hmod
  | ⟨1, _⟩ => show 1024 * (q.val % 2) + (((oSl d i).view.emb y : S16384x1024.Idx) 1).val = 1024 * b.val + (y 1).val; rw [hi1, hb]

section Generic2
variable {sig' : RefSig} {κ : Kind} {sp : Space} {s : Shape} {e : EltTy} {Val : EltTy → Type}

/-- A view filled whole with `V` holds `V y` under its index `y`, whatever the buffer held before. -/
theorem writes_whole_at_emb (v : View sig' κ sp s e) (base : v.ty.Contents Val) (V : s.Idx → Val e) (y : s.Idx) :
    v.writes Val base [⟨Rect.whole s, V⟩] (v.emb y) = _root_.cast (congrArg Val v.elt_eq.symm) (V y) := by
  rw [← View.write_univ_eq_writes_whole v base [] V]
  exact View.write_emb_of_mem _ _ (Finset.mem_univ y)

end Generic2

/-- What device `c`'s chunk `i` carries to its partner — half `1 - z_c` of the chunk — is, at the rows it is written
    to, the partner's result array at its final contents. -/
theorem remote_final (c : Dev nD) (i : Fin 16) (fd : (oSl c i).view.ty.Contents (Elt F)) (V : FVec F S512x1024 .bf16)
    (hV : V = chunkOf (xOf m c) i ⟨1 - c.val % 2, by omega⟩) :
    ∀ idx ∈ (oSl c i).view.set, (oSl c i).view.write (Elt F) fd V Finset.univ idx = Gfun m (peer c) idx := by
  intro idx hidx
  obtain ⟨y, rfl⟩ := View.exists_emb_of_mem_set _ hidx
  rw [View.write_emb_of_mem _ _ (Finset.mem_univ y), hV]
  exact (Gfun_at_chunk m (peer c) c (Or.inr (peer_peer c).symm) i _ (by rw [peer_z]) y).symm

/-- What stays — half `z_c` of the chunk — is, at the same rows of the device's own result array, its final contents. -/
theorem local_final (c : Dev nD) (i : Fin 16) (base : (oSl c i).view.ty.Contents (Elt F)) (V : FVec F S512x1024 .bf16)
    (hV : V = chunkOf (xOf m c) i ⟨c.val % 2, Nat.mod_lt _ (by decide)⟩) :
    ∀ idx ∈ (oSl c i).view.set, (oSl c i).view.writes (Elt F) base [⟨Rect.whole S512x1024, V⟩] idx = Gfun m c idx := by
  intro idx hidx
  obtain ⟨y, rfl⟩ := View.exists_emb_of_mem_set _ hidx
  rw [writes_whole_at_emb, hV]
  exact (Gfun_at_chunk m c c (Or.inl rfl) i _ rfl y).symm

/-- info: 'Cert.Kernel.Exchange.load_chunk0L' depends on axioms: [propext, Classical.choice, Quot.sound] -/
#guard_msgs in #print axioms load_chunk0L
/-- info: 'Cert.Kernel.Exchange.load_chunk1L' depends on axioms: [propext, Classical.choice, Quot.sound] -/
#guard_msgs in #print axioms load_chunk1L
/-- info: 'Cert.Kernel.Exchange.load_chunk0' depends on axioms: [propext, Classical.choice, Quot.sound] -/
#guard_msgs in #print axioms load_chunk0
/-- info: 'Cert.Kernel.Exchange.load_chunk1' depends on axioms: [propext, Classical.choice, Quot.sound] -/
#guard_msgs in #print axioms load_chunk1
/-- info: 'Cert.Kernel.Exchange.remote_final' depends on axioms: [propext, Classical.choice, Quot.sound] -/
#guard_msgs in #print axioms remote_final
/-- info: 'Cert.Kernel.Exchange.local_final' depends on axioms: [propext, Classical.choice, Quot.sound] -/
#guard_msgs in #print axioms local_final

end Cert.Kernel.Exchange

end
-- ==== Proof.Kernel.Body.lean ====
import proofs.«900631_g7700000000000632_dist_a2a_v7x_xyz2x2x2_z_m8192_n1024_bf16_1_alg».proof.Proof.Kernel.BodySpec
import proofs.«900631_g7700000000000632_dist_a2a_v7x_xyz2x2x2_z_m8192_n1024_bf16_1_alg».proof.Proof.Kernel.Values

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The kernel body, run

One signal to the partner's barrier cell, then sixteen chunks: the next chunk's load is started, this chunk's load is
waited for, its two column halves are rounded into the two staging buffers, the partner's half goes out by an addressed
copy into the partner's result rows (handed over with the partner's barrier signal, waited for before the first such
copy) and the own half by a local copy into the own result rows; then the sixteen local copies and the sixteen pairs of
send and receive cells are waited for. -/

omit [FloatOps F] in
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

theorem off1_b : ∀ c : Dev nD, k0_off1 c = ![0, 0, 1024 * (1 - c.val % 2)] := by decide +kernel
theorem off4_b : ∀ c : Dev nD, k0_off4 c = ![1, 0, 1024 * (1 - c.val % 2)] := by decide +kernel

/-- `wp_send_chunk` with the owed term split by an equation. -/
theorem wp_send_chunk' (K : Dev nD → CK → ℕ) (c n : Dev nD) (hn : n = peer c) (i : Fin 16)
    {hsc : (oSl c i : Memref sig (Dev.tc n : Thread nD τ).2.kind .hbm S512x1024 .bf16).view.ref.isScScratch = false}
    {hsrc : (sbSl i : Memref sig .tc .vmem S512x1024 .bf16).view.WordExact} {hdst : (oSl c i : Memref sig .tc .hbm S512x1024 .bf16).view.WordExact}
    {hsem : DmaTarget.Typed .vmem (.dma (recvSem i)) (.remote (Dev.tc n : Thread nD τ) (oSl c i : Memref sig .tc .hbm S512x1024 .bf16) (.dma (sendSem i)) hsc)}
    {α : Type} {Q : α → sProp 𝕄} {k : PUnit → Prog (TpuEff nD τ sig (Elt F) Λ₀ .tc) α}
    (fs : Buf (Elt F) ((sbSl i).view.loc (c : Thread nD τ))) (fd : Buf (Elt F) ((oSl c i).view.loc (peer c : Thread nD τ)))
    (O' O : CellTallies nD τ sig Unit) (hO : O' = O + tallyAt (recvCell (peer c) i) () N) (W : Waits sig Unit)
    (hG : ∀ idx ∈ (oSl c i).view.set, (oSl c i).view.write (Elt F) fd ((sbSl i).view.read (Elt F) fs) Finset.univ idx = Gfun m (peer c) idx) :
    iprop(cellInv ER (sched m) (K c (.send i)) (sendCell c i) ∗ cellInv ER (sched m) (K (peer c) (.recv i)) (recvCell (peer c) i)
        ∗ ((sbSl i).view.loc (c : Thread nD τ) ↦[(sbSl i).view.set]{fullShare} fs)
        ∗ ((oSl c i).view.loc (peer c : Thread nD τ) ↦[(oSl c i).view.set]{fullShare} fd)
        ∗ owes (c : Thread nD τ) O' W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSl i) (.remote (Dev.tc n : Thread nD τ) (oSl c i) (.dma (sendSem i)) hsc) (.dma (recvSem i)) hsrc hdst hsem) k) Q) := by
  subst hO
  exact wp_send_chunk m K c n hn i fs fd O W hG

attribute [local sl_canon] dev1_eq dev2_eq dev3_eq dev4_eq dev5_eq dev6_eq dev7_eq dev8_eq dev9_eq dev10_eq dev11_eq dev12_eq dev13_eq dev14_eq dev15_eq dev16_eq dev17_eq
attribute [local sl_rounds] duties_bar duties_send duties_recv amount_bar amount_send amount_recv expect_bar expect_send expect_recv payload_bar_own payload_send payload_recv

set_option maxHeartbeats 8000000 in
set_option maxRecDepth 32768 in
set_option sl_exec.stepHeartbeats 600000 in
theorem body_run (K : Dev nD → CK → ℕ) (c : Dev nD) (Kt : PUnit → sProp 𝕄)
    (fin : Buf (Elt F) ((c : Thread nD τ).loc cc0_scratch0)) (fsb : Buf (Elt F) ((c : Thread nD τ).loc cc0_scratch1))
    (flb : Buf (Elt F) ((c : Thread nD τ).loc cc0_scratch2)) (fo : Buf (Elt F) ((c : Thread nD τ).loc main_v1)) (W : Waits sig Unit) :
    iprop(bodyPre m K c fin fsb flb fo W ∗ (bodyPost m K c -∗ Kt ⟨⟩))
      ⊢ wp frame (wpE (defs₀ (F := F)) 𝒱₀ c none) Set.univ (bodyProg (F := F)) Kt := by
  unfold bodyPre invs localSems sbuf lbuf slot
  simp (config := { proj := false }) only [bigSep_fin16, bigSep_fin18, Fin.coe_ofNat_eq_mod, Nat.reduceMod]
  rw [show whole c main_arg0 (m ((c : Thread nD τ).loc main_arg0)) = (xM.view.loc (c : Thread nD τ) ↦{fullShare} m ((c : Thread nD τ).loc main_arg0)) from rfl]
  iintro ⟨⟨⟨#HIb, #HIbP, ⟨#HIs0, #HIs1, #HIs2, #HIs3, #HIs4, #HIs5, #HIs6, #HIs7, #HIs8, #HIs9, #HIs10, #HIs11, #HIs12, #HIs13, #HIs14, #HIs15⟩, ⟨#HIr0, #HIr1, #HIr2, #HIr3, #HIr4, #HIr5, #HIr6, #HIr7, #HIr8, #HIr9, #HIr10, #HIr11, #HIr12, #HIr13, #HIr14, #HIr15⟩, ⟨#HIp0, #HIp1, #HIp2, #HIp3, #HIp4, #HIp5, #HIp6, #HIp7, #HIp8, #HIp9, #HIp10, #HIp11, #HIp12, #HIp13, #HIp14, #HIp15⟩⟩, HO, HtB, #HrB, HpayP, ⟨Hz0, Hz1, Hz2, Hz3, Hz4, Hz5, Hz6, Hz7, Hz8, Hz9, Hz10, Hz11, Hz12, Hz13, Hz14, Hz15, Hz16, Hz17⟩, ⟨#Hrs0, #Hrs1, #Hrs2, #Hrs3, #Hrs4, #Hrs5, #Hrs6, #Hrs7, #Hrs8, #Hrs9, #Hrs10, #Hrs11, #Hrs12, #Hrs13, #Hrs14, #Hrs15⟩, HatB, ⟨Has0, Has1, Has2, Has3, Has4, Has5, Has6, Has7, Has8, Has9, Has10, Has11, Has12, Has13, Has14, Has15⟩, ⟨Har0, Har1, Har2, Har3, Har4, Har5, Har6, Har7, Har8, Har9, Har10, Har11, Har12, Har13, Har14, Har15⟩, ⟨Hts0, Hts1, Hts2, Hts3, Hts4, Hts5, Hts6, Hts7, Hts8, Hts9, Hts10, Hts11, Hts12, Hts13, Hts14, Hts15⟩, ⟨Htp0, Htp1, Htp2, Htp3, Htp4, Htp5, Htp6, Htp7, Htp8, Htp9, Htp10, Htp11, Htp12, Htp13, Htp14, Htp15⟩, HcB, ⟨Hcr0, Hcr1, Hcr2, Hcr3, Hcr4, Hcr5, Hcr6, Hcr7, Hcr8, Hcr9, Hcr10, Hcr11, Hcr12, Hcr13, Hcr14, Hcr15⟩, #Hlev, Hx, Hin0, Hin1, ⟨Hsb0, Hsb1, Hsb2, Hsb3, Hsb4, Hsb5, Hsb6, Hsb7, Hsb8, Hsb9, Hsb10, Hsb11, Hsb12, Hsb13, Hsb14, Hsb15⟩, ⟨Hlb0, Hlb1, Hlb2, Hlb3, Hlb4, Hlb5, Hlb6, Hlb7, Hlb8, Hlb9, Hlb10, Hlb11, Hlb12, Hlb13, Hlb14, Hlb15⟩, ⟨Hq0, Hq1, Hq2, Hq3, Hq4, Hq5, Hq6, Hq7, Hq8, Hq9, Hq10, Hq11, Hq12, Hq13, Hq14, Hq15⟩⟩, Hk⟩
  unfold O₀
  unfold bodyProg cc0_body_skel
  sl_exec_parts
  simp (config := { proj := false }) only [semSignalWord, Prog.lift, Prog.bind_op, Prog.bind_ret, Prog.pure_eq_ret]
  iapply (Rounds.wp_signal 𝒱₀ ER (sched m) (c : Thread nD τ) none (dst := (peer c : Thread nD τ)) (κ := K (peer c) .bar)
      (d := ()) (by rw [duties_bar]; exact Finset.mem_singleton_self _) ((amount_bar m (peer c) ()).trans (by decide)) () _ rfl)
    $$ [HO HtB HpayP]
  · isplitr; · iexact HIbP
    isplitl [HO]; · iexact HO
    isplitl [HtB]; · iexact HtB
    isplitl [HpayP]; · rw [payload_bar]; iexact HpayP
    iexact HrB
  iintro HO
  have hmwL : ∀ (q : DmaSem sig), q.val < 18 → ∀ (O : CellTallies nD τ sig Unit), OwesRecv c O →
      ((levAts L lv : sProp 𝕄) ⊢ MayWait (c : Thread nD τ) (.dma q) () O) :=
    fun q hq O h => mayWait_owes c (.dma q) (by rw [lv_local c q hq]; decide) h
  have hmwB : ∀ (O : CellTallies nD τ sig Unit), OwesRecv c O →
      ((levAts L lv : sProp 𝕄) ⊢ MayWait (c : Thread nD τ) (.reg barS) () O) :=
    fun O h => mayWait_owes c (.reg barS) (by rw [show lv ((c : Thread nD τ), SemLoc.reg barS) () = 1 from lv_bar c]; decide) h
  have hO0 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N) := by repeat' (first | exact OwesRecv.one _ | apply OwesRecv.add)
  have hO1 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N) := by repeat' (first | exact OwesRecv.one _ | apply OwesRecv.add)
  have hO2 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) := by repeat' (first | exact OwesRecv.one _ | apply OwesRecv.add)
  have hO3 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N) := by repeat' (first | exact OwesRecv.one _ | apply OwesRecv.add)
  have hO4 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N) := by repeat' (first | exact OwesRecv.one _ | apply OwesRecv.add)
  have hO5 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N) := by repeat' (first | exact OwesRecv.one _ | apply OwesRecv.add)
  have hO6 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N) := by repeat' (first | exact OwesRecv.one _ | apply OwesRecv.add)
  have hO7 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N) := by repeat' (first | exact OwesRecv.one _ | apply OwesRecv.add)
  have hO8 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N) := by repeat' (first | exact OwesRecv.one _ | apply OwesRecv.add)
  have hO9 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N) := by repeat' (first | exact OwesRecv.one _ | apply OwesRecv.add)
  have hO10 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N) := by repeat' (first | exact OwesRecv.one _ | apply OwesRecv.add)
  have hO11 : OwesRecv c (tallyAt (recvCell (peer c) 15) () N + tallyAt (recvCell (peer c) 14) () N + tallyAt (recvCell (peer c) 13) () N + tallyAt (recvCell (peer c) 12) () N + tallyAt (recvCell (peer c) 11) () N) := by repeat' (first | exact OwesRecv.one _ | apply OwesRecv.add)
  have hO12 : OwesRecv c (tallyAt (recvCell (peer c) 15) () N + tallyAt (recvCell (peer c) 14) () N + tallyAt (recvCell (peer c) 13) () N + tallyAt (recvCell (peer c) 12) () N) := by repeat' (first | exact OwesRecv.one _ | apply OwesRecv.add)
  have hO13 : OwesRecv c (tallyAt (recvCell (peer c) 15) () N + tallyAt (recvCell (peer c) 14) () N + tallyAt (recvCell (peer c) 13) () N) := by repeat' (first | exact OwesRecv.one _ | apply OwesRecv.add)
  have hO14 : OwesRecv c (tallyAt (recvCell (peer c) 15) () N + tallyAt (recvCell (peer c) 14) () N) := by repeat' (first | exact OwesRecv.one _ | apply OwesRecv.add)
  have hO15 : OwesRecv c (tallyAt (recvCell (peer c) 15) () N) := by repeat' (first | exact OwesRecv.one _ | apply OwesRecv.add)
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay1 with ⟨⟨%fd0, Hd0⟩, #Hrp0⟩
  iapply (wp_send_chunk' m K c _ rfl 0 _ fd0 _ _ rfl _ (remote_final m c 0 fd0 _ ((read_store_send 0 fsb _ _).trans (load_chunk0L (xOf m c) 0 ⟨1 - c.val % 2, by omega⟩ (k0_off1 c) (off1_b c) _ _)))) $$ [Hsb0 Hd0 HO Hts0 Htp0]
  · isplitr; · iexact HIs0
    isplitr; · iexact HIp0
    isplitl [Hsb0]; · iexact Hsb0
    isplitl [Hd0]; · iexact Hd0
    isplitl [HO]; · iexact HO
    isplitl [Hts0]; · iexact Hts0
    isplitr; · iexact Hrs0
    isplitl [Htp0]; · iexact Htp0
    iexact Hrp0
  iintro ⟨Hcs0, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay2 with ⟨⟨%fd1, Hd1⟩, #Hrp1⟩
  iapply (wp_send_chunk' m K c _ rfl 1 _ fd1 _ _ rfl _ (remote_final m c 1 fd1 _ ((read_store_send 1 fsb _ _).trans (load_chunk1L (xOf m c) 1 ⟨1 - c.val % 2, by omega⟩ (k0_off4 c) (off4_b c) _ _)))) $$ [Hsb1 Hd1 HO Hts1 Htp1]
  · isplitr; · iexact HIs1
    isplitr; · iexact HIp1
    isplitl [Hsb1]; · iexact Hsb1
    isplitl [Hd1]; · iexact Hd1
    isplitl [HO]; · iexact HO
    isplitl [Hts1]; · iexact Hts1
    isplitr; · iexact Hrs1
    isplitl [Htp1]; · iexact Htp1
    iexact Hrp1
  iintro ⟨Hcs1, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay3 with ⟨⟨%fd2, Hd2⟩, #Hrp2⟩
  iapply (wp_send_chunk' m K c _ rfl 2 _ fd2 _ _ rfl _ (remote_final m c 2 fd2 _ ((read_store_send 2 fsb _ _).trans (load_chunk0L (xOf m c) 2 ⟨1 - c.val % 2, by omega⟩ (k0_off1 c) (off1_b c) _ _)))) $$ [Hsb2 Hd2 HO Hts2 Htp2]
  · isplitr; · iexact HIs2
    isplitr; · iexact HIp2
    isplitl [Hsb2]; · iexact Hsb2
    isplitl [Hd2]; · iexact Hd2
    isplitl [HO]; · iexact HO
    isplitl [Hts2]; · iexact Hts2
    isplitr; · iexact Hrs2
    isplitl [Htp2]; · iexact Htp2
    iexact Hrp2
  iintro ⟨Hcs2, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay4 with ⟨⟨%fd3, Hd3⟩, #Hrp3⟩
  iapply (wp_send_chunk' m K c _ rfl 3 _ fd3 _ _ rfl _ (remote_final m c 3 fd3 _ ((read_store_send 3 fsb _ _).trans (load_chunk1L (xOf m c) 3 ⟨1 - c.val % 2, by omega⟩ (k0_off4 c) (off4_b c) _ _)))) $$ [Hsb3 Hd3 HO Hts3 Htp3]
  · isplitr; · iexact HIs3
    isplitr; · iexact HIp3
    isplitl [Hsb3]; · iexact Hsb3
    isplitl [Hd3]; · iexact Hd3
    isplitl [HO]; · iexact HO
    isplitl [Hts3]; · iexact Hts3
    isplitr; · iexact Hrs3
    isplitl [Htp3]; · iexact Htp3
    iexact Hrp3
  iintro ⟨Hcs3, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay5 with ⟨⟨%fd4, Hd4⟩, #Hrp4⟩
  iapply (wp_send_chunk' m K c _ rfl 4 _ fd4 _ _ rfl _ (remote_final m c 4 fd4 _ ((read_store_send 4 fsb _ _).trans (load_chunk0L (xOf m c) 4 ⟨1 - c.val % 2, by omega⟩ (k0_off1 c) (off1_b c) _ _)))) $$ [Hsb4 Hd4 HO Hts4 Htp4]
  · isplitr; · iexact HIs4
    isplitr; · iexact HIp4
    isplitl [Hsb4]; · iexact Hsb4
    isplitl [Hd4]; · iexact Hd4
    isplitl [HO]; · iexact HO
    isplitl [Hts4]; · iexact Hts4
    isplitr; · iexact Hrs4
    isplitl [Htp4]; · iexact Htp4
    iexact Hrp4
  iintro ⟨Hcs4, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay6 with ⟨⟨%fd5, Hd5⟩, #Hrp5⟩
  iapply (wp_send_chunk' m K c _ rfl 5 _ fd5 _ _ rfl _ (remote_final m c 5 fd5 _ ((read_store_send 5 fsb _ _).trans (load_chunk1L (xOf m c) 5 ⟨1 - c.val % 2, by omega⟩ (k0_off4 c) (off4_b c) _ _)))) $$ [Hsb5 Hd5 HO Hts5 Htp5]
  · isplitr; · iexact HIs5
    isplitr; · iexact HIp5
    isplitl [Hsb5]; · iexact Hsb5
    isplitl [Hd5]; · iexact Hd5
    isplitl [HO]; · iexact HO
    isplitl [Hts5]; · iexact Hts5
    isplitr; · iexact Hrs5
    isplitl [Htp5]; · iexact Htp5
    iexact Hrp5
  iintro ⟨Hcs5, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay7 with ⟨⟨%fd6, Hd6⟩, #Hrp6⟩
  iapply (wp_send_chunk' m K c _ rfl 6 _ fd6 _ _ rfl _ (remote_final m c 6 fd6 _ ((read_store_send 6 fsb _ _).trans (load_chunk0L (xOf m c) 6 ⟨1 - c.val % 2, by omega⟩ (k0_off1 c) (off1_b c) _ _)))) $$ [Hsb6 Hd6 HO Hts6 Htp6]
  · isplitr; · iexact HIs6
    isplitr; · iexact HIp6
    isplitl [Hsb6]; · iexact Hsb6
    isplitl [Hd6]; · iexact Hd6
    isplitl [HO]; · iexact HO
    isplitl [Hts6]; · iexact Hts6
    isplitr; · iexact Hrs6
    isplitl [Htp6]; · iexact Htp6
    iexact Hrp6
  iintro ⟨Hcs6, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay8 with ⟨⟨%fd7, Hd7⟩, #Hrp7⟩
  iapply (wp_send_chunk' m K c _ rfl 7 _ fd7 _ _ rfl _ (remote_final m c 7 fd7 _ ((read_store_send 7 fsb _ _).trans (load_chunk1L (xOf m c) 7 ⟨1 - c.val % 2, by omega⟩ (k0_off4 c) (off4_b c) _ _)))) $$ [Hsb7 Hd7 HO Hts7 Htp7]
  · isplitr; · iexact HIs7
    isplitr; · iexact HIp7
    isplitl [Hsb7]; · iexact Hsb7
    isplitl [Hd7]; · iexact Hd7
    isplitl [HO]; · iexact HO
    isplitl [Hts7]; · iexact Hts7
    isplitr; · iexact Hrs7
    isplitl [Htp7]; · iexact Htp7
    iexact Hrp7
  iintro ⟨Hcs7, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay9 with ⟨⟨%fd8, Hd8⟩, #Hrp8⟩
  iapply (wp_send_chunk' m K c _ rfl 8 _ fd8 _ _ rfl _ (remote_final m c 8 fd8 _ ((read_store_send 8 fsb _ _).trans (load_chunk0L (xOf m c) 8 ⟨1 - c.val % 2, by omega⟩ (k0_off1 c) (off1_b c) _ _)))) $$ [Hsb8 Hd8 HO Hts8 Htp8]
  · isplitr; · iexact HIs8
    isplitr; · iexact HIp8
    isplitl [Hsb8]; · iexact Hsb8
    isplitl [Hd8]; · iexact Hd8
    isplitl [HO]; · iexact HO
    isplitl [Hts8]; · iexact Hts8
    isplitr; · iexact Hrs8
    isplitl [Htp8]; · iexact Htp8
    iexact Hrp8
  iintro ⟨Hcs8, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay10 with ⟨⟨%fd9, Hd9⟩, #Hrp9⟩
  iapply (wp_send_chunk' m K c _ rfl 9 _ fd9 _ _ rfl _ (remote_final m c 9 fd9 _ ((read_store_send 9 fsb _ _).trans (load_chunk1L (xOf m c) 9 ⟨1 - c.val % 2, by omega⟩ (k0_off4 c) (off4_b c) _ _)))) $$ [Hsb9 Hd9 HO Hts9 Htp9]
  · isplitr; · iexact HIs9
    isplitr; · iexact HIp9
    isplitl [Hsb9]; · iexact Hsb9
    isplitl [Hd9]; · iexact Hd9
    isplitl [HO]; · iexact HO
    isplitl [Hts9]; · iexact Hts9
    isplitr; · iexact Hrs9
    isplitl [Htp9]; · iexact Htp9
    iexact Hrp9
  iintro ⟨Hcs9, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay11 with ⟨⟨%fd10, Hd10⟩, #Hrp10⟩
  iapply (wp_send_chunk' m K c _ rfl 10 _ fd10 _ _ rfl _ (remote_final m c 10 fd10 _ ((read_store_send 10 fsb _ _).trans (load_chunk0L (xOf m c) 10 ⟨1 - c.val % 2, by omega⟩ (k0_off1 c) (off1_b c) _ _)))) $$ [Hsb10 Hd10 HO Hts10 Htp10]
  · isplitr; · iexact HIs10
    isplitr; · iexact HIp10
    isplitl [Hsb10]; · iexact Hsb10
    isplitl [Hd10]; · iexact Hd10
    isplitl [HO]; · iexact HO
    isplitl [Hts10]; · iexact Hts10
    isplitr; · iexact Hrs10
    isplitl [Htp10]; · iexact Htp10
    iexact Hrp10
  iintro ⟨Hcs10, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay12 with ⟨⟨%fd11, Hd11⟩, #Hrp11⟩
  iapply (wp_send_chunk' m K c _ rfl 11 _ fd11 _ _ rfl _ (remote_final m c 11 fd11 _ ((read_store_send 11 fsb _ _).trans (load_chunk1L (xOf m c) 11 ⟨1 - c.val % 2, by omega⟩ (k0_off4 c) (off4_b c) _ _)))) $$ [Hsb11 Hd11 HO Hts11 Htp11]
  · isplitr; · iexact HIs11
    isplitr; · iexact HIp11
    isplitl [Hsb11]; · iexact Hsb11
    isplitl [Hd11]; · iexact Hd11
    isplitl [HO]; · iexact HO
    isplitl [Hts11]; · iexact Hts11
    isplitr; · iexact Hrs11
    isplitl [Htp11]; · iexact Htp11
    iexact Hrp11
  iintro ⟨Hcs11, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay13 with ⟨⟨%fd12, Hd12⟩, #Hrp12⟩
  iapply (wp_send_chunk' m K c _ rfl 12 _ fd12 _ _ rfl _ (remote_final m c 12 fd12 _ ((read_store_send 12 fsb _ _).trans (load_chunk0L (xOf m c) 12 ⟨1 - c.val % 2, by omega⟩ (k0_off1 c) (off1_b c) _ _)))) $$ [Hsb12 Hd12 HO Hts12 Htp12]
  · isplitr; · iexact HIs12
    isplitr; · iexact HIp12
    isplitl [Hsb12]; · iexact Hsb12
    isplitl [Hd12]; · iexact Hd12
    isplitl [HO]; · iexact HO
    isplitl [Hts12]; · iexact Hts12
    isplitr; · iexact Hrs12
    isplitl [Htp12]; · iexact Htp12
    iexact Hrp12
  iintro ⟨Hcs12, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay14 with ⟨⟨%fd13, Hd13⟩, #Hrp13⟩
  iapply (wp_send_chunk' m K c _ rfl 13 _ fd13 _ _ rfl _ (remote_final m c 13 fd13 _ ((read_store_send 13 fsb _ _).trans (load_chunk1L (xOf m c) 13 ⟨1 - c.val % 2, by omega⟩ (k0_off4 c) (off4_b c) _ _)))) $$ [Hsb13 Hd13 HO Hts13 Htp13]
  · isplitr; · iexact HIs13
    isplitr; · iexact HIp13
    isplitl [Hsb13]; · iexact Hsb13
    isplitl [Hd13]; · iexact Hd13
    isplitl [HO]; · iexact HO
    isplitl [Hts13]; · iexact Hts13
    isplitr; · iexact Hrs13
    isplitl [Htp13]; · iexact Htp13
    iexact Hrp13
  iintro ⟨Hcs13, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay15 with ⟨⟨%fd14, Hd14⟩, #Hrp14⟩
  iapply (wp_send_chunk' m K c _ rfl 14 _ fd14 _ _ rfl _ (remote_final m c 14 fd14 _ ((read_store_send 14 fsb _ _).trans (load_chunk0L (xOf m c) 14 ⟨1 - c.val % 2, by omega⟩ (k0_off1 c) (off1_b c) _ _)))) $$ [Hsb14 Hd14 HO Hts14 Htp14]
  · isplitr; · iexact HIs14
    isplitr; · iexact HIp14
    isplitl [Hsb14]; · iexact Hsb14
    isplitl [Hd14]; · iexact Hd14
    isplitl [HO]; · iexact HO
    isplitl [Hts14]; · iexact Hts14
    isplitr; · iexact Hrs14
    isplitl [Htp14]; · iexact Htp14
    iexact Hrp14
  iintro ⟨Hcs14, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay17 with #Hrp15
  iapply (wp_send_chunk' m K c _ rfl 15 _ HatB_pay16_v _ _ (zero_add _).symm _ (remote_final m c 15 HatB_pay16_v _ ((read_store_send 15 fsb _ _).trans (load_chunk1L (xOf m c) 15 ⟨1 - c.val % 2, by omega⟩ (k0_off4 c) (off4_b c) _ _)))) $$ [Hsb15 HatB_pay16 HO Hts15 Htp15]
  · isplitr; · iexact HIs15
    isplitr; · iexact HIp15
    isplitl [Hsb15]; · iexact Hsb15
    isplitl [HatB_pay16]; · iexact HatB_pay16
    isplitl [HO]; · iexact HO
    isplitl [Hts15]; · iexact Hts15
    isplitr; · iexact Hrs15
    isplitl [Htp15]; · iexact Htp15
    iexact Hrp15
  iintro ⟨Hcs15, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  try sl_step
  ihave Hq0 := (Entails.of_eq (pointsTo_congr (local_final m c 0 _ _ ((read_store_local 0 flb _ _).trans (load_chunk0L (xOf m c) 0 ⟨c.val % 2, Nat.mod_lt _ (by decide)⟩ (k0_off3 c) (k0_off3_eq c) _ _))))) $$ Hq0
  ihave Hq1 := (Entails.of_eq (pointsTo_congr (local_final m c 1 _ _ ((read_store_local 1 flb _ _).trans (load_chunk1L (xOf m c) 1 ⟨c.val % 2, Nat.mod_lt _ (by decide)⟩ (k0_off5 c) (k0_off5_eq c) _ _))))) $$ Hq1
  ihave Hq2 := (Entails.of_eq (pointsTo_congr (local_final m c 2 _ _ ((read_store_local 2 flb _ _).trans (load_chunk0L (xOf m c) 2 ⟨c.val % 2, Nat.mod_lt _ (by decide)⟩ (k0_off3 c) (k0_off3_eq c) _ _))))) $$ Hq2
  ihave Hq3 := (Entails.of_eq (pointsTo_congr (local_final m c 3 _ _ ((read_store_local 3 flb _ _).trans (load_chunk1L (xOf m c) 3 ⟨c.val % 2, Nat.mod_lt _ (by decide)⟩ (k0_off5 c) (k0_off5_eq c) _ _))))) $$ Hq3
  ihave Hq4 := (Entails.of_eq (pointsTo_congr (local_final m c 4 _ _ ((read_store_local 4 flb _ _).trans (load_chunk0L (xOf m c) 4 ⟨c.val % 2, Nat.mod_lt _ (by decide)⟩ (k0_off3 c) (k0_off3_eq c) _ _))))) $$ Hq4
  ihave Hq5 := (Entails.of_eq (pointsTo_congr (local_final m c 5 _ _ ((read_store_local 5 flb _ _).trans (load_chunk1L (xOf m c) 5 ⟨c.val % 2, Nat.mod_lt _ (by decide)⟩ (k0_off5 c) (k0_off5_eq c) _ _))))) $$ Hq5
  ihave Hq6 := (Entails.of_eq (pointsTo_congr (local_final m c 6 _ _ ((read_store_local 6 flb _ _).trans (load_chunk0L (xOf m c) 6 ⟨c.val % 2, Nat.mod_lt _ (by decide)⟩ (k0_off3 c) (k0_off3_eq c) _ _))))) $$ Hq6
  ihave Hq7 := (Entails.of_eq (pointsTo_congr (local_final m c 7 _ _ ((read_store_local 7 flb _ _).trans (load_chunk1L (xOf m c) 7 ⟨c.val % 2, Nat.mod_lt _ (by decide)⟩ (k0_off5 c) (k0_off5_eq c) _ _))))) $$ Hq7
  ihave Hq8 := (Entails.of_eq (pointsTo_congr (local_final m c 8 _ _ ((read_store_local 8 flb _ _).trans (load_chunk0L (xOf m c) 8 ⟨c.val % 2, Nat.mod_lt _ (by decide)⟩ (k0_off3 c) (k0_off3_eq c) _ _))))) $$ Hq8
  ihave Hq9 := (Entails.of_eq (pointsTo_congr (local_final m c 9 _ _ ((read_store_local 9 flb _ _).trans (load_chunk1L (xOf m c) 9 ⟨c.val % 2, Nat.mod_lt _ (by decide)⟩ (k0_off5 c) (k0_off5_eq c) _ _))))) $$ Hq9
  ihave Hq10 := (Entails.of_eq (pointsTo_congr (local_final m c 10 _ _ ((read_store_local 10 flb _ _).trans (load_chunk0L (xOf m c) 10 ⟨c.val % 2, Nat.mod_lt _ (by decide)⟩ (k0_off3 c) (k0_off3_eq c) _ _))))) $$ Hq10
  ihave Hq11 := (Entails.of_eq (pointsTo_congr (local_final m c 11 _ _ ((read_store_local 11 flb _ _).trans (load_chunk1L (xOf m c) 11 ⟨c.val % 2, Nat.mod_lt _ (by decide)⟩ (k0_off5 c) (k0_off5_eq c) _ _))))) $$ Hq11
  ihave Hq12 := (Entails.of_eq (pointsTo_congr (local_final m c 12 _ _ ((read_store_local 12 flb _ _).trans (load_chunk0L (xOf m c) 12 ⟨c.val % 2, Nat.mod_lt _ (by decide)⟩ (k0_off3 c) (k0_off3_eq c) _ _))))) $$ Hq12
  ihave Hq13 := (Entails.of_eq (pointsTo_congr (local_final m c 13 _ _ ((read_store_local 13 flb _ _).trans (load_chunk1L (xOf m c) 13 ⟨c.val % 2, Nat.mod_lt _ (by decide)⟩ (k0_off5 c) (k0_off5_eq c) _ _))))) $$ Hq13
  ihave Hq14 := (Entails.of_eq (pointsTo_congr (local_final m c 14 _ _ ((read_store_local 14 flb _ _).trans (load_chunk0L (xOf m c) 14 ⟨c.val % 2, Nat.mod_lt _ (by decide)⟩ (k0_off3 c) (k0_off3_eq c) _ _))))) $$ Hq14
  ihave Hq15 := (Entails.of_eq (pointsTo_congr (local_final m c 15 _ _ ((read_store_local 15 flb _ _).trans (load_chunk1L (xOf m c) 15 ⟨c.val % 2, Nat.mod_lt _ (by decide)⟩ (k0_off5 c) (k0_off5_eq c) _ _))))) $$ Hq15
  iapply Hk
  unfold bodyPost sbuf lbuf slot localSems
  simp (config := { proj := false }) only [bigSep_fin16, bigSep_fin18, Fin.coe_ofNat_eq_mod, Nat.reduceMod]
  rw [show whole c main_arg0 (m ((c : Thread nD τ).loc main_arg0)) = (xM.view.loc (c : Thread nD τ) ↦{fullShare} m ((c : Thread nD τ).loc main_arg0)) from rfl]
  sl_close

end Cert.Kernel.Exchange

end
-- ==== Proof.Kernel.Regions.lean ====
import proofs.«900631_g7700000000000632_dist_a2a_v7x_xyz2x2x2_z_m8192_n1024_bf16_1_alg».proof.Proof.Kernel.Slices
import Idealize.ShloMosaic.Lib.Ring

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

/-! # Region algebra: the buffers cut into the slices the body works through, and joined back

Each buffer a device holds whole is the disjoint union of the row blocks the kernel addresses: a staging buffer of
8192 rows is sixteen blocks of 512 rows; the result array of 16384 rows is the sixteen blocks of the device's own half
and the sixteen of its partner's half; the input ring is its two slots.  A points-to on the whole buffer is therefore the
separating conjunction of the points-tos on the blocks at the same contents, and blocks held at contents of their own
join to the whole buffer at some contents.  No program is run here. -/

/-! ## The staging buffers: sixteen blocks of 512 rows -/

/-- Rows `[512·i, 512·i + 512)` of a staging buffer, all columns. -/
def rows (i : Fin 16) : Finset S8192x1024.Idx :=
  (Rect.unit (s := S8192x1024) ![512 * i.val, 0] S512x1024.size (sb_inb i)).set

/-- Blocks at different chunk numbers share no row. -/
theorem rows_disjoint (i j : Fin 16) (h : i ≠ j) : Disjoint (rows i) (rows j) :=
  Ring.lead_disjoint (s := S8192x1024) (0 : Fin 2) 512 (fun i : Fin 16 => ![512 * i.val, 0]) S512x1024.size sb_inb
    (fun b => rfl) rfl i j h

/-- `16 · 512 = 8192`: the blocks cover the buffer. -/
theorem rows_cover : Finset.univ.biUnion rows = Finset.univ :=
  Ring.lead_cover (s := S8192x1024) (0 : Fin 2) 512 (fun i : Fin 16 => ![512 * i.val, 0]) S512x1024.size sb_inb
    (fun b => rfl) (by decide) rfl (by decide) (by decide)

theorem sbSl_set (i : Fin 16) : ((sbSl i).view.set : Finset S8192x1024.Idx) = rows i :=
  View.set_slice_whole _ _

theorem lbSl_set (i : Fin 16) : ((lbSl i).view.set : Finset S8192x1024.Idx) = rows i :=
  View.set_slice_whole _ _

theorem sbuf_eq (c : Dev nD) (i : Fin 16) (f : Buf (Elt F) ((c : Thread nD τ).loc cc0_scratch1)) :
    sbuf c i f = ((c : Thread nD τ).loc cc0_scratch1 ↦[rows i]{fullShare} f : sProp 𝕄) :=
  congrArg (fun S : Finset (Idx ((c : Thread nD τ).loc cc0_scratch1)) =>
    ((c : Thread nD τ).loc cc0_scratch1 ↦[S]{fullShare} f : sProp 𝕄)) (sbSl_set i)

theorem lbuf_eq (c : Dev nD) (i : Fin 16) (f : Buf (Elt F) ((c : Thread nD τ).loc cc0_scratch2)) :
    lbuf c i f = ((c : Thread nD τ).loc cc0_scratch2 ↦[rows i]{fullShare} f : sProp 𝕄) :=
  congrArg (fun S : Finset (Idx ((c : Thread nD τ).loc cc0_scratch2)) =>
    ((c : Thread nD τ).loc cc0_scratch2 ↦[S]{fullShare} f : sProp 𝕄)) (lbSl_set i)

/-- The send staging buffer held whole is its sixteen chunks' rows at the same contents. -/
theorem send_split (c : Dev nD) (f : Buf (Elt F) ((c : Thread nD τ).loc cc0_scratch1)) :
    whole c cc0_scratch1 f ⊣⊢ (bigSep Finset.univ fun i : Fin 16 => sbuf c i f) :=
  BiEntails.of_eq ((Ring.pointsTo_blocks (Ix := Unit) (Val := Elt F) (Name := ℕ) (U := UU) (Lvl := ℕ)
    (ℓ := (c : Thread nD τ).loc cc0_scratch1) (q := fullShare) (B := Fin 16) rows rows_disjoint rows_cover f).trans
    (bigSep_congr fun i _ => (sbuf_eq c i f).symm))

/-- Sixteen chunks' rows, each at contents of its own, are the buffer whole at some contents (on each block the
    block's own). -/
theorem send_join (c : Dev nD) :
    ((bigSep Finset.univ fun i : Fin 16 => iprop(∃ f, sbuf c i f)) : sProp 𝕄) ⊢ iprop(∃ f, whole c cc0_scratch1 f) := by
  simp only [sbuf_eq]
  exact Ring.pointsTo_blocks_join_exists (Ix := Unit) (Val := Elt F) (Name := ℕ) (U := UU) (Lvl := ℕ)
    (ℓ := (c : Thread nD τ).loc cc0_scratch1) (q := fullShare) (B := Fin 16) rows rows_disjoint rows_cover
    (fun _ => Classical.arbitrary _)

/-- The local staging buffer likewise. -/
theorem local_split (c : Dev nD) (f : Buf (Elt F) ((c : Thread nD τ).loc cc0_scratch2)) :
    whole c cc0_scratch2 f ⊣⊢ (bigSep Finset.univ fun i : Fin 16 => lbuf c i f) :=
  BiEntails.of_eq ((Ring.pointsTo_blocks (Ix := Unit) (Val := Elt F) (Name := ℕ) (U := UU) (Lvl := ℕ)
    (ℓ := (c : Thread nD τ).loc cc0_scratch2) (q := fullShare) (B := Fin 16) rows rows_disjoint rows_cover f).trans
    (bigSep_congr fun i _ => (lbuf_eq c i f).symm))

theorem local_join (c : Dev nD) :
    ((bigSep Finset.univ fun i : Fin 16 => iprop(∃ f, lbuf c i f)) : sProp 𝕄) ⊢ iprop(∃ f, whole c cc0_scratch2 f) := by
  simp only [lbuf_eq]
  exact Ring.pointsTo_blocks_join_exists (Ix := Unit) (Val := Elt F) (Name := ℕ) (U := UU) (Lvl := ℕ)
    (ℓ := (c : Thread nD τ).loc cc0_scratch2) (q := fullShare) (B := Fin 16) rows rows_disjoint rows_cover
    (fun _ => Classical.arbitrary _)

/-! ## The result array: the device's half and its partner's half, sixteen blocks each

Device `d`'s chunk `i` goes to rows `[8192·z_d + 512·i, +512)`, `z_d = d % 2` its last mesh coordinate.  Within one
device the sixteen row ranges are consecutive and disjoint and fill the half `[8192·z_d, 8192·z_d + 8192)`; the partner
has the other value of `z`, hence the other half. -/

/-- Rows `[8192·z_d + 512·i, +512)` of a result array, all columns. -/
def orows (d : Dev nD) (i : Fin 16) : Finset S16384x1024.Idx :=
  (Rect.unit (s := S16384x1024) (k0_off2 d (BitVec.ofNat 32 (512 * i.val))) S512x1024.size (k0_off2_inb d i)).set

theorem oSl_set (d : Dev nD) (i : Fin 16) : ((oSl d i).view.set : Finset S16384x1024.Idx) = orows d i :=
  View.set_slice_whole _ _

/-- Membership is a condition on the row alone: every column is in. -/
theorem mem_orows (d : Dev nD) (i : Fin 16) (x : S16384x1024.Idx) :
    x ∈ orows d i ↔ 8192 * (d.val % 2) + 512 * i.val ≤ (x 0).val ∧ (x 0).val < 8192 * (d.val % 2) + 512 * i.val + 512 := by
  unfold orows
  rw [Rect.mem_set_unit, k0_off2_eq]
  have h1 : (x 1).val < 1024 := (x 1).isLt
  refine (Fin.forall_fin_two (p := fun a => _)).trans ?_
  show (8192 * (d.val % 2) + 512 * i.val ≤ (x 0).val ∧ (x 0).val < 8192 * (d.val % 2) + 512 * i.val + 512)
    ∧ (0 ≤ (x 1).val ∧ (x 1).val < 0 + 1024) ↔ _
  omega

/-- One device's sixteen blocks are pairwise disjoint. -/
theorem orows_disjoint (d : Dev nD) (i j : Fin 16) (h : i ≠ j) : Disjoint (orows d i) (orows d j) := by
  rw [Finset.disjoint_left]
  intro x hi hj
  rw [mem_orows] at hi hj
  have : i.val ≠ j.val := fun e => h (Fin.ext e)
  omega

/-- A device's blocks and its partner's are disjoint: they lie in different halves of the rows. -/
theorem orows_disjoint_peer (c : Dev nD) (i j : Fin 16) : Disjoint (orows c i) (orows (peer c) j) := by
  rw [Finset.disjoint_left]
  intro x hi hj
  rw [mem_orows] at hi hj
  rw [peer_z] at hj
  have := i.isLt; have := j.isLt
  omega

/-- The two devices' blocks cover the result array: row `R` is in the half `R / 8192`, in block `R % 8192 / 512` of it. -/
theorem orows_cover (c : Dev nD) :
    (Finset.univ.biUnion (orows c)) ∪ (Finset.univ.biUnion (orows (peer c))) = Finset.univ := by
  ext x
  simp only [Finset.mem_union, Finset.mem_biUnion, Finset.mem_univ, true_and, iff_true, mem_orows, peer_z]
  have h0 : (x 0).val < 16384 := (x 0).isLt
  by_cases hz : (x 0).val / 8192 = c.val % 2
  · refine Or.inl ⟨⟨(x 0).val % 8192 / 512, by omega⟩, ?_⟩
    show 8192 * (c.val % 2) + 512 * ((x 0).val % 8192 / 512) ≤ (x 0).val
      ∧ (x 0).val < 8192 * (c.val % 2) + 512 * ((x 0).val % 8192 / 512) + 512
    omega
  · refine Or.inr ⟨⟨(x 0).val % 8192 / 512, by omega⟩, ?_⟩
    show 8192 * (1 - c.val % 2) + 512 * ((x 0).val % 8192 / 512) ≤ (x 0).val
      ∧ (x 0).val < 8192 * (1 - c.val % 2) + 512 * ((x 0).val % 8192 / 512) + 512
    omega

theorem slot_eq (q d : Dev nD) (i : Fin 16) (f : Buf (Elt F) ((q : Thread nD τ).loc main_v1)) :
    slot q d i f = ((q : Thread nD τ).loc main_v1 ↦[orows d i]{fullShare} f : sProp 𝕄) :=
  congrArg (fun S : Finset (Idx ((q : Thread nD τ).loc main_v1)) =>
    ((q : Thread nD τ).loc main_v1 ↦[S]{fullShare} f : sProp 𝕄)) (oSl_set d i)

/-- The thirty-two row blocks `[8192·z_d + 512·i, +512)` × all 1024 columns, `d ∈ {c, peer c}`, partition the
    16384 × 1024 result. -/
theorem result_split (c : Dev nD) (f : Buf (Elt F) ((c : Thread nD τ).loc main_v1)) :
    whole c main_v1 f ⊣⊢ iprop((bigSep Finset.univ fun i : Fin 16 => slot c c i f) ∗ (bigSep Finset.univ fun i : Fin 16 => slot c (peer c) i f)) := by
  have hd : Disjoint (Finset.univ.biUnion (orows c)) (Finset.univ.biUnion (orows (peer c))) :=
    (Finset.disjoint_biUnion_left _ _ _).mpr fun i _ => (Finset.disjoint_biUnion_right _ _ _).mpr fun j _ => orows_disjoint_peer c i j
  have hu := pointsTo_union (Ix := Unit) (Val := Elt F) (Name := ℕ) (U := UU) (Lvl := ℕ) (ℓ := (c : Thread nD τ).loc main_v1) (q := fullShare) (f := f) hd
  have e1 := pointsTo_biUnion (Ix := Unit) (Val := Elt F) (Name := ℕ) (U := UU) (Lvl := ℕ) (ℓ := (c : Thread nD τ).loc main_v1) (q := fullShare) (f := f)
    Finset.univ (orows c) (fun i _ j _ h => orows_disjoint c i j h)
  have e2 := pointsTo_biUnion (Ix := Unit) (Val := Elt F) (Name := ℕ) (U := UU) (Lvl := ℕ) (ℓ := (c : Thread nD τ).loc main_v1) (q := fullShare) (f := f)
    Finset.univ (orows (peer c)) (fun i _ j _ h => orows_disjoint (peer c) i j h)
  rw [orows_cover c, e1, e2] at hu
  simp only [slot_eq]
  exact hu

/-! ## The input ring: two slots -/

theorem ring_inb (k : Fin 2) : ∀ a, (![k.val, 0, 0] : Fin 3 → Nat) a + S1x512x2048.size a ≤ S2x512x2048.size a := by
  revert k; decide

/-- Slot `k` of the input ring: the elements `[k, ·, ·]`. -/
def ringSlot (k : Fin 2) : Finset S2x512x2048.Idx :=
  (Rect.unit (s := S2x512x2048) ![k.val, 0, 0] S1x512x2048.size (ring_inb k)).set

theorem ringSlot_disjoint (j k : Fin 2) (h : j ≠ k) : Disjoint (ringSlot j) (ringSlot k) :=
  Ring.lead_disjoint (s := S2x512x2048) (0 : Fin 3) 1 (fun k : Fin 2 => ![k.val, 0, 0]) S1x512x2048.size ring_inb
    (fun b => (Nat.one_mul _).symm) rfl j k h

theorem ringSlot_cover : Finset.univ.biUnion ringSlot = Finset.univ :=
  Ring.lead_cover (s := S2x512x2048) (0 : Fin 3) 1 (fun k : Fin 2 => ![k.val, 0, 0]) S1x512x2048.size ring_inb
    (fun b => (Nat.one_mul _).symm) (by decide) rfl (by decide) (by decide)

/-- Dropping the unit leading axis keeps the element set. -/
theorem inSl0_set : (inSl0.view.set : Finset S2x512x2048.Idx) = ringSlot 0 :=
  (Memref.set_view_squeeze _ _).trans (View.set_slice_whole _ _)

theorem inSl1_set : (inSl1.view.set : Finset S2x512x2048.Idx) = ringSlot 1 :=
  (Memref.set_view_squeeze _ _).trans (View.set_slice_whole _ _)

theorem in0_eq (c : Dev nD) (f : Buf (Elt F) ((c : Thread nD τ).loc cc0_scratch0)) :
    (inSl0.view.loc (c : Thread nD τ) ↦[inSl0.view.set]{fullShare} f : sProp 𝕄)
      = ((c : Thread nD τ).loc cc0_scratch0 ↦[ringSlot 0]{fullShare} f) :=
  congrArg (fun S : Finset (Idx ((c : Thread nD τ).loc cc0_scratch0)) =>
    ((c : Thread nD τ).loc cc0_scratch0 ↦[S]{fullShare} f : sProp 𝕄)) inSl0_set

theorem in1_eq (c : Dev nD) (f : Buf (Elt F) ((c : Thread nD τ).loc cc0_scratch0)) :
    (inSl1.view.loc (c : Thread nD τ) ↦[inSl1.view.set]{fullShare} f : sProp 𝕄)
      = ((c : Thread nD τ).loc cc0_scratch0 ↦[ringSlot 1]{fullShare} f) :=
  congrArg (fun S : Finset (Idx ((c : Thread nD τ).loc cc0_scratch0)) =>
    ((c : Thread nD τ).loc cc0_scratch0 ↦[S]{fullShare} f : sProp 𝕄)) inSl1_set

/-- The input ring held whole is its two slots at the same contents. -/
theorem ring_split (c : Dev nD) (f : Buf (Elt F) ((c : Thread nD τ).loc cc0_scratch0)) :
    whole c cc0_scratch0 f ⊣⊢ iprop((inSl0.view.loc (c : Thread nD τ) ↦[inSl0.view.set]{fullShare} f) ∗ (inSl1.view.loc (c : Thread nD τ) ↦[inSl1.view.set]{fullShare} f)) := by
  rw [in0_eq, in1_eq]
  exact BiEntails.of_eq ((Ring.pointsTo_blocks (Ix := Unit) (Val := Elt F) (Name := ℕ) (U := UU) (Lvl := ℕ)
    (ℓ := (c : Thread nD τ).loc cc0_scratch0) (q := fullShare) (B := Fin 2) ringSlot ringSlot_disjoint ringSlot_cover f).trans
    (BI.bigSep_fin_two _))

/-- The two slots, each at contents of its own, are the ring whole at some contents. -/
theorem ring_join (c : Dev nD) :
    (iprop((∃ f, inSl0.view.loc (c : Thread nD τ) ↦[inSl0.view.set]{fullShare} f) ∗ (∃ f, inSl1.view.loc (c : Thread nD τ) ↦[inSl1.view.set]{fullShare} f)) : sProp 𝕄)
      ⊢ iprop(∃ f, whole c cc0_scratch0 f) :=
  Ring.slots2_join (Ix := Unit) (Val := Elt F) (Name := ℕ) (U := UU) (Lvl := ℕ) (ℓ := (c : Thread nD τ).loc cc0_scratch0) (q := fullShare)
    ringSlot ringSlot_disjoint ringSlot_cover
    (fun f => (inSl0.view.loc (c : Thread nD τ) ↦[inSl0.view.set]{fullShare} f : sProp 𝕄))
    (fun f => (inSl1.view.loc (c : Thread nD τ) ↦[inSl1.view.set]{fullShare} f : sProp 𝕄))
    (in0_eq c) (in1_eq c)

end Cert.Kernel.Exchange

end
-- ==== Proof.Kernel.Launch.lean ====
import proofs.«900631_g7700000000000632_dist_a2a_v7x_xyz2x2x2_z_m8192_n1024_bf16_1_alg».proof.Proof.Kernel.Invariant

/-!
# The launch: from every device's body to the run of the whole program

The launch element funds the pipeline library's (empty) staging protocol and the exchange's thirty-three cells a
device; one global step allocates every cell's invariant from its counter at zero — the barrier semaphore among the
unscoped ones, the send and receive semaphores among the kernel's own fifty, whose first eighteen stay plain counters —
and deals each device the invariants it opens, its positions, and the tokens of the duties it pays: its partner's
barrier duty, its own send duties, its partner's receive duties.  Both operands stay in HBM, so the input block and
the result array travel as the unscoped rest, and the result is read off the final memory directly.
-/

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The kernel's own semaphores: all fifty DMA semaphores -/

abbrev osem : DmaSem sig → SemLoc sig := fun k => .dma k

theorem ownSemFacts : Pipeline.OwnSemFacts cfg0.spec osem :=
  ⟨fun k => by revert k; decide, fun a b h => SemLoc.dma.inj h, fun k w s => w.elim0⟩

theorem sendSem_inj : Function.Injective sendSem := fun i j h =>
  Fin.ext (by have := congrArg Fin.val h; rw [sendSem_val, sendSem_val] at this; omega)
theorem recvSem_inj : Function.Injective recvSem := fun i j h =>
  Fin.ext (by have := congrArg Fin.val h; rw [recvSem_val, recvSem_val] at this; omega)
theorem sendSem_ne_recvSem (i j : Fin 16) : sendSem i ≠ recvSem j := fun h => by
  have := congrArg Fin.val h; rw [sendSem_val, recvSem_val] at this; have := i.isLt; omega

/-- The fifty DMA semaphores: the eighteen local ones, the sixteen send and the sixteen receive semaphores. -/
def semIdx : Fin 18 ⊕ (Fin 16 ⊕ Fin 16) → DmaSem sig
  | .inl k => ⟨k.val, by have := k.isLt; show _ < 50; omega⟩
  | .inr (.inl i) => sendSem i
  | .inr (.inr i) => recvSem i

def semEquiv : Fin 18 ⊕ (Fin 16 ⊕ Fin 16) ≃ DmaSem sig where
  toFun := semIdx
  invFun q :=
    if h : q.val < 18 then .inl ⟨q.val, h⟩
    else if h' : q.val < 34 then .inr (.inl ⟨q.val - 18, by omega⟩)
    else .inr (.inr ⟨q.val - 34, by have : q.val < 50 := q.isLt; omega⟩)
  left_inv := by decide +kernel
  right_inv := by decide +kernel

omit [FloatOps F] in
/-- A device's own DMA semaphores at zero: the local ones, the send cells' and the receive cells'. -/
theorem ownSems0_split (c : Dev nD) :
    (Pipeline.ownSems0 (Ix := Unit) (Name := ℕ) (U := UU) (Lvl := ℕ) (Val := Elt F) (τ := τ) osem c : sProp 𝕄)
      = iprop(localSems c ∗ (bigSep Finset.univ fun i : Fin 16 => semVal (sendCell c i) 0)
          ∗ (bigSep Finset.univ fun i : Fin 16 => semVal (recvCell c i) 0)) := by
  unfold Pipeline.ownSems0 localSems
  rw [bigSep_univ_equiv semEquiv, bigSep_univ_sum, bigSep_univ_sum]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The exchange's cells, thirty-three a device -/

/-- Which of a device's cells: the barrier cell, a send cell, a receive cell. -/
abbrev CI : Type := Unit ⊕ (Fin 16 ⊕ Fin 16)

def ciSem : CI → SemLoc sig
  | .inl _ => .reg barS
  | .inr (.inl i) => .dma (sendSem i)
  | .inr (.inr i) => .dma (recvSem i)

def ciOf : CK → CI
  | .bar => .inl ()
  | .send i => .inr (.inl i)
  | .recv i => .inr (.inr i)

abbrev kcell (x : Dev nD × CI) : GSem nD τ sig := ((x.1 : Thread nD τ), ciSem x.2)

theorem ciSem_injective : Function.Injective ciSem := by
  rintro (u | i | i) (u' | j | j) h
  · rfl
  · exact absurd h (fun h' => by cases h')
  · exact absurd h (fun h' => by cases h')
  · exact absurd h (fun h' => by cases h')
  · exact congrArg (fun i => Sum.inr (Sum.inl i)) (sendSem_inj (SemLoc.dma.inj h))
  · exact absurd (SemLoc.dma.inj h) (sendSem_ne_recvSem i j)
  · exact absurd h (fun h' => by cases h')
  · exact absurd (SemLoc.dma.inj h).symm (sendSem_ne_recvSem j i)
  · exact congrArg (fun i => Sum.inr (Sum.inr i)) (recvSem_inj (SemLoc.dma.inj h))

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := ciSem_injective (congrArg Prod.snd h)
  subst h2; rfl

def exCells : Finset (GSem nD τ sig) := Finset.univ.map ⟨kcell, kcell_injective⟩

/-- One duty token a cell. -/
abbrev tokOf (x : Dev nD × CI) : GSem nD τ sig × ℕ × Unit := (kcell x, 0, ())
theorem tokOf_injective : Function.Injective (tokOf : Dev nD × CI → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), (initOf exCells exToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
/-- A device's cells one by one. -/
theorem bigSep_cells (Φ : GSem nD τ sig → sProp 𝕄) (c : Dev nD) :
    (bigSep Finset.univ fun k : CI => Φ (kcell (c, k)))
      = iprop(Φ (barCell c) ∗ (bigSep Finset.univ fun i : Fin 16 => Φ (sendCell c i)) ∗ (bigSep Finset.univ fun i : Fin 16 => Φ (recvCell c i))) := by
  rw [bigSep_univ_sum, bigSep_univ_sum, bigSep_univ_of_subsingleton ()]
  rfl

/-- What the launch element deals device `c` (the theorem's `G`). -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0))
    ∗ (bigSep Finset.univ fun k : CI => dutyTok ER (kcell (c, k)) 0 ()))

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄))
      = bigSep Finset.univ fun c : Dev nD => bigSep Finset.univ fun k : CI => dutyTok ER (kcell (c, k)) 0 () := by
    unfold exToks; rw [bigSep_map, bigSep_univ_prod]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, and the ghost state dealt to the devices -/

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : CI => semVal (kcell (c, k)) 0) : sProp 𝕄) := by
  rw [ownSems0_split, unscopedSems0_eq, bigSep_cells (fun g => semVal g 0) c]
  iintro ⟨⟨HL, HS, HV⟩, HB⟩
  isplitl [HL]; · iexact HL
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(localSems c ∗ (bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0))
          ∗ (bigSep Finset.univ fun k : CI => dutyTok ER (kcell (c, k)) 0 ())) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [HL]; · iexact HL
  isplitl [Hinv]; · iexact Hinv
  isplitl [Hat]; · iexact Hat
  iexact Htok

/-- The cells' invariants under the names `K` and that every cell's round 0 is reached: what every device may keep. -/
def records (K : Dev nD × CI → ℕ) : sProp 𝕄 :=
  iprop((bigSep Finset.univ fun x : Dev nD × CI => cellInv ER (sched m) (K x) (kcell x))
    ∗ bigSep Finset.univ fun x : Dev nD × CI => reached ER (kcell x) 0)

instance records_persistent (K : Dev nD × CI → ℕ) : BI.Persistent (records m K) := by unfold records; infer_instance

theorem inv_at (K : Dev nD × CI → ℕ) (x : Dev nD × CI) : records m K ⊢ cellInv ER (sched m) (K x) (kcell x) :=
  sep_elim_left.trans (bigSep_elim (Finset.mem_univ x))
theorem reached_at (K : Dev nD × CI → ℕ) (x : Dev nD × CI) : records m K ⊢ reached ER (kcell x) 0 :=
  sep_elim_right.trans (bigSep_elim (Finset.mem_univ x))

/-- The names as the device's invariants are stated over them. -/
abbrev namesOf (K : Dev nD × CI → ℕ) : Dev nD → CK → ℕ := fun d k => K (d, ciOf k)

theorem invs_intro (K : Dev nD × CI → ℕ) (c : Dev nD) : records m K ⊢ invs m (namesOf K) c := by
  unfold invs
  iintro #HR
  isplitr; · iapply (inv_at m K (c, .inl ())); iexact HR
  isplitr; · iapply (inv_at m K (peer c, .inl ())); iexact HR
  isplitr
  · iapply (bigSep_intro_persistent (R := records m K) fun i _ => inv_at m K (c, .inr (.inl i))); iexact HR
  isplitr
  · iapply (bigSep_intro_persistent (R := records m K) fun i _ => inv_at m K (c, .inr (.inr i))); iexact HR
  iapply (bigSep_intro_persistent (R := records m K) fun i _ => inv_at m K (peer c, .inr (.inr i))); iexact HR

/-- The tokens of the duties device `c` pays. -/
def payToks (c : Dev nD) : sProp 𝕄 :=
  iprop(dutyTok ER (barCell (peer c)) 0 () ∗ (bigSep Finset.univ fun i : Fin 16 => dutyTok ER (sendCell c i) 0 ())
    ∗ (bigSep Finset.univ fun i : Fin 16 => dutyTok ER (recvCell (peer c) i) 0 ()))

/-- What stays with device `c` alone: its local semaphores, its positions, the tokens of the duties it pays. -/
def linear (c : Dev nD) : sProp 𝕄 :=
  iprop(localSems c
    ∗ (atPos ER (barCell c) 0 ∅ 0 ∗ (bigSep Finset.univ fun i : Fin 16 => atPos ER (sendCell c i) 0 ∅ 0)
        ∗ (bigSep Finset.univ fun i : Fin 16 => atPos ER (recvCell c i) 0 ∅ 0))
    ∗ payToks c)

/-- What the global step makes of the launch's deal (`G'`). -/
def G' (c : Dev nD) : sProp 𝕄 := iprop((∃ K, ghost m K c) ∗ localSems c)

theorem ghost_intro (K : Dev nD × CI → ℕ) (c : Dev nD) : iprop(records m K ∗ linear c) ⊢ G' m c := by
  unfold linear payToks G' ghost
  iintro ⟨#HR, HL, ⟨HaB, HaS, HaV⟩, HtB, HtS, HtV⟩
  isplitr [HL]
  · iexists (namesOf K)
    isplitr; · iapply (invs_intro m K c); iexact HR
    isplitl [HaB]; · iexact HaB
    isplitl [HaS]; · iexact HaS
    isplitl [HaV]; · iexact HaV
    isplitr; · iapply (reached_at m K (peer c, .inl ())); iexact HR
    isplitr
    · iapply (bigSep_intro_persistent (R := records m K) fun i _ => reached_at m K (c, .inr (.inl i))); iexact HR
    isplitr
    · iapply (bigSep_intro_persistent (R := records m K) fun i _ => reached_at m K (c, .inr (.inr i))); iexact HR
    isplitl [HtB]; · iexact HtB
    isplitl [HtS]; · iexact HtS
    iexact HtV
  · iexact HL

omit [FloatOps F] in
/-- The tokens dealt to their payers: a barrier cell's and a receive cell's to the partner, a send cell's to its owner. -/
theorem toks_around :
    (bigSep Finset.univ fun c : Dev nD => bigSep Finset.univ fun k : CI => (dutyTok ER (kcell (c, k)) 0 () : sProp 𝕄))
      ⊢ bigSep Finset.univ fun c : Dev nD => payToks c := by
  unfold payToks
  rw [bigSep_congr (s := Finset.univ) (fun (c : Dev nD) _ => bigSep_cells (fun g => (dutyTok ER g 0 () : sProp 𝕄)) c),
    bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun i : Fin 16 => dutyTok ER (recvCell c i) 0 () : sProp 𝕄))]
  exact .rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop(localSems c ∗ (bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0))
          ∗ (bigSep Finset.univ fun k : CI => dutyTok ER (kcell (c, k)) 0 ())) : sProp 𝕄)
      ⊢ bigSep Finset.univ (G' m) := by
  rw [bigSep_sep', bigSep_sep', bigSep_sep', ← bigSep_univ_prod (fun x : Dev nD × CI => iprop(∃ κ : ℕ, cellInv ER (sched m) κ (kcell x))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun x : Dev nD × CI => (reached ER (kcell x) 0 : sProp 𝕄))]
  iintro ⟨HL, HI, ⟨Hat, #HR⟩, Htok⟩
  ihave HK := (BI.bigSep_exists_pi Finset.univ (fun (x : Dev nD × CI) (κ : ℕ) => (cellInv ER (sched m) κ (kcell x) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => localSems c)
        (fun c : Dev nD => iprop((bigSep Finset.univ fun k : CI => (atPos ER (kcell (c, k)) 0 ∅ 0 : sProp 𝕄)) ∗ payToks c))).symm)).trans
      (bigSep_mono fun c _ => show _ ⊢ linear c from Entails.of_eq (by unfold linear; rw [bigSep_cells (fun g => (atPos ER g 0 ∅ 0 : sProp 𝕄)) c])))
    isplitl [HL]; · iexact HL
    iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device's dues are its partner's, so the launch deals device `c` one barrier unit and a chunk's credit on each
    of its receive cells. -/
theorem creds (c : Dev nD) :
    (Pipeline.launchCred O₀ c : sProp 𝕄)
      ⊢ iprop(cred (tallyAt (barCell c) () 1) ∗ bigSep Finset.univ fun i : Fin 16 => cred (tallyAt (recvCell c i) () N)) := by
  have hr (i : Fin 16) : (Pipeline.launchCred (fun d : Dev nD => tallyAt (recvCell (peer d) i) () N) c : sProp 𝕄) ⊢ cred (tallyAt (recvCell c i) () N) :=
    Pipeline.launchCred_tallyAt (SemLoc.dma (recvSem i)) peer peer peer_peer peer_peer () N c
  have hb : (Pipeline.launchCred (fun d : Dev nD => tallyAt (barCell (peer d)) () 1) c : sProp 𝕄) ⊢ cred (tallyAt (barCell c) () 1) :=
    Pipeline.launchCred_tallyAt (SemLoc.reg barS) peer peer peer_peer peer_peer () 1 c
  delta O₀
  iterate 16 rw [Pipeline.launchCred_add]
  rw [bigSep_fin16]
  iintro ⟨⟨⟨⟨⟨⟨⟨⟨⟨⟨⟨⟨⟨⟨⟨⟨H15, H14⟩, H13⟩, H12⟩, H11⟩, H10⟩, H9⟩, H8⟩, H7⟩, H6⟩, H5⟩, H4⟩, H3⟩, H2⟩, H1⟩, H0⟩, HB⟩
  isplitl [HB]; · iapply hb; iexact HB
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  isplitl [H7]; · iapply (hr 7); iexact H7
  isplitl [H8]; · iapply (hr 8); iexact H8
  isplitl [H9]; · iapply (hr 9); iexact H9
  isplitl [H10]; · iapply (hr 10); iexact H10
  isplitl [H11]; · iapply (hr 11); iexact H11
  isplitl [H12]; · iapply (hr 12); iexact H12
  isplitl [H13]; · iapply (hr 13); iexact H13
  isplitl [H14]; · iapply (hr 14); iexact H14
  iapply (hr 15); iexact H15

/-! ## The theorem's side conditions -/

/-- What a device enters the region with beside the scoped rest: its start and its two HBM arrays as launched. -/
def X (c : Dev nD) : sProp 𝕄 :=
  iprop(start m c ∗ whole c main_arg0 (m ((c : Thread nD τ).loc main_arg0)) ∗ whole c main_v1 (m ((c : Thread nD τ).loc main_v1)))

/-- What it leaves with: the input block unchanged and the result array at its final contents. -/
def Y (c : Dev nD) : sProp 𝕄 :=
  iprop(whole c main_arg0 (m ((c : Thread nD τ).loc main_arg0)) ∗ whole c main_v1 (Gfun m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, HG, HL⟩
  ihave Hc := (creds (F := F) c) $$ Hcr
  icases Hc with ⟨H1, HN⟩
  imodintro
  unfold X start
  isplitl
  · isplitl [HG HL H1 HN Hlev]
    · isplitl [HG]; · iexact HG
      isplitl [HL]; · iexact HL
      isplitl [H1]; · iexact H1
      isplitl [HN]; · iexact HN
      iexact Hlev
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, H0, H1, H2⟩
  isplitl [Hs]; · iexact Hs
  isplitl [Hx]; · iexact Hx
  isplitl [Ho]; · iexact Ho
  isplitl [H0]; · iexact H0
  isplitl [H1]; · iexact H1
  iexact H2

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨Hx, Ho, H0, H1, H2, Hs⟩
  isplitl [Hx Ho]
  · isplitl [Hx]; · iexact Hx
    iexact Ho
  isplitl [Hs]; · iexact Hs
  isplitl [H0]; · iexact H0
  isplitl [H1]; · iexact H1
  iexact H2

/-- No window is staged: the pipeline itself waits on nothing. -/
theorem waits (c : Dev nD) : (levAts L lv : sProp 𝕄) ⊢ Pipeline.cellsWaits cfgs (dats m) () 0 c :=
  Pipeline.cellsWaits_intro cfgs (dats m) () 0 c fun w _ _ => w.elim0

/-! ## The run -/

set_option maxRecDepth 32768 in
/-- At the compiled mesh of eight devices, from any memory with zero counters, given the body obligation of every device:
    every weakly fair execution of @main terminates, each device's result array ends at its final contents and its block
    of the input is unchanged. -/
theorem kernel_run_of (hbody : ∀ c : Dev nD, BodyObligation (dats (F := F) m 0 c) (defs₀ (F := F)) 𝒱₀ () Set.univ) (ρ : Dev nD → PrngReg) :
    θ_run (defs (F := F)) (onTc (τ := τ) (main (F := F))) ⟨m, fun _ => 0, ρ⟩ (fun r => ∀ c : Dev nD,
      r.2.mem ((c.tc : Thread nD τ).loc main_v1) = Gfun m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ex m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = Gfun m c ∧ s.mem ((c : Thread nD τ).loc main_arg0) = m ((c : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.Exchange.kernel_run_of' depends on axioms: [propext, Classical.choice, Quot.sound] -/
#guard_msgs in #print axioms kernel_run_of

end Cert.Kernel.Exchange

end
-- ==== Proof.Kernel.Obligation.lean ====
import proofs.«900631_g7700000000000632_dist_a2a_v7x_xyz2x2x2_z_m8192_n1024_bf16_1_alg».proof.Proof.Kernel.Body
import proofs.«900631_g7700000000000632_dist_a2a_v7x_xyz2x2x2_z_m8192_n1024_bf16_1_alg».proof.Proof.Kernel.Regions
import proofs.«900631_g7700000000000632_dist_a2a_v7x_xyz2x2x2_z_m8192_n1024_bf16_1_alg».proof.Proof.Kernel.Launch

/-!
# The body obligation, and the run

The pipeline's obligation at the grid's one point, from the body's own statement: the device's start is laid out cell
by cell and its buffers cut into the slices the body works through — the rows of its result that its partner writes
go into the payload of the barrier signal it pays —; afterwards the thirty-two send and receive cells, a round on and
with no duty left, are closed and give their counters back, and the slices are joined into the whole buffers again.
-/

noncomputable section

namespace Cert.Kernel.Exchange

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## Into the body -/

omit [FloatOps F] in
/-- The rows of device `c`'s result that its partner `p` writes, with `c`'s receive cells open: what `p`'s barrier cell
    is paid. -/
theorem barPay_intro (c p : Dev nD) (hp : peer p = c) (f : Buf (Elt F) ((c : Thread nD τ).loc main_v1)) :
    iprop((bigSep Finset.univ fun i : Fin 16 => slot c p i f) ∗ (bigSep Finset.univ fun i : Fin 16 => reached ER (recvCell c i) 0))
      ⊢ (barPay p : sProp 𝕄) := by
  subst hp
  unfold barPay
  rw [← bigSep_sep']
  have h (i : Fin 16) : iprop(slot (peer p) p i f ∗ reached ER (recvCell (peer p) i) 0)
      ⊢ (iprop((∃ f, slot (peer p) p i f) ∗ reached ER (recvCell (peer p) i) 0) : sProp 𝕄) := by
    iintro ⟨H, Hr⟩
    isplitl [H]
    · iexists f; iexact H
    · iexact Hr
  exact bigSep_mono fun i _ => h i

/-! ## Out of the body -/

/-- The send and receive cells, a round on and with no duty left, close: their counters at zero are the device's again. -/
theorem cells_close (K : Dev nD → CK → ℕ) (c : Dev nD) :
    iprop(invs m K c ∗ (bigSep Finset.univ fun i : Fin 16 => atPos ER (sendCell c i) 1 ∅ 0)
        ∗ (bigSep Finset.univ fun i : Fin 16 => atPos ER (recvCell c i) 1 ∅ 0))
      ⊢ |={Set.univ}=> iprop((bigSep Finset.univ fun i : Fin 16 => semVal (sendCell c i) 0)
          ∗ (bigSep Finset.univ fun i : Fin 16 => semVal (recvCell c i) 0)) := by
  unfold invs
  iintro ⟨⟨-, -, #HIs, #HIr, -⟩, HaS, HaV⟩
  imod (show iprop((bigSep Finset.univ fun i : Fin 16 => cellInv ER (sched m) (K c (.send i)) (sendCell c i))
        ∗ (bigSep Finset.univ fun i : Fin 16 => atPos ER (sendCell c i) 1 ∅ 0))
      ⊢ (|={Set.univ}=> bigSep Finset.univ fun i : Fin 16 => semVal (sendCell c i) 0 : sProp 𝕄) from by
        rw [← bigSep_sep']
        exact (bigSep_mono fun i _ => Rounds.cell_close ER (sched m) (Set.mem_univ _) (fun h => h) (R := 1) (duties_later m (sendCell c i))).trans
          (bigSep_fupd _ _)) $$ [HaS] with HzS
  · isplitr; · iexact HIs
    iexact HaS
  imod (show iprop((bigSep Finset.univ fun i : Fin 16 => cellInv ER (sched m) (K c (.recv i)) (recvCell c i))
        ∗ (bigSep Finset.univ fun i : Fin 16 => atPos ER (recvCell c i) 1 ∅ 0))
      ⊢ (|={Set.univ}=> bigSep Finset.univ fun i : Fin 16 => semVal (recvCell c i) 0 : sProp 𝕄) from by
        rw [← bigSep_sep']
        exact (bigSep_mono fun i _ => Rounds.cell_close ER (sched m) (Set.mem_univ _) (fun h => h) (R := 1) (duties_later m (recvCell c i))).trans
          (bigSep_fupd _ _)) $$ [HaV] with HzV
  · isplitr; · iexact HIr
    iexact HaV
  imodintro
  isplitl [HzS]; · iexact HzS
  iexact HzV

omit [FloatOps F] in
/-- The fifty DMA semaphores at zero from the local ones, the send cells' and the receive cells'. -/
theorem sems_join (c : Dev nD) :
    iprop(localSems c ∗ (bigSep Finset.univ fun i : Fin 16 => semVal (sendCell c i) 0) ∗ (bigSep Finset.univ fun i : Fin 16 => semVal (recvCell c i) 0))
      ⊢ (bigSep Finset.univ fun q : DmaSem sig => semVal ((c : Thread nD τ), SemLoc.dma q) 0 : sProp 𝕄) :=
  Entails.of_eq (ownSems0_split (F := F) c).symm

/-- From what the body leaves to the invariant after the point. -/
theorem post_exit (K : Dev nD → CK → ℕ) (c : Dev nD) :
    iprop(invs m K c ∗ bodyPost m K c)
      ⊢ |={Set.univ}=> iprop(Φ₁ m c ∗ (dats m 0 c).owesAt () (t0_0 : Fin cfg0.N).succ ∗ emp) := by
  unfold bodyPost
  iintro ⟨#HI, Hx, Hoo, Hop, Hi0, Hi1, Hsb, Hlb, HL, HaS, HaV, ⟨%W, HO⟩⟩
  imod (cells_close m K c) $$ [HaS HaV] with ⟨HzS, HzV⟩
  · isplitr; · iexact HI
    isplitl [HaS]; · iexact HaS
    iexact HaV
  imodintro
  unfold Φ₁ Dat.owesAt Pipeline.owesWithin
  rw [show (dats m 0 c).owed (t0_0 : Fin cfg0.N).succ = 0 from rfl]
  isplitr [HO]
  · isplitl [Hx]; · iexact Hx
    isplitl [Hoo Hop]
    · iapply (result_split c (Gfun m c)).mpr
      isplitl [Hoo]; · iexact Hoo
      iexact Hop
    isplitl [Hi0 Hi1]
    · iapply (ring_join (F := F) c)
      isplitl [Hi0]; · iexact Hi0
      iexact Hi1
    isplitl [Hsb]; · iapply (send_join (F := F) c); iexact Hsb
    isplitl [Hlb]; · iapply (local_join (F := F) c); iexact Hlb
    iapply (sems_join (F := F) c)
    isplitl [HL]; · iexact HL
    isplitl [HzS]; · iexact HzS
    iexact HzV
  isplitl
  · iexists W
    isplitr; · ipureintro; exact fun _ _ => Or.inl trivial
    iexact HO
  · iempintro

/-! ## The obligation -/

set_option maxRecDepth 32768 in
/-- The pipeline's body obligation on device `c`. -/
theorem body_obligation (c : Dev nD) : BodyObligation (dats (F := F) m 0 c) (defs₀ (F := F)) 𝒱₀ () Set.univ := fun t => by
  obtain rfl : t = t0_0 := fin_N0 t
  show iprop(Φ₀ m c ∗ (dats m 0 c).owesAt () (t0_0 : Fin cfg0.N).castSucc ∗ emp)
    ⊢ wp frame (wpE (defs₀ (F := F)) 𝒱₀ c none) Set.univ (bodyProg (F := F))
        (fun _ => iprop(Φ₁ m c ∗ (dats m 0 c).owesAt () (t0_0 : Fin cfg0.N).succ ∗ emp))
  refine BIBase.Entails.trans ?_ (wp_fupd frame (wpE (defs₀ (F := F)) 𝒱₀ c none) Set.univ (bodyProg (F := F)) _)
  unfold Φ₀ start Dat.owesAt Pipeline.owesWithin
  rw [show (dats m 0 c).owed (t0_0 : Fin cfg0.N).castSucc = O₀ c from rfl]
  iintro ⟨⟨⟨⟨%K, Hg⟩, HL, Hc1, HcN, Hlev⟩, Hx, Ho, ⟨%fin, Hin⟩, ⟨%fsb, Hsb⟩, ⟨%flb, Hlb⟩⟩, ⟨%W, -, HO⟩, -⟩
  unfold ghost
  icases Hg with ⟨#HI, HaB, HaS, HaV, #HrB, #HrS, #HrV, HtB, HtS, HtV⟩
  ihave Ho' := (result_split c (m ((c : Thread nD τ).loc main_v1))).mp $$ Ho
  icases Ho' with ⟨Hoo, Hop⟩
  ihave Hsb' := (send_split c fsb).mp $$ Hsb
  ihave Hlb' := (local_split c flb).mp $$ Hlb
  ihave Hin' := (ring_split c fin).mp $$ Hin
  icases Hin' with ⟨Hi0, Hi1⟩
  ihave Hpay := (barPay_intro (F := F) c (peer c) (peer_peer c) (m ((c : Thread nD τ).loc main_v1))) $$ [Hop]
  · isplitl [Hop]; · iexact Hop
    iexact HrV
  iapply (body_run m K c _ fin fsb flb (m ((c : Thread nD τ).loc main_v1)) W)
  unfold bodyPre
  isplitr []
  · isplitr; · iexact HI
    isplitl [HO]; · iexact HO
    isplitl [HtB]; · iexact HtB
    isplitr; · iexact HrB
    isplitl [Hpay]; · iexact Hpay
    isplitl [HL]; · iexact HL
    isplitr; · iexact HrS
    isplitl [HaB]; · iexact HaB
    isplitl [HaS]; · iexact HaS
    isplitl [HaV]; · iexact HaV
    isplitl [HtS]; · iexact HtS
    isplitl [HtV]; · iexact HtV
    isplitl [Hc1]; · iexact Hc1
    isplitl [HcN]; · iexact HcN
    isplitl [Hlev]; · iexact Hlev
    isplitl [Hx]; · iexact Hx
    isplitl [Hi0]; · iexact Hi0
    isplitl [Hi1]; · iexact Hi1
    isplitl [Hsb']; · iexact Hsb'
    isplitl [Hlb']; · iexact Hlb'
    iexact Hoo
  · iintro Hpost
    iapply (post_exit m K c)
    isplitr; · iexact HI
    iexact Hpost

/-- At the compiled mesh, from any memory with zero counters: every weakly fair execution of @main terminates, each
    device's result array ends at its final contents and its block of the input is unchanged. -/
theorem kernel_run (ρ : Dev nD → PrngReg) :
    θ_run (defs (F := F)) (onTc (τ := τ) (main (F := F))) ⟨m, fun _ => 0, ρ⟩ (fun r => ∀ c : Dev nD,
      r.2.mem ((c.tc : Thread nD τ).loc main_v1) = Gfun m c
      ∧ r.2.mem ((c.tc : Thread nD τ).loc main_arg0) = m ((c.tc : Thread nD τ).loc main_arg0)) :=
  kernel_run_of m (body_obligation m) ρ

end Cert.Kernel.Exchange

end
-- ==== Proof.Kernel.Run.lean ====
import proofs.«900631_g7700000000000632_dist_a2a_v7x_xyz2x2x2_z_m8192_n1024_bf16_1_alg».proof.Proof.Kernel.Obligation

/-! The run of the whole program on the mesh: `Cert.Kernel.Exchange.kernel_run`, from the body obligation of every
device through the launch. -/
-- ==== Proof.KernelIdeal.Protocol.lean ====
import proofs.«900631_g7700000000000632_dist_a2a_v7x_xyz2x2x2_z_m8192_n1024_bf16_1_alg».proof.Proof.Gen.KernelIdeal
import proofs.«900631_g7700000000000632_dist_a2a_v7x_xyz2x2x2_z_m8192_n1024_bf16_1_alg».proof.Proof.Gen.KernelIdeal.Skeleton
import proofs.«900631_g7700000000000632_dist_a2a_v7x_xyz2x2x2_z_m8192_n1024_bf16_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

/-!
# The exchange protocol of the two-device column swap

Eight devices in a 2×2×2 mesh; device `c` and its partner `peer c` (the device whose last mesh
coordinate is flipped) exchange halves.  Device `c` holds rows `[8192·z, 8192·z + 8192)` of the whole
input (`z` its last coordinate) and must end holding columns `[1024·z, 1024·z + 1024)` of every row.
It cuts its block into sixteen chunks of 512 rows; chunk `i`'s own columns go by a local copy into
rows `8192·z + 512·i …` of its result, the partner's columns by an addressed copy into the same rows
of the partner's result.

The cells: the barrier semaphore (one unit, from the partner: "I am inside; here are the rows of my
result you will write, and my receive cells are open"), sixteen send cells (the chunk's source comes
back) and sixteen receive cells (the rows the partner wrote, at their final contents).
-/

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's rounds, the local transfers' counters -/

abbrev UB : Type := UR sig nD τ
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by
  unfold ER; infer_instance

/-! ## The partner -/

/-- The device whose last mesh coordinate is flipped. -/
def peer (c : Dev nD) : Dev nD := ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide
theorem peer_z (c : Dev nD) : (peer c).val % 2 = 1 - c.val % 2 := by revert c; decide

def swap : Dev nD ≃ Dev nD := ⟨peer, peer, peer_peer, peer_peer⟩

/-! ## Memrefs, slices, semaphores, cells -/

abbrev xM : Memref sig .tc .hbm S8192x2048 .f32 := Memref.whole main_arg0
abbrev oM : Memref sig .tc .hbm S16384x1024 .bf16 := Memref.whole main_v1
abbrev inM : Memref sig .tc .vmem S2x512x2048 .f32 := Memref.whole cc0_scratch0
abbrev sbM : Memref sig .tc .vmem S8192x1024 .bf16 := Memref.whole cc0_scratch1
abbrev lbM : Memref sig .tc .vmem S8192x1024 .bf16 := Memref.whole cc0_scratch2

/-- The rows of a result array that device `d`'s chunk `i` goes to (on `d` by the local copy, on its partner by the
    addressed one): rows `8192·z_d + 512·i …`. -/
abbrev oSl (d : Dev nD) (i : Fin 16) : Memref sig .tc .hbm S512x1024 .bf16 :=
  oM.slice (Rect.unit (s := S16384x1024) (k0_off2 d (BitVec.ofNat 32 (512 * i.val))) S512x1024.size (k0_off2_inb d i)) (fun _ => rfl)

theorem sb_inb (i : Fin 16) : ∀ a, (![512 * i.val, 0] : Fin 2 → Nat) a + S512x1024.size a ≤ S8192x1024.size a := by
  revert i; decide
/-- Chunk `i`'s rows of a staging buffer. -/
abbrev sbSl (i : Fin 16) : Memref sig .tc .vmem S512x1024 .bf16 :=
  sbM.slice (Rect.unit (s := S8192x1024) ![512 * i.val, 0] S512x1024.size (sb_inb i)) (fun _ => rfl)

theorem s16_inb (i : Fin 16) : ∀ a, (![i.val] : Fin 1 → Nat) a + S1.size a ≤ S16.size a := by revert i; decide

abbrev barS : Sem sig := (SemArray.scalar (sig.barrier 0 rfl) : Sems sig S_).sem
abbrev sendSem (i : Fin 16) : DmaSem sig := ((cc0_scratch5.slice (Rect.unit (s := S16) ![i.val] S1.size (s16_inb i))).squeeze S_ squeezes_S1_S_).sem
abbrev recvSem (i : Fin 16) : DmaSem sig := ((cc0_scratch6.slice (Rect.unit (s := S16) ![i.val] S1.size (s16_inb i))).squeeze S_ squeezes_S1_S_).sem

abbrev barCell (c : Dev nD) : GSem nD τ sig := ((c : Thread nD τ), .reg barS)
abbrev sendCell (c : Dev nD) (i : Fin 16) : GSem nD τ sig := ((c : Thread nD τ), .dma (sendSem i))
abbrev recvCell (c : Dev nD) (i : Fin 16) : GSem nD τ sig := ((c : Thread nD τ), .dma (recvSem i))

theorem sendSem_val (i : Fin 16) : (sendSem i).val = 18 + i.val := by revert i; decide
theorem recvSem_val (i : Fin 16) : (recvSem i).val = 34 + i.val := by revert i; decide

/-- Which of the exchange's cells a semaphore is. -/
inductive CK where
  | bar
  | send (i : Fin 16)
  | recv (i : Fin 16)
  deriving DecidableEq

def ckOf : SemLoc sig → Option CK
  | .reg s => if s = barS then some .bar else none
  | .dma q =>
    if h : 18 ≤ q.val ∧ q.val < 34 then some (.send ⟨q.val - 18, by omega⟩)
    else if h' : 34 ≤ q.val ∧ q.val < 50 then some (.recv ⟨q.val - 34, by omega⟩) else none

theorem ckOf_bar : ckOf (.reg barS) = some .bar := by
  show (if barS = barS then some CK.bar else none) = _
  exact if_pos rfl
theorem ckOf_send (i : Fin 16) : ckOf (.dma (sendSem i)) = some (.send i) := by
  have h := sendSem_val i
  show (if h : 18 ≤ (sendSem i).val ∧ (sendSem i).val < 34 then some (CK.send ⟨(sendSem i).val - 18, by omega⟩) else _) = _
  rw [dif_pos ⟨by omega, by have := i.isLt; omega⟩]
  exact congrArg (fun j => some (CK.send j)) (Fin.ext (by simp only [h]; omega))
theorem ckOf_recv (i : Fin 16) : ckOf (.dma (recvSem i)) = some (.recv i) := by
  have h := recvSem_val i
  show (if h : 18 ≤ (recvSem i).val ∧ (recvSem i).val < 34 then some (CK.send ⟨(recvSem i).val - 18, by omega⟩)
    else if h' : 34 ≤ (recvSem i).val ∧ (recvSem i).val < 50 then some (CK.recv ⟨(recvSem i).val - 34, by omega⟩) else none) = _
  rw [dif_neg (by omega), dif_pos ⟨by omega, by have := i.isLt; omega⟩]
  exact congrArg (fun j => some (CK.recv j)) (Fin.ext (by simp only [h]; omega))

/-- The credit of one chunk's copy into a result array. -/
abbrev N : ℕ := (oSl (0 : Dev nD) 0).view.dmaCredit
theorem N_pos : 0 < N := View.dmaCredit_pos _ (by decide)

/-! ## The values -/

variable (m : (ℓ : Loc nD τ sig) → Buf (Elt F) ℓ)

/-- A float of the input rounded to the result's format. -/
def tr (x : F .f32) : F .bf16 := FloatOps.truncf .bf16 bitsLt_bf16_f32 x

/-- Device `d`'s block of the input, as a function on its indices. -/
abbrev xOf (d : Dev nD) : S8192x2048.Idx → F .f32 := m ((d : Thread nD τ).loc main_arg0)

/-- What device `c`'s result array ends holding: row `R`, column `j` is the rounding of row `R % 8192`, column
    `1024·z_c + j` of the block of the device in `c`'s pair whose last coordinate is `R / 8192`. -/
def Gfun (c : Dev nD) : Buf (Elt F) ((c : Thread nD τ).loc main_v1) := fun idx =>
  tr (xOf m (if (idx 0).val / 8192 = c.val % 2 then c else peer c)
    (ValueIdx.ix2 (⟨(idx 0).val % 8192, Nat.mod_lt _ (by decide)⟩ : Fin 8192)
      (⟨1024 * (c.val % 2) + (idx 1).val, by have := (idx 1).isLt; have : (idx 1).val < 1024 := this; omega⟩ : Fin 2048)))

/-- Chunk `i`'s rows of device `d`'s view, in the result array on device `q`, at contents `f`. -/
def slot (q d : Dev nD) (i : Fin 16) (f : Buf (Elt F) ((q : Thread nD τ).loc main_v1)) : sProp 𝕄 :=
  (oSl d i).view.loc (q : Thread nD τ) ↦[(oSl d i).view.set]{fullShare} f

/-- Chunk `i`'s rows of the send staging buffer on device `c`. -/
def sbuf (c : Dev nD) (i : Fin 16) (f : Buf (Elt F) ((c : Thread nD τ).loc cc0_scratch1)) : sProp 𝕄 :=
  (sbSl i).view.loc (c : Thread nD τ) ↦[(sbSl i).view.set]{fullShare} f

/-! ## The schedule -/

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- What the partner's barrier signal hands device `c`: the rows of the partner's result that `c`'s sixteen chunks go
    to, at whatever they hold, and that the partner's sixteen receive cells are open. -/
def barPay (c : Dev nD) : sProp 𝕄 :=
  bigSep Finset.univ fun i : Fin 16 => iprop((∃ f, slot (peer c) c i f) ∗ reached ER (recvCell (peer c) i) 0)

/-- What a cell's one duty hands its owner. -/
def pay (g : GSem nD τ sig) : sProp 𝕄 :=
  match ckOf g.2 with
  | some .bar => barPay g.1.1
  | some (.send i) => iprop(∃ f, sbuf g.1.1 i f)
  | some (.recv i) => slot g.1.1 (peer g.1.1) i (Gfun m g.1.1)
  | none => iprop(emp)

/-- One round, one duty a cell: the barrier cell one unit, a send or receive cell one chunk's credit. -/
def sched : Rounds.Schedule (GSem nD τ sig) Unit 𝕄 where
  duties g r := if r = 0 ∧ g.1.2 = .tc ∧ (ckOf g.2).isSome = true then {()} else ∅
  unitless _ := False
  amount g _ _ := if g.2 = .reg barS then 1 else N
  payload g _ _ := pay m g
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (pay m g)
  unfold pay barPay slot sbuf
  split <;> infer_instance

section Tables
variable (c : Dev nD) (i : Fin 16)

theorem duties_bar : (sched (F := F) m).duties (barCell c) 0 = {()} := by
  dsimp only [sched]; rw [if_pos ⟨rfl, rfl, by rw [ckOf_bar]; rfl⟩]
theorem duties_send : (sched (F := F) m).duties (sendCell c i) 0 = {()} := by
  dsimp only [sched]; rw [if_pos ⟨rfl, rfl, by rw [ckOf_send]; rfl⟩]
theorem duties_recv : (sched (F := F) m).duties (recvCell c i) 0 = {()} := by
  dsimp only [sched]; rw [if_pos ⟨rfl, rfl, by rw [ckOf_recv]; rfl⟩]
theorem duties_later (g : GSem nD τ sig) : ∀ r, 1 ≤ r → (sched (F := F) m).duties g r = ∅ :=
  fun r hr => by dsimp only [sched]; rw [if_neg fun h => by omega]

theorem send_ne_bar : (SemLoc.dma (sendSem i) : SemLoc sig) ≠ .reg barS := fun h => by cases h
theorem recv_ne_bar : (SemLoc.dma (recvSem i) : SemLoc sig) ≠ .reg barS := fun h => by cases h

theorem amount_bar (d : Unit) : (sched (F := F) m).amount (barCell c) 0 d = 1 := by dsimp only [sched]; exact if_pos rfl
theorem amount_send (d : Unit) : (sched (F := F) m).amount (sendCell c i) 0 d = N := by dsimp only [sched]; exact if_neg (send_ne_bar i)
theorem amount_recv (d : Unit) : (sched (F := F) m).amount (recvCell c i) 0 d = N := by dsimp only [sched]; exact if_neg (recv_ne_bar i)

theorem expect_bar : (sched (F := F) m).expect (barCell c) 0 = 1 := by
  unfold Schedule.expect Schedule.amountOf; rw [duties_bar, Finset.sum_singleton, amount_bar]
theorem expect_send : (sched (F := F) m).expect (sendCell c i) 0 = N := by
  unfold Schedule.expect Schedule.amountOf; rw [duties_send, Finset.sum_singleton, amount_send]
theorem expect_recv : (sched (F := F) m).expect (recvCell c i) 0 = N := by
  unfold Schedule.expect Schedule.amountOf; rw [duties_recv, Finset.sum_singleton, amount_recv]

theorem payload_bar (d : Unit) : (sched (F := F) m).payload (barCell c) 0 d = barPay c := by
  show pay m (barCell c) = _; unfold pay; rw [show ckOf (barCell c).2 = some .bar from ckOf_bar]
theorem payload_send (d : Unit) : (sched (F := F) m).payload (sendCell c i) 0 d = iprop(∃ f, sbuf c i f) := by
  show pay m (sendCell c i) = _; unfold pay; rw [show ckOf (sendCell c i).2 = some (.send i) from ckOf_send i]
theorem payload_recv (d : Unit) : (sched (F := F) m).payload (recvCell c i) 0 d = slot c (peer c) i (Gfun m c) := by
  show pay m (recvCell c i) = _; unfold pay; rw [show ckOf (recvCell c i).2 = some (.recv i) from ckOf_recv i]

end Tables

/-! ## What each device owes at launch; the levels -/

/-- Device `c` owes its partner's sixteen receive cells a chunk's credit each and its partner's barrier cell one
    unit — summed so that the barrier signal peels the last summand and chunk `i`'s copy the one before what is left. -/
def O₀ (c : Dev nD) : CellTallies nD τ sig Unit :=
  tallyAt (recvCell (peer c) 15) () N
    + tallyAt (recvCell (peer c) 14) () N
    + tallyAt (recvCell (peer c) 13) () N
    + tallyAt (recvCell (peer c) 12) () N
    + tallyAt (recvCell (peer c) 11) () N
    + tallyAt (recvCell (peer c) 10) () N
    + tallyAt (recvCell (peer c) 9) () N
    + tallyAt (recvCell (peer c) 8) () N
    + tallyAt (recvCell (peer c) 7) () N
    + tallyAt (recvCell (peer c) 6) () N
    + tallyAt (recvCell (peer c) 5) () N
    + tallyAt (recvCell (peer c) 4) () N
    + tallyAt (recvCell (peer c) 3) () N
    + tallyAt (recvCell (peer c) 2) () N
    + tallyAt (recvCell (peer c) 1) () N
    + tallyAt (recvCell (peer c) 0) () N
    + tallyAt (barCell (peer c)) () 1

def L (g : GSem nD τ sig) : Finset Unit := if g.1.2 = .tc then {()} else ∅
/-- Barrier cells at 1, receive cells at 2, everything else at 0: a device waits on its barrier cell owing receive
    credit only, and on its local and send cells owing at most barrier and receive units. -/
def lv (g : GSem nD τ sig) (_ : Unit) : ℕ :=
  match ckOf g.2 with
  | some .bar => 1
  | some (.recv _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [show ckOf (barCell c).2 = some .bar from ckOf_bar]
theorem lv_recv (c : Dev nD) (i : Fin 16) : lv (recvCell c i) () = 2 := by
  unfold lv; rw [show ckOf (recvCell c i).2 = some (.recv i) from ckOf_recv i]
theorem lv_send (c : Dev nD) (i : Fin 16) : lv (sendCell c i) () = 0 := by
  unfold lv; rw [show ckOf (sendCell c i).2 = some (.send i) from ckOf_send i]

theorem ckOf_local (q : DmaSem sig) (hq : q.val < 18) : ckOf (.dma q) = none := by
  show (if h : 18 ≤ q.val ∧ q.val < 34 then some (CK.send ⟨q.val - 18, by omega⟩)
    else if h' : 34 ≤ q.val ∧ q.val < 50 then some (CK.recv ⟨q.val - 34, by omega⟩) else none) = none
  rw [dif_neg (by omega), dif_neg (by omega)]
theorem lv_local (c : Dev nD) (q : DmaSem sig) (hq : q.val < 18) : lv ((c : Thread nD τ), .dma q) () = 0 := by
  unfold lv; rw [show ckOf ((c : Thread nD τ), SemLoc.dma q).2 = none from ckOf_local q hq]

/-- Sums of chunk credits owed to the partner's receive cells. -/
inductive OwesRecv (c : Dev nD) : CellTallies nD τ sig Unit → Prop
  | one (i : Fin 16) : OwesRecv c (tallyAt (recvCell (peer c) i) () N)
  | add {O D : CellTallies nD τ sig Unit} : OwesRecv c O → OwesRecv c D → OwesRecv c (O + D)

omit [FloatOps F] in
/-- Owing one receive cell (level 2), a device may wait on any of its cells below level 2. -/
theorem mayWait_one (c : Dev nD) (s : SemLoc sig) (hs : lv ((c : Thread nD τ), s) () < 2) (i : Fin 16) :
    (levAts L lv : sProp 𝕄) ⊢ MayWait (c : Thread nD τ) s () (tallyAt (recvCell (peer c) i) () N) :=
  Pipeline.mayWait_of_levAts (by rw [L_tc]; exact Finset.mem_singleton_self _) (fun g u hg => by
    rw [tallyAt_apply] at hg
    by_cases h : g = recvCell (peer c) i ∧ u = ()
    · obtain ⟨rfl, rfl⟩ := h; exact ⟨by rw [L_tc]; exact Finset.mem_singleton_self _, by rw [lv_recv]; exact hs⟩
    · rw [if_neg h] at hg; exact absurd hg (Nat.lt_irrefl 0))

omit [FloatOps F] in
theorem mayWait_owes (c : Dev nD) (s : SemLoc sig) (hs : lv ((c : Thread nD τ), s) () < 2) {O : CellTallies nD τ sig Unit} (h : OwesRecv c O) :
    (levAts L lv : sProp 𝕄) ⊢ MayWait (c : Thread nD τ) s () O := by
  induction h with
  | one i => exact mayWait_one c s hs i
  | add _ _ ih1 ih2 =>
    iintro #H
    iapply MayOwe.add
    isplitl
    · iapply ih1; iexact H
    · iapply ih2; iexact H

/-! ## The kernel's device chains: every one names the partner -/

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

abbrev 𝒱₀ : Variants := Variants.none

end Cert.KernelIdeal.Exchange

end
-- ==== Proof.KernelIdeal.Invariant.lean ====
import proofs.«900631_g7700000000000632_dist_a2a_v7x_xyz2x2x2_z_m8192_n1024_bf16_1_alg».proof.Proof.KernelIdeal.Protocol

/-!
# What a device holds before and after the kernel body

Before: the exchange's ghost state (the invariants of the cells it touches, its positions, the tokens of the duties
it pays), its launch credit, the level facts, its block of the input, its result array as launched, the three
scratch buffers at whatever they hold, and its eighteen local DMA semaphores at zero.  After: the input block
unchanged, the result array at its final contents, the scratch buffers, and all fifty of its DMA semaphores at zero.
-/

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The cells' invariants device `c`'s body opens, under the names `K` they were allocated at: its own barrier, send
    and receive cells, and its partner's barrier and receive cells. -/
def invs (K : Dev nD → CK → ℕ) (c : Dev nD) : sProp 𝕄 :=
  iprop(cellInv ER (sched m) (K c .bar) (barCell c) ∗ cellInv ER (sched m) (K (peer c) .bar) (barCell (peer c))
    ∗ (bigSep Finset.univ fun i : Fin 16 => cellInv ER (sched m) (K c (.send i)) (sendCell c i))
    ∗ (bigSep Finset.univ fun i : Fin 16 => cellInv ER (sched m) (K c (.recv i)) (recvCell c i))
    ∗ (bigSep Finset.univ fun i : Fin 16 => cellInv ER (sched m) (K (peer c) (.recv i)) (recvCell (peer c) i)))

instance invs_persistent (K : Dev nD → CK → ℕ) (c : Dev nD) : BI.Persistent (invs m K c) := by unfold invs; infer_instance

/-- The exchange's ghost state device `c` starts from: the invariants; its positions at round 0 of its own cells;
    that round 0 of the cells it pays, and of its own send and receive cells, is reached; the tokens of the duties it
    pays — its partner's barrier duty, its own send duties, its partner's receive duties. -/
def ghost (K : Dev nD → CK → ℕ) (c : Dev nD) : sProp 𝕄 :=
  iprop(invs m K c
    ∗ atPos ER (barCell c) 0 ∅ 0
    ∗ (bigSep Finset.univ fun i : Fin 16 => atPos ER (sendCell c i) 0 ∅ 0)
    ∗ (bigSep Finset.univ fun i : Fin 16 => atPos ER (recvCell c i) 0 ∅ 0)
    ∗ reached ER (barCell (peer c)) 0
    ∗ (bigSep Finset.univ fun i : Fin 16 => reached ER (sendCell c i) 0)
    ∗ (bigSep Finset.univ fun i : Fin 16 => reached ER (recvCell c i) 0)
    ∗ dutyTok ER (barCell (peer c)) 0 ()
    ∗ (bigSep Finset.univ fun i : Fin 16 => dutyTok ER (sendCell c i) 0 ())
    ∗ (bigSep Finset.univ fun i : Fin 16 => dutyTok ER (recvCell (peer c) i) 0 ()))

/-- The local DMA semaphores (the two of the input ring, the sixteen of the local copies out) at zero. -/
def localSems (c : Dev nD) : sProp 𝕄 :=
  bigSep Finset.univ fun k : Fin 18 => semVal ((c : Thread nD τ), SemLoc.dma (⟨k.val, by have := k.isLt; show _ < 50; omega⟩ : DmaSem sig)) 0

/-- That, its launch credit (one barrier unit, a chunk's credit on each receive cell) and the level facts. -/
def start (c : Dev nD) : sProp 𝕄 :=
  iprop((∃ K, ghost m K c) ∗ localSems c ∗ cred (tallyAt (barCell c) () 1)
    ∗ (bigSep Finset.univ fun i : Fin 16 => cred (tallyAt (recvCell c i) () N)) ∗ levAts L lv)

/-- A buffer of device `c` held whole. -/
abbrev whole (c : Dev nD) (b : Ref sig .tc) (f : Buf (Elt F) ((c : Thread nD τ).loc b)) : sProp 𝕄 :=
  ((c : Thread nD τ).loc b) ↦{fullShare} f

def Φ₀ (c : Dev nD) : sProp 𝕄 :=
  iprop(start m c ∗ whole c main_arg0 (m ((c : Thread nD τ).loc main_arg0)) ∗ whole c main_v1 (m ((c : Thread nD τ).loc main_v1))
    ∗ (∃ f, whole c cc0_scratch0 f) ∗ (∃ f, whole c cc0_scratch1 f) ∗ (∃ f, whole c cc0_scratch2 f))

def Φ₁ (c : Dev nD) : sProp 𝕄 :=
  iprop(whole c main_arg0 (m ((c : Thread nD τ).loc main_arg0)) ∗ whole c main_v1 (Gfun m c)
    ∗ (∃ f, whole c cc0_scratch0 f) ∗ (∃ f, whole c cc0_scratch1 f) ∗ (∃ f, whole c cc0_scratch2 f)
    ∗ (bigSep Finset.univ fun q : DmaSem sig => semVal ((c : Thread nD τ), SemLoc.dma q) 0))

/-- The pipeline's proof data: no window is staged, so it is the two invariants and what the device owes. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Exchange

end
-- ==== Proof.KernelIdeal.Slices.lean ====
import proofs.«900631_g7700000000000632_dist_a2a_v7x_xyz2x2x2_z_m8192_n1024_bf16_1_alg».proof.Proof.KernelIdeal.Invariant

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The slices the body works through

The input ring's two slots, chunk `i`'s rows of the local staging buffer and of the input block, the schedule's payloads
spelt as the points-to assertions they are, and the rule for one chunk's addressed copy. -/

abbrev inSl0 : Memref sig .tc .vmem S512x2048 .f32 := (inM.slice (Rect.unit (s := S2x512x2048) ![0, 0, 0] S1x512x2048.size inb_S2x512x2048_S1x512x2048_0_0_0) (fun _ => rfl)).squeeze S512x2048 squeezes_S1x512x2048_S512x2048
abbrev inSl1 : Memref sig .tc .vmem S512x2048 .f32 := (inM.slice (Rect.unit (s := S2x512x2048) ![1, 0, 0] S1x512x2048.size inb_S2x512x2048_S1x512x2048_1_0_0) (fun _ => rfl)).squeeze S512x2048 squeezes_S1x512x2048_S512x2048
abbrev lbSl (i : Fin 16) : Memref sig .tc .vmem S512x1024 .bf16 :=
  lbM.slice (Rect.unit (s := S8192x1024) ![512 * i.val, 0] S512x1024.size (sb_inb i)) (fun _ => rfl)

theorem x_inb (i : Fin 16) : ∀ a, (![512 * i.val, 0] : Fin 2 → Nat) a + S512x2048.size a ≤ S8192x2048.size a := by
  revert i; decide
/-- Chunk `i`'s rows of the input block. -/
abbrev xSl (i : Fin 16) : Memref sig .tc .hbm S512x2048 .f32 :=
  xM.slice (Rect.unit (s := S8192x2048) ![512 * i.val, 0] S512x2048.size (x_inb i)) (fun _ => rfl)

/-- Chunk `i`'s rows of the local staging buffer on device `c`. -/
def lbuf (c : Dev nD) (i : Fin 16) (f : Buf (Elt F) ((c : Thread nD τ).loc cc0_scratch2)) : sProp 𝕄 :=
  (lbSl i).view.loc (c : Thread nD τ) ↦[(lbSl i).view.set]{fullShare} f

theorem payload_bar_own (c : Dev nD) (d : Unit) : (sched (F := F) m).payload (barCell c) 0 d =
    iprop(((∃ f, ((oSl c 0).view.loc ((peer c) : Thread nD τ) ↦[(oSl c 0).view.set]{fullShare} f)) ∗ reached ER (recvCell (peer c) 0) 0)
      ∗ ((∃ f, ((oSl c 1).view.loc ((peer c) : Thread nD τ) ↦[(oSl c 1).view.set]{fullShare} f)) ∗ reached ER (recvCell (peer c) 1) 0)
      ∗ ((∃ f, ((oSl c 2).view.loc ((peer c) : Thread nD τ) ↦[(oSl c 2).view.set]{fullShare} f)) ∗ reached ER (recvCell (peer c) 2) 0)
      ∗ ((∃ f, ((oSl c 3).view.loc ((peer c) : Thread nD τ) ↦[(oSl c 3).view.set]{fullShare} f)) ∗ reached ER (recvCell (peer c) 3) 0)
      ∗ ((∃ f, ((oSl c 4).view.loc ((peer c) : Thread nD τ) ↦[(oSl c 4).view.set]{fullShare} f)) ∗ reached ER (recvCell (peer c) 4) 0)
      ∗ ((∃ f, ((oSl c 5).view.loc ((peer c) : Thread nD τ) ↦[(oSl c 5).view.set]{fullShare} f)) ∗ reached ER (recvCell (peer c) 5) 0)
      ∗ ((∃ f, ((oSl c 6).view.loc ((peer c) : Thread nD τ) ↦[(oSl c 6).view.set]{fullShare} f)) ∗ reached ER (recvCell (peer c) 6) 0)
      ∗ ((∃ f, ((oSl c 7).view.loc ((peer c) : Thread nD τ) ↦[(oSl c 7).view.set]{fullShare} f)) ∗ reached ER (recvCell (peer c) 7) 0)
      ∗ ((∃ f, ((oSl c 8).view.loc ((peer c) : Thread nD τ) ↦[(oSl c 8).view.set]{fullShare} f)) ∗ reached ER (recvCell (peer c) 8) 0)
      ∗ ((∃ f, ((oSl c 9).view.loc ((peer c) : Thread nD τ) ↦[(oSl c 9).view.set]{fullShare} f)) ∗ reached ER (recvCell (peer c) 9) 0)
      ∗ ((∃ f, ((oSl c 10).view.loc ((peer c) : Thread nD τ) ↦[(oSl c 10).view.set]{fullShare} f)) ∗ reached ER (recvCell (peer c) 10) 0)
      ∗ ((∃ f, ((oSl c 11).view.loc ((peer c) : Thread nD τ) ↦[(oSl c 11).view.set]{fullShare} f)) ∗ reached ER (recvCell (peer c) 11) 0)
      ∗ ((∃ f, ((oSl c 12).view.loc ((peer c) : Thread nD τ) ↦[(oSl c 12).view.set]{fullShare} f)) ∗ reached ER (recvCell (peer c) 12) 0)
      ∗ ((∃ f, ((oSl c 13).view.loc ((peer c) : Thread nD τ) ↦[(oSl c 13).view.set]{fullShare} f)) ∗ reached ER (recvCell (peer c) 13) 0)
      ∗ ((∃ f, ((oSl c 14).view.loc ((peer c) : Thread nD τ) ↦[(oSl c 14).view.set]{fullShare} f)) ∗ reached ER (recvCell (peer c) 14) 0)
      ∗ ((∃ f, ((oSl c 15).view.loc ((peer c) : Thread nD τ) ↦[(oSl c 15).view.set]{fullShare} f)) ∗ reached ER (recvCell (peer c) 15) 0)) := by
  rw [payload_bar]; unfold barPay slot; rw [bigSep_fin16]
theorem payload_send_pt (c : Dev nD) (i : Fin 16) (d : Unit) : (sched (F := F) m).payload (sendCell c i) 0 d =
    iprop(∃ f, (sbSl i).view.loc (c : Thread nD τ) ↦[(sbSl i).view.set]{fullShare} f) := payload_send m c i d
theorem payload_recv_pt (c : Dev nD) (i : Fin 16) (d : Unit) : (sched (F := F) m).payload (recvCell c i) 0 d =
    ((oSl (peer c) i).view.loc (c : Thread nD τ) ↦[(oSl (peer c) i).view.set]{fullShare} Gfun m c) := payload_recv m c i d

/-- Chunk `i`'s addressed copy: the staging rows go out, and the partner's result rows come to hold what they hold at the end. -/
theorem wp_send_chunk (K : Dev nD → CK → ℕ) (c n : Dev nD) (hn : n = peer c) (i : Fin 16)
    {hsc : (oSl c i : Memref sig (Dev.tc n : Thread nD τ).2.kind .hbm S512x1024 .bf16).view.ref.isScScratch = false}
    {hsrc : (sbSl i : Memref sig .tc .vmem S512x1024 .bf16).view.WordExact} {hdst : (oSl c i : Memref sig .tc .hbm S512x1024 .bf16).view.WordExact}
    {hsem : DmaTarget.Typed .vmem (.dma (recvSem i)) (.remote (Dev.tc n : Thread nD τ) (oSl c i : Memref sig .tc .hbm S512x1024 .bf16) (.dma (sendSem i)) hsc)}
    {α : Type} {Q : α → sProp 𝕄} {k : PUnit → Prog (TpuEff nD τ sig (Elt F) Λ₀ .tc) α}
    (fs : Buf (Elt F) ((sbSl i).view.loc (c : Thread nD τ))) (fd : Buf (Elt F) ((oSl c i).view.loc (peer c : Thread nD τ)))
    (O : CellTallies nD τ sig Unit) (W : Waits sig Unit)
    (hG : ∀ idx ∈ (oSl c i).view.set, (oSl c i).view.write (Elt F) fd ((sbSl i).view.read (Elt F) fs) Finset.univ idx = Gfun m (peer c) idx) :
    iprop(cellInv ER (sched m) (K c (.send i)) (sendCell c i) ∗ cellInv ER (sched m) (K (peer c) (.recv i)) (recvCell (peer c) i)
        ∗ ((sbSl i).view.loc (c : Thread nD τ) ↦[(sbSl i).view.set]{fullShare} fs)
        ∗ ((oSl c i).view.loc (peer c : Thread nD τ) ↦[(oSl c i).view.set]{fullShare} fd)
        ∗ owes (c : Thread nD τ) (O + tallyAt (recvCell (peer c) i) () N) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSl i) (.remote (Dev.tc n : Thread nD τ) (oSl c i) (.dma (sendSem i)) hsc) (.dma (recvSem i)) hsrc hdst hsem) k) Q) := by
  subst hn
  exact Rounds.wp_send_pointsTo 𝒱₀ ER (sched m) (c : Thread nD τ) none (κ₁ := K c (.send i)) (κ₂ := K (peer c) (.recv i))
    (r₁ := 0) (r₂ := 0) (d₁ := ()) (d₂ := ()) (fs := fs) (fd := fd)
    (by rw [duties_send]; exact Finset.mem_singleton_self _) (by rw [duties_recv]; exact Finset.mem_singleton_self _)
    () () N rfl (amount_send m c i ()) (amount_recv m (peer c) i ()) O rfl (W := W)
    (by rw [payload_send]; unfold sbuf; iintro H; iexists fs; iexact H)
    (by rw [payload_recv]; unfold slot; rw [peer_peer]; exact Entails.of_eq (pointsTo_congr hG))

end Cert.KernelIdeal.Exchange

end
-- ==== Proof.KernelIdeal.BodySpec.lean ====
import proofs.«900631_g7700000000000632_dist_a2a_v7x_xyz2x2x2_z_m8192_n1024_bf16_1_alg».proof.Proof.KernelIdeal.Slices

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## What the kernel body runs from and to

From: the exchange's ghost state laid out cell by cell, what the device owes, the rows of its own result that its partner
will write (ready to be handed over with the barrier signal), its local semaphores at zero, and every buffer it touches
cut into the slices it works through.  To: the input block unchanged, all thirty-two row blocks of its result at their
final contents, the scratch slices at whatever they hold, the local semaphores at zero again, and its send and receive
cells one round on. -/

def bodyPre (K : Dev nD → CK → ℕ) (c : Dev nD) (fin : Buf (Elt F) ((c : Thread nD τ).loc cc0_scratch0))
    (fsb : Buf (Elt F) ((c : Thread nD τ).loc cc0_scratch1)) (flb : Buf (Elt F) ((c : Thread nD τ).loc cc0_scratch2))
    (fo : Buf (Elt F) ((c : Thread nD τ).loc main_v1)) (W : Waits sig Unit) : sProp 𝕄 :=
  iprop(invs m K c ∗ owes (c : Thread nD τ) (O₀ c) W
    ∗ dutyTok ER (barCell (peer c)) 0 () ∗ reached ER (barCell (peer c)) 0 ∗ barPay (peer c)
    ∗ localSems c
    ∗ (bigSep Finset.univ fun i : Fin 16 => reached ER (sendCell c i) 0)
    ∗ atPos ER (barCell c) 0 ∅ 0
    ∗ (bigSep Finset.univ fun i : Fin 16 => atPos ER (sendCell c i) 0 ∅ 0)
    ∗ (bigSep Finset.univ fun i : Fin 16 => atPos ER (recvCell c i) 0 ∅ 0)
    ∗ (bigSep Finset.univ fun i : Fin 16 => dutyTok ER (sendCell c i) 0 ())
    ∗ (bigSep Finset.univ fun i : Fin 16 => dutyTok ER (recvCell (peer c) i) 0 ())
    ∗ cred (tallyAt (barCell c) () 1)
    ∗ (bigSep Finset.univ fun i : Fin 16 => cred (tallyAt (recvCell c i) () N))
    ∗ levAts L lv
    ∗ whole c main_arg0 (m ((c : Thread nD τ).loc main_arg0))
    ∗ (inSl0.view.loc (c : Thread nD τ) ↦[inSl0.view.set]{fullShare} fin)
    ∗ (inSl1.view.loc (c : Thread nD τ) ↦[inSl1.view.set]{fullShare} fin)
    ∗ (bigSep Finset.univ fun i : Fin 16 => sbuf c i fsb)
    ∗ (bigSep Finset.univ fun i : Fin 16 => lbuf c i flb)
    ∗ (bigSep Finset.univ fun i : Fin 16 => slot c c i fo))

def bodyPost (K : Dev nD → CK → ℕ) (c : Dev nD) : sProp 𝕄 :=
  iprop(whole c main_arg0 (m ((c : Thread nD τ).loc main_arg0))
    ∗ (bigSep Finset.univ fun i : Fin 16 => slot c c i (Gfun m c))
    ∗ (bigSep Finset.univ fun i : Fin 16 => slot c (peer c) i (Gfun m c))
    ∗ (∃ f, inSl0.view.loc (c : Thread nD τ) ↦[inSl0.view.set]{fullShare} f)
    ∗ (∃ f, inSl1.view.loc (c : Thread nD τ) ↦[inSl1.view.set]{fullShare} f)
    ∗ (bigSep Finset.univ fun i : Fin 16 => iprop(∃ f, sbuf c i f))
    ∗ (bigSep Finset.univ fun i : Fin 16 => iprop(∃ f, lbuf c i f))
    ∗ localSems c
    ∗ (bigSep Finset.univ fun i : Fin 16 => atPos ER (sendCell c i) 1 ∅ 0)
    ∗ (bigSep Finset.univ fun i : Fin 16 => atPos ER (recvCell c i) 1 ∅ 0)
    ∗ ∃ W, owes (c : Thread nD τ) 0 W)

/-- The kernel body on device `c`, as the pipeline calls it. -/
abbrev bodyProg : Prog (TpuEff nD τ sig (Elt F) Λ₀ .tc) PUnit :=
  cc0_body_skel (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6

end Cert.KernelIdeal.Exchange

end
-- ==== Proof.KernelIdeal.Values.lean ====
import proofs.«900631_g7700000000000632_dist_a2a_v7x_xyz2x2x2_z_m8192_n1024_bf16_1_alg».proof.Proof.KernelIdeal.Slices
import Idealize.ShloMosaic.Lib.Pipeline.Value

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-!
# The values the exchange moves

What each of a device's sixteen chunks carries into a result array is that array's final contents `Gfun`.  The facts
are index equations: a chunk is a rectangle of the device's input block, a ring slot a rectangle of the ring with its
leading axis dropped, a load a rectangle of the ring, a staging row block and a result row block rectangles of their
buffers; following one entry through them adds the rectangles' offsets.
-/

/-! ## What a chunk carries

Chunk `i` of a device's input block `X` is its rows `512·i … 512·i + 511`; half `b` of it the columns
`1024·b … 1024·b + 1023`.  The body brings the chunk into a slot of the input ring, loads one half of the slot, rounds it
and stores it into rows `512·i …` of a staging buffer.  Read at an index, each of these steps only moves the index. -/

/-- Chunk `i`'s rows, column half `b`, of an input block, each entry rounded to the result's format. -/
def chunkOf (X : S8192x2048.Idx → F .f32) (i : Fin 16) (b : Fin 2) : FVec F S512x1024 .bf16 := fun y =>
  tr (X (ValueIdx.ix2 (⟨512 * i.val + (y 0).val, by have := (y 0).isLt; have : (y 0).val < 512 := this; have := i.isLt; omega⟩ : Fin 8192)
    (⟨1024 * b.val + (y 1).val, by have := (y 1).isLt; have : (y 1).val < 1024 := this; have := b.isLt; omega⟩ : Fin 2048)))

section Generic
variable {sig' : RefSig} {κ : Kind} {sp : Space} {s : Shape} {e : EltTy} {Val : EltTy → Type} [∀ e, Nonempty (Val e)]

/-- A buffer one of whose parts — a rectangle `r0` of it, re-indexed by another shape `s'` with as many elements — was
    last filled whole with `D` (whatever was written to the part before: the newest whole write decides every element
    of it), read through the whole buffer at coordinates `B`: where coordinate `x` of `B` is the place of the
    part's element `y'`, the value read is `D y'`. -/
theorem readAt_filled_part (w : View sig' κ sp s e) (r0 : Rect s) (s' : Shape) (h : s'.numel = r0.shape.numel)
    (B : LoadRect s) (D : s'.Idx → Val e) (L : List (View.Piece Val s' e)) (x : B.shape.Idx) (y' : s'.Idx)
    (hidx : B.idx x = r0.emb (Shape.reshapeEquiv h y')) :
    w.readAt Val B (((w.slice r0).reshape s' h).writes Val ((w.slice r0).reshape s' h).junk (⟨Rect.whole s', D⟩ :: L)) x = D y' := by
  have hD := View.read_writes_cons_emb ((w.slice r0).reshape s' h) ((w.slice r0).reshape s' h).junk (Rect.whole s') D L y'
  rw [Rect.emb_whole_apply, View.read_apply] at hD
  rw [View.readAt_apply, View.read_apply, hidx]
  exact hD

end Generic

theorem load_chunk0L (X : S8192x2048.Idx → F .f32) (i : Fin 16) (b : Fin 2) (off : Fin 3 → Nat) (hoff : off = ![0, 0, 1024 * b.val])
    (h : ∀ a, off a + S1x512x1024.size a ≤ S2x512x2048.size a) (L : List (View.Piece (Elt F) S512x2048 .f32)) :
    k0_pay1 (View.readAt (Elt F) (Memref.whole cc0_scratch0).view (Rect.unit (s := S2x512x2048) off S1x512x1024.size h).toLoadRect
      (inSl0.view.writes (Elt F) inSl0.view.junk (⟨Rect.whole S512x2048, ReadAs.same.apply (View.read (Elt F) (xSl i).view X)⟩ :: L)))
    = chunkOf X i b := by
  subst hoff
  funext y
  obtain ⟨p, q, rfl⟩ : ∃ (p : Fin 512) (q : Fin 1024), y = ValueIdx.ix2 p q := ⟨y 0, y 1, ValueIdx.eq_ix2 y⟩
  have hp := p.isLt
  have hq := q.isLt
  have hb := b.isLt
  have hi := i.isLt
  unfold k0_pay1
  rw [shapeCast_self]
  show FloatOps.truncf .bf16 bitsLt_bf16_f32 (shapeCast S512x1024 _ shapeCasts_S1x512x1024_S512x1024 (ValueIdx.ix2 p q))
    = FloatOps.truncf .bf16 bitsLt_bf16_f32 (X _)
  refine congrArg _ ?_
  -- the loaded vector has a leading axis of one coordinate: entry `(p, q)` of the payload is entry `(0, p, q)` of it
  refine (shapeCast_apply (s := S1x512x1024) _ _ (ValueIdx.ix2 p q) (ValueIdx.ix3 (0 : Fin 1) p q) (by
    rw [Shape.rowMajor_val_three, Shape.rowMajor_val_two]
    show (0 * 512 + p.val) * 1024 + q.val = p.val * 1024 + q.val
    omega)).trans ?_
  -- the slot is the ring's rectangle at `(0, 0, 0)` with its leading axis dropped: its entry `(p, l)` sits at `(0, p, l)` of the rectangle
  have hre : Shape.reshapeEquiv (s := (Rect.unit (s := S2x512x2048) ![0, 0, 0] S1x512x2048.size inb_S2x512x2048_S1x512x2048_0_0_0).shape) (s' := S512x2048)
      squeezes_S1x512x2048_S512x2048.numel_eq (ValueIdx.ix2 p (⟨1024 * b.val + q.val, by omega⟩ : Fin 2048))
      = ValueIdx.ix3 (0 : Fin 1) p (⟨1024 * b.val + q.val, by omega⟩ : Fin 2048) :=
    Shape.reshapeEquiv_eq_of_rowMajor _ (by
      rw [Shape.rowMajor_val_three, Shape.rowMajor_val_two]
      show (0 * 512 + p.val) * 2048 + (1024 * b.val + q.val) = p.val * 2048 + (1024 * b.val + q.val)
      omega)
  -- the load takes entry `(0, p, q)` from place `(0, p, 1024·b + q)` of the ring: entry `(p, 1024·b + q)` of slot `0`
  refine (readAt_filled_part (Memref.whole cc0_scratch0).view
    (Rect.unit (s := S2x512x2048) ![0, 0, 0] S1x512x2048.size inb_S2x512x2048_S1x512x2048_0_0_0) S512x2048 squeezes_S1x512x2048_S512x2048.numel_eq _ _ L _
    (ValueIdx.ix2 p (⟨1024 * b.val + q.val, by omega⟩ : Fin 2048)) ?_).trans ?_
  · rw [hre]
    funext a
    apply Fin.ext
    match a with
    | ⟨0, _⟩ => show 0 + 1 * 0 = 0 + 1 * 0; rfl
    | ⟨1, _⟩ => show 0 + 1 * p.val = 0 + 1 * p.val; rfl
    | ⟨2, _⟩ => show 1024 * b.val + 1 * q.val = 0 + 1 * (1024 * b.val + q.val); omega
  -- and the slot holds chunk `i` of the block: its entry `(p, l)` is the block's `(512·i + p, l)`
  show X _ = X _
  refine congrArg X ?_
  funext a
  apply Fin.ext
  match a with
  | ⟨0, _⟩ => show 512 * i.val + 1 * p.val = 512 * i.val + p.val; omega
  | ⟨1, _⟩ => show 0 + 1 * (1024 * b.val + q.val) = 1024 * b.val + q.val; omega

theorem load_chunk1L (X : S8192x2048.Idx → F .f32) (i : Fin 16) (b : Fin 2) (off : Fin 3 → Nat) (hoff : off = ![1, 0, 1024 * b.val])
    (h : ∀ a, off a + S1x512x1024.size a ≤ S2x512x2048.size a) (L : List (View.Piece (Elt F) S512x2048 .f32)) :
    k0_pay1 (View.readAt (Elt F) (Memref.whole cc0_scratch0).view (Rect.unit (s := S2x512x2048) off S1x512x1024.size h).toLoadRect
      (inSl1.view.writes (Elt F) inSl1.view.junk (⟨Rect.whole S512x2048, ReadAs.same.apply (View.read (Elt F) (xSl i).view X)⟩ :: L)))
    = chunkOf X i b := by
  subst hoff
  funext y
  obtain ⟨p, q, rfl⟩ : ∃ (p : Fin 512) (q : Fin 1024), y = ValueIdx.ix2 p q := ⟨y 0, y 1, ValueIdx.eq_ix2 y⟩
  have hp := p.isLt
  have hq := q.isLt
  have hb := b.isLt
  have hi := i.isLt
  unfold k0_pay1
  rw [shapeCast_self]
  show FloatOps.truncf .bf16 bitsLt_bf16_f32 (shapeCast S512x1024 _ shapeCasts_S1x512x1024_S512x1024 (ValueIdx.ix2 p q))
    = FloatOps.truncf .bf16 bitsLt_bf16_f32 (X _)
  refine congrArg _ ?_
  -- the loaded vector has a leading axis of one coordinate: entry `(p, q)` of the payload is entry `(0, p, q)` of it
  refine (shapeCast_apply (s := S1x512x1024) _ _ (ValueIdx.ix2 p q) (ValueIdx.ix3 (0 : Fin 1) p q) (by
    rw [Shape.rowMajor_val_three, Shape.rowMajor_val_two]
    show (0 * 512 + p.val) * 1024 + q.val = p.val * 1024 + q.val
    omega)).trans ?_
  -- the slot is the ring's rectangle at `(1, 0, 0)` with its leading axis dropped: its entry `(p, l)` sits at `(0, p, l)` of the rectangle
  have hre : Shape.reshapeEquiv (s := (Rect.unit (s := S2x512x2048) ![1, 0, 0] S1x512x2048.size inb_S2x512x2048_S1x512x2048_1_0_0).shape) (s' := S512x2048)
      squeezes_S1x512x2048_S512x2048.numel_eq (ValueIdx.ix2 p (⟨1024 * b.val + q.val, by omega⟩ : Fin 2048))
      = ValueIdx.ix3 (0 : Fin 1) p (⟨1024 * b.val + q.val, by omega⟩ : Fin 2048) :=
    Shape.reshapeEquiv_eq_of_rowMajor _ (by
      rw [Shape.rowMajor_val_three, Shape.rowMajor_val_two]
      show (0 * 512 + p.val) * 2048 + (1024 * b.val + q.val) = p.val * 2048 + (1024 * b.val + q.val)
      omega)
  -- the load takes entry `(0, p, q)` from place `(1, p, 1024·b + q)` of the ring: entry `(p, 1024·b + q)` of slot `1`
  refine (readAt_filled_part (Memref.whole cc0_scratch0).view
    (Rect.unit (s := S2x512x2048) ![1, 0, 0] S1x512x2048.size inb_S2x512x2048_S1x512x2048_1_0_0) S512x2048 squeezes_S1x512x2048_S512x2048.numel_eq _ _ L _
    (ValueIdx.ix2 p (⟨1024 * b.val + q.val, by omega⟩ : Fin 2048)) ?_).trans ?_
  · rw [hre]
    funext a
    apply Fin.ext
    match a with
    | ⟨0, _⟩ => show 1 + 1 * 0 = 1 + 1 * 0; rfl
    | ⟨1, _⟩ => show 0 + 1 * p.val = 0 + 1 * p.val; rfl
    | ⟨2, _⟩ => show 1024 * b.val + 1 * q.val = 0 + 1 * (1024 * b.val + q.val); omega
  -- and the slot holds chunk `i` of the block: its entry `(p, l)` is the block's `(512·i + p, l)`
  show X _ = X _
  refine congrArg X ?_
  funext a
  apply Fin.ext
  match a with
  | ⟨0, _⟩ => show 512 * i.val + 1 * p.val = 512 * i.val + p.val; omega
  | ⟨1, _⟩ => show 0 + 1 * (1024 * b.val + q.val) = 1024 * b.val + q.val; omega

/-- The slot filled once: the list of one write. -/
theorem load_chunk0 (X : S8192x2048.Idx → F .f32) (i : Fin 16) (b : Fin 2) (off : Fin 3 → Nat) (hoff : off = ![0, 0, 1024 * b.val])
    (h : ∀ a, off a + S1x512x1024.size a ≤ S2x512x2048.size a) :
    k0_pay1 (View.readAt (Elt F) (Memref.whole cc0_scratch0).view (Rect.unit (s := S2x512x2048) off S1x512x1024.size h).toLoadRect
      (inSl0.view.writes (Elt F) inSl0.view.junk [⟨Rect.whole S512x2048, ReadAs.same.apply (View.read (Elt F) (xSl i).view X)⟩]))
    = chunkOf X i b := load_chunk0L X i b off hoff h []

/-- The slot filled once: the list of one write. -/
theorem load_chunk1 (X : S8192x2048.Idx → F .f32) (i : Fin 16) (b : Fin 2) (off : Fin 3 → Nat) (hoff : off = ![1, 0, 1024 * b.val])
    (h : ∀ a, off a + S1x512x1024.size a ≤ S2x512x2048.size a) :
    k0_pay1 (View.readAt (Elt F) (Memref.whole cc0_scratch0).view (Rect.unit (s := S2x512x2048) off S1x512x1024.size h).toLoadRect
      (inSl1.view.writes (Elt F) inSl1.view.junk [⟨Rect.whole S512x2048, ReadAs.same.apply (View.read (Elt F) (xSl i).view X)⟩]))
    = chunkOf X i b := load_chunk1L X i b off hoff h []

/-! ### The payloads' names

Every chunk half is one load, one rounding and two re-indexings that keep every index where it is.  The body's text names
that term once per store (and, where a cut of the text falls between the rounding and the store, in two pieces); all
of them are the first one. -/

section PayNames
variable (v : Vec F S1x512x1024 .f32)
theorem pay4_eq : k0_pay4 v = k0_pay1 v := rfl
theorem pay5_eq : k0_pay5 v = k0_pay1 v := rfl
theorem pay6_eq : k0_pay6 v = k0_pay1 v := rfl
theorem pay9_eq : k0_pay9 v = k0_pay1 v := rfl
theorem pay10_eq : k0_pay10 v = k0_pay1 v := rfl
theorem pay11_eq : k0_pay11 v = k0_pay1 v := rfl
theorem pay12_eq : k0_pay12 v = k0_pay1 v := rfl
theorem pay13_eq : k0_pay13 v = k0_pay1 v := rfl
theorem pay14_eq : k0_pay14 v = k0_pay1 v := rfl
theorem pay15_eq : k0_pay15 v = k0_pay1 v := rfl
theorem pay16_eq : k0_pay16 v = k0_pay1 v := rfl
theorem pay17_eq : k0_pay17 v = k0_pay1 v := rfl
theorem pay18_eq : k0_pay18 v = k0_pay1 v := rfl
theorem pay19_eq : k0_pay19 v = k0_pay1 v := rfl
theorem pay20_eq : k0_pay20 v = k0_pay1 v := rfl
theorem pay23_eq : k0_pay23 v = k0_pay1 v := rfl
theorem pay24_eq : k0_pay24 v = k0_pay1 v := rfl
theorem pay25_eq : k0_pay25 v = k0_pay1 v := rfl
theorem pay28_eq : k0_pay28 v = k0_pay1 v := rfl
theorem pay29_eq : k0_pay29 v = k0_pay1 v := rfl
theorem pay30_eq : k0_pay30 v = k0_pay1 v := rfl
theorem pay33_eq : k0_pay33 v = k0_pay1 v := rfl
theorem pay34_eq : k0_pay34 v = k0_pay1 v := rfl
theorem pay35_eq : k0_pay35 v = k0_pay1 v := rfl
theorem pay36_eq : k0_pay36 v = k0_pay1 v := rfl
theorem pay37_eq : k0_pay37 v = k0_pay1 v := rfl
theorem pay3_pay2_eq : k0_pay3 (k0_pay2 v) = k0_pay1 v := rfl
theorem pay8_pay7_eq : k0_pay8 (k0_pay7 v) = k0_pay1 v := rfl
theorem pay22_pay21_eq : k0_pay22 (k0_pay21 v) = k0_pay1 v := rfl
theorem pay27_pay26_eq : k0_pay27 (k0_pay26 v) = k0_pay1 v := rfl
theorem pay32_pay31_eq : k0_pay32 (k0_pay31 v) = k0_pay1 v := rfl
end PayNames

theorem read_store_send (i : Fin 16) (f : (sbSl i).view.ty.Contents (Elt F)) (P : FVec F S512x1024 .bf16)
    (h : ∀ a, (![512 * i.val, 0] : Fin 2 → Nat) a + S512x1024.size a ≤ S8192x1024.size a) :
    (sbSl i).view.read (Elt F) (View.write (Elt F) ((Memref.whole cc0_scratch1).access (Rect.unit (s := S8192x1024) ![512 * i.val, 0] S512x1024.size h)) f P Finset.univ) = P :=
  View.read_write_univ f P

theorem read_store_local (i : Fin 16) (f : (lbSl i).view.ty.Contents (Elt F)) (P : FVec F S512x1024 .bf16)
    (h : ∀ a, (![512 * i.val, 0] : Fin 2 → Nat) a + S512x1024.size a ≤ S8192x1024.size a) :
    (lbSl i).view.read (Elt F) (View.write (Elt F) ((Memref.whole cc0_scratch2).access (Rect.unit (s := S8192x1024) ![512 * i.val, 0] S512x1024.size h)) f P Finset.univ) = P :=
  View.read_write_univ f P

/-! ## Where a chunk lands in a result array -/

/-- Entry `(p, q)` of the rows of a result array that device `d`'s chunk `i` goes to is entry
    `(8192·z_d + 512·i + p, q)` of the array. -/
theorem oSl_emb_val (d : Dev nD) (i : Fin 16) (y : S512x1024.Idx) (idx : S16384x1024.Idx) (hidx : idx = (oSl d i).view.emb y) :
    (idx 0).val = 8192 * (d.val % 2) + 512 * i.val + (y 0).val ∧ (idx 1).val = (y 1).val := by
  subst hidx
  have h := k0_off2_eq d i
  constructor
  · show (k0_off2 d (BitVec.ofNat 32 (512 * i.val))) 0 + 1 * (y 0).val = _
    rw [h]
    show 8192 * (d.val % 2) + 512 * i.val + 1 * (y 0).val = _
    omega
  · show (k0_off2 d (BitVec.ofNat 32 (512 * i.val))) 1 + 1 * (y 1).val = _
    rw [h]
    show 0 + 1 * (y 1).val = _
    omega

/-- The final contents of device `q`'s result array at the rows device `d`'s chunk `i` goes to, when `d` is the
    device of `q`'s pair whose rows those are and `q`'s last coordinate is `b`: the chunk's half `b`. -/
theorem Gfun_at_chunk (q d : Dev nD) (hd : d = q ∨ d = peer q) (i : Fin 16) (b : Fin 2) (hb : b.val = q.val % 2) (y : S512x1024.Idx) :
    Gfun m q ((oSl d i).view.emb y) = chunkOf (xOf m d) i b y := by
  obtain ⟨hi0, hi1⟩ := oSl_emb_val d i y _ rfl
  have hy0 : (y 0).val < 512 := (y 0).isLt
  have hy1 : (y 1).val < 1024 := (y 1).isLt
  have hi := i.isLt
  have hz : d.val % 2 < 2 := Nat.mod_lt _ (by decide)
  have hdiv : (((oSl d i).view.emb y : S16384x1024.Idx) 0).val / 8192 = d.val % 2 := by rw [hi0]; omega
  have hmod : (((oSl d i).view.emb y : S16384x1024.Idx) 0).val % 8192 = 512 * i.val + (y 0).val := by rw [hi0]; omega
  have hdev : (if (((oSl d i).view.emb y : S16384x1024.Idx) 0).val / 8192 = q.val % 2 then q else peer q) = d := by
    rw [hdiv]
    rcases hd with rfl | rfl
    · rw [if_pos rfl]
    · rw [if_neg (by rw [peer_z]; omega)]
  unfold Gfun chunkOf
  show tr (xOf m (if (((oSl d i).view.emb y : S16384x1024.Idx) 0).val / 8192 = q.val % 2 then q else peer q) _) = tr (xOf m d _)
  rw [hdev]
  refine congrArg (fun j => tr (xOf m d j)) ?_
  funext a
  apply Fin.ext
  match a with
  | ⟨0, _⟩ => exact hmod
  | ⟨1, _⟩ => show 1024 * (q.val % 2) + (((oSl d i).view.emb y : S16384x1024.Idx) 1).val = 1024 * b.val + (y 1).val; rw [hi1, hb]

section Generic2
variable {sig' : RefSig} {κ : Kind} {sp : Space} {s : Shape} {e : EltTy} {Val : EltTy → Type}

/-- A view filled whole with `V` holds `V y` under its index `y`, whatever the buffer held before. -/
theorem writes_whole_at_emb (v : View sig' κ sp s e) (base : v.ty.Contents Val) (V : s.Idx → Val e) (y : s.Idx) :
    v.writes Val base [⟨Rect.whole s, V⟩] (v.emb y) = _root_.cast (congrArg Val v.elt_eq.symm) (V y) := by
  rw [← View.write_univ_eq_writes_whole v base [] V]
  exact View.write_emb_of_mem _ _ (Finset.mem_univ y)

end Generic2

/-- What device `c`'s chunk `i` carries to its partner — half `1 - z_c` of the chunk — is, at the rows it is written
    to, the partner's result array at its final contents. -/
theorem remote_final (c : Dev nD) (i : Fin 16) (fd : (oSl c i).view.ty.Contents (Elt F)) (V : FVec F S512x1024 .bf16)
    (hV : V = chunkOf (xOf m c) i ⟨1 - c.val % 2, by omega⟩) :
    ∀ idx ∈ (oSl c i).view.set, (oSl c i).view.write (Elt F) fd V Finset.univ idx = Gfun m (peer c) idx := by
  intro idx hidx
  obtain ⟨y, rfl⟩ := View.exists_emb_of_mem_set _ hidx
  rw [View.write_emb_of_mem _ _ (Finset.mem_univ y), hV]
  exact (Gfun_at_chunk m (peer c) c (Or.inr (peer_peer c).symm) i _ (by rw [peer_z]) y).symm

/-- What stays — half `z_c` of the chunk — is, at the same rows of the device's own result array, its final contents. -/
theorem local_final (c : Dev nD) (i : Fin 16) (base : (oSl c i).view.ty.Contents (Elt F)) (V : FVec F S512x1024 .bf16)
    (hV : V = chunkOf (xOf m c) i ⟨c.val % 2, Nat.mod_lt _ (by decide)⟩) :
    ∀ idx ∈ (oSl c i).view.set, (oSl c i).view.writes (Elt F) base [⟨Rect.whole S512x1024, V⟩] idx = Gfun m c idx := by
  intro idx hidx
  obtain ⟨y, rfl⟩ := View.exists_emb_of_mem_set _ hidx
  rw [writes_whole_at_emb, hV]
  exact (Gfun_at_chunk m c c (Or.inl rfl) i _ rfl y).symm

/-- info: 'Cert.KernelIdeal.Exchange.load_chunk0L' depends on axioms: [propext, Classical.choice, Quot.sound] -/
#guard_msgs in #print axioms load_chunk0L
/-- info: 'Cert.KernelIdeal.Exchange.load_chunk1L' depends on axioms: [propext, Classical.choice, Quot.sound] -/
#guard_msgs in #print axioms load_chunk1L
/-- info: 'Cert.KernelIdeal.Exchange.load_chunk0' depends on axioms: [propext, Classical.choice, Quot.sound] -/
#guard_msgs in #print axioms load_chunk0
/-- info: 'Cert.KernelIdeal.Exchange.load_chunk1' depends on axioms: [propext, Classical.choice, Quot.sound] -/
#guard_msgs in #print axioms load_chunk1
/-- info: 'Cert.KernelIdeal.Exchange.remote_final' depends on axioms: [propext, Classical.choice, Quot.sound] -/
#guard_msgs in #print axioms remote_final
/-- info: 'Cert.KernelIdeal.Exchange.local_final' depends on axioms: [propext, Classical.choice, Quot.sound] -/
#guard_msgs in #print axioms local_final

end Cert.KernelIdeal.Exchange

end
-- ==== Proof.KernelIdeal.Body.lean ====
import proofs.«900631_g7700000000000632_dist_a2a_v7x_xyz2x2x2_z_m8192_n1024_bf16_1_alg».proof.Proof.KernelIdeal.BodySpec
import proofs.«900631_g7700000000000632_dist_a2a_v7x_xyz2x2x2_z_m8192_n1024_bf16_1_alg».proof.Proof.KernelIdeal.Values

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The kernel body, run

One signal to the partner's barrier cell, then sixteen chunks: the next chunk's load is started, this chunk's load is
waited for, its two column halves are rounded into the two staging buffers, the partner's half goes out by an addressed
copy into the partner's result rows (handed over with the partner's barrier signal, waited for before the first such
copy) and the own half by a local copy into the own result rows; then the sixteen local copies and the sixteen pairs of
send and receive cells are waited for. -/

omit [FloatOps F] in
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

theorem off1_b : ∀ c : Dev nD, k0_off1 c = ![0, 0, 1024 * (1 - c.val % 2)] := by decide +kernel
theorem off4_b : ∀ c : Dev nD, k0_off4 c = ![1, 0, 1024 * (1 - c.val % 2)] := by decide +kernel

/-- `wp_send_chunk` with the owed term split by an equation. -/
theorem wp_send_chunk' (K : Dev nD → CK → ℕ) (c n : Dev nD) (hn : n = peer c) (i : Fin 16)
    {hsc : (oSl c i : Memref sig (Dev.tc n : Thread nD τ).2.kind .hbm S512x1024 .bf16).view.ref.isScScratch = false}
    {hsrc : (sbSl i : Memref sig .tc .vmem S512x1024 .bf16).view.WordExact} {hdst : (oSl c i : Memref sig .tc .hbm S512x1024 .bf16).view.WordExact}
    {hsem : DmaTarget.Typed .vmem (.dma (recvSem i)) (.remote (Dev.tc n : Thread nD τ) (oSl c i : Memref sig .tc .hbm S512x1024 .bf16) (.dma (sendSem i)) hsc)}
    {α : Type} {Q : α → sProp 𝕄} {k : PUnit → Prog (TpuEff nD τ sig (Elt F) Λ₀ .tc) α}
    (fs : Buf (Elt F) ((sbSl i).view.loc (c : Thread nD τ))) (fd : Buf (Elt F) ((oSl c i).view.loc (peer c : Thread nD τ)))
    (O' O : CellTallies nD τ sig Unit) (hO : O' = O + tallyAt (recvCell (peer c) i) () N) (W : Waits sig Unit)
    (hG : ∀ idx ∈ (oSl c i).view.set, (oSl c i).view.write (Elt F) fd ((sbSl i).view.read (Elt F) fs) Finset.univ idx = Gfun m (peer c) idx) :
    iprop(cellInv ER (sched m) (K c (.send i)) (sendCell c i) ∗ cellInv ER (sched m) (K (peer c) (.recv i)) (recvCell (peer c) i)
        ∗ ((sbSl i).view.loc (c : Thread nD τ) ↦[(sbSl i).view.set]{fullShare} fs)
        ∗ ((oSl c i).view.loc (peer c : Thread nD τ) ↦[(oSl c i).view.set]{fullShare} fd)
        ∗ owes (c : Thread nD τ) O' W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSl i) (.remote (Dev.tc n : Thread nD τ) (oSl c i) (.dma (sendSem i)) hsc) (.dma (recvSem i)) hsrc hdst hsem) k) Q) := by
  subst hO
  exact wp_send_chunk m K c n hn i fs fd O W hG

attribute [local sl_canon] dev1_eq dev2_eq dev3_eq dev4_eq dev5_eq dev6_eq dev7_eq dev8_eq dev9_eq dev10_eq dev11_eq dev12_eq dev13_eq dev14_eq dev15_eq dev16_eq dev17_eq
attribute [local sl_rounds] duties_bar duties_send duties_recv amount_bar amount_send amount_recv expect_bar expect_send expect_recv payload_bar_own payload_send payload_recv

set_option maxHeartbeats 8000000 in
set_option maxRecDepth 32768 in
set_option sl_exec.stepHeartbeats 600000 in
theorem body_run (K : Dev nD → CK → ℕ) (c : Dev nD) (Kt : PUnit → sProp 𝕄)
    (fin : Buf (Elt F) ((c : Thread nD τ).loc cc0_scratch0)) (fsb : Buf (Elt F) ((c : Thread nD τ).loc cc0_scratch1))
    (flb : Buf (Elt F) ((c : Thread nD τ).loc cc0_scratch2)) (fo : Buf (Elt F) ((c : Thread nD τ).loc main_v1)) (W : Waits sig Unit) :
    iprop(bodyPre m K c fin fsb flb fo W ∗ (bodyPost m K c -∗ Kt ⟨⟩))
      ⊢ wp frame (wpE (defs₀ (F := F)) 𝒱₀ c none) Set.univ (bodyProg (F := F)) Kt := by
  unfold bodyPre invs localSems sbuf lbuf slot
  simp (config := { proj := false }) only [bigSep_fin16, bigSep_fin18, Fin.coe_ofNat_eq_mod, Nat.reduceMod]
  rw [show whole c main_arg0 (m ((c : Thread nD τ).loc main_arg0)) = (xM.view.loc (c : Thread nD τ) ↦{fullShare} m ((c : Thread nD τ).loc main_arg0)) from rfl]
  iintro ⟨⟨⟨#HIb, #HIbP, ⟨#HIs0, #HIs1, #HIs2, #HIs3, #HIs4, #HIs5, #HIs6, #HIs7, #HIs8, #HIs9, #HIs10, #HIs11, #HIs12, #HIs13, #HIs14, #HIs15⟩, ⟨#HIr0, #HIr1, #HIr2, #HIr3, #HIr4, #HIr5, #HIr6, #HIr7, #HIr8, #HIr9, #HIr10, #HIr11, #HIr12, #HIr13, #HIr14, #HIr15⟩, ⟨#HIp0, #HIp1, #HIp2, #HIp3, #HIp4, #HIp5, #HIp6, #HIp7, #HIp8, #HIp9, #HIp10, #HIp11, #HIp12, #HIp13, #HIp14, #HIp15⟩⟩, HO, HtB, #HrB, HpayP, ⟨Hz0, Hz1, Hz2, Hz3, Hz4, Hz5, Hz6, Hz7, Hz8, Hz9, Hz10, Hz11, Hz12, Hz13, Hz14, Hz15, Hz16, Hz17⟩, ⟨#Hrs0, #Hrs1, #Hrs2, #Hrs3, #Hrs4, #Hrs5, #Hrs6, #Hrs7, #Hrs8, #Hrs9, #Hrs10, #Hrs11, #Hrs12, #Hrs13, #Hrs14, #Hrs15⟩, HatB, ⟨Has0, Has1, Has2, Has3, Has4, Has5, Has6, Has7, Has8, Has9, Has10, Has11, Has12, Has13, Has14, Has15⟩, ⟨Har0, Har1, Har2, Har3, Har4, Har5, Har6, Har7, Har8, Har9, Har10, Har11, Har12, Har13, Har14, Har15⟩, ⟨Hts0, Hts1, Hts2, Hts3, Hts4, Hts5, Hts6, Hts7, Hts8, Hts9, Hts10, Hts11, Hts12, Hts13, Hts14, Hts15⟩, ⟨Htp0, Htp1, Htp2, Htp3, Htp4, Htp5, Htp6, Htp7, Htp8, Htp9, Htp10, Htp11, Htp12, Htp13, Htp14, Htp15⟩, HcB, ⟨Hcr0, Hcr1, Hcr2, Hcr3, Hcr4, Hcr5, Hcr6, Hcr7, Hcr8, Hcr9, Hcr10, Hcr11, Hcr12, Hcr13, Hcr14, Hcr15⟩, #Hlev, Hx, Hin0, Hin1, ⟨Hsb0, Hsb1, Hsb2, Hsb3, Hsb4, Hsb5, Hsb6, Hsb7, Hsb8, Hsb9, Hsb10, Hsb11, Hsb12, Hsb13, Hsb14, Hsb15⟩, ⟨Hlb0, Hlb1, Hlb2, Hlb3, Hlb4, Hlb5, Hlb6, Hlb7, Hlb8, Hlb9, Hlb10, Hlb11, Hlb12, Hlb13, Hlb14, Hlb15⟩, ⟨Hq0, Hq1, Hq2, Hq3, Hq4, Hq5, Hq6, Hq7, Hq8, Hq9, Hq10, Hq11, Hq12, Hq13, Hq14, Hq15⟩⟩, Hk⟩
  unfold O₀
  unfold bodyProg cc0_body_skel
  sl_exec_parts
  simp (config := { proj := false }) only [semSignalWord, Prog.lift, Prog.bind_op, Prog.bind_ret, Prog.pure_eq_ret]
  iapply (Rounds.wp_signal 𝒱₀ ER (sched m) (c : Thread nD τ) none (dst := (peer c : Thread nD τ)) (κ := K (peer c) .bar)
      (d := ()) (by rw [duties_bar]; exact Finset.mem_singleton_self _) ((amount_bar m (peer c) ()).trans (by decide)) () _ rfl)
    $$ [HO HtB HpayP]
  · isplitr; · iexact HIbP
    isplitl [HO]; · iexact HO
    isplitl [HtB]; · iexact HtB
    isplitl [HpayP]; · rw [payload_bar]; iexact HpayP
    iexact HrB
  iintro HO
  have hmwL : ∀ (q : DmaSem sig), q.val < 18 → ∀ (O : CellTallies nD τ sig Unit), OwesRecv c O →
      ((levAts L lv : sProp 𝕄) ⊢ MayWait (c : Thread nD τ) (.dma q) () O) :=
    fun q hq O h => mayWait_owes c (.dma q) (by rw [lv_local c q hq]; decide) h
  have hmwB : ∀ (O : CellTallies nD τ sig Unit), OwesRecv c O →
      ((levAts L lv : sProp 𝕄) ⊢ MayWait (c : Thread nD τ) (.reg barS) () O) :=
    fun O h => mayWait_owes c (.reg barS) (by rw [show lv ((c : Thread nD τ), SemLoc.reg barS) () = 1 from lv_bar c]; decide) h
  have hO0 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N) := by repeat' (first | exact OwesRecv.one _ | apply OwesRecv.add)
  have hO1 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N) := by repeat' (first | exact OwesRecv.one _ | apply OwesRecv.add)
  have hO2 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) := by repeat' (first | exact OwesRecv.one _ | apply OwesRecv.add)
  have hO3 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N) := by repeat' (first | exact OwesRecv.one _ | apply OwesRecv.add)
  have hO4 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N) := by repeat' (first | exact OwesRecv.one _ | apply OwesRecv.add)
  have hO5 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N) := by repeat' (first | exact OwesRecv.one _ | apply OwesRecv.add)
  have hO6 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N) := by repeat' (first | exact OwesRecv.one _ | apply OwesRecv.add)
  have hO7 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N) := by repeat' (first | exact OwesRecv.one _ | apply OwesRecv.add)
  have hO8 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N) := by repeat' (first | exact OwesRecv.one _ | apply OwesRecv.add)
  have hO9 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N) := by repeat' (first | exact OwesRecv.one _ | apply OwesRecv.add)
  have hO10 : OwesRecv c (tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N) := by repeat' (first | exact OwesRecv.one _ | apply OwesRecv.add)
  have hO11 : OwesRecv c (tallyAt (recvCell (peer c) 15) () N + tallyAt (recvCell (peer c) 14) () N + tallyAt (recvCell (peer c) 13) () N + tallyAt (recvCell (peer c) 12) () N + tallyAt (recvCell (peer c) 11) () N) := by repeat' (first | exact OwesRecv.one _ | apply OwesRecv.add)
  have hO12 : OwesRecv c (tallyAt (recvCell (peer c) 15) () N + tallyAt (recvCell (peer c) 14) () N + tallyAt (recvCell (peer c) 13) () N + tallyAt (recvCell (peer c) 12) () N) := by repeat' (first | exact OwesRecv.one _ | apply OwesRecv.add)
  have hO13 : OwesRecv c (tallyAt (recvCell (peer c) 15) () N + tallyAt (recvCell (peer c) 14) () N + tallyAt (recvCell (peer c) 13) () N) := by repeat' (first | exact OwesRecv.one _ | apply OwesRecv.add)
  have hO14 : OwesRecv c (tallyAt (recvCell (peer c) 15) () N + tallyAt (recvCell (peer c) 14) () N) := by repeat' (first | exact OwesRecv.one _ | apply OwesRecv.add)
  have hO15 : OwesRecv c (tallyAt (recvCell (peer c) 15) () N) := by repeat' (first | exact OwesRecv.one _ | apply OwesRecv.add)
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay1 with ⟨⟨%fd0, Hd0⟩, #Hrp0⟩
  iapply (wp_send_chunk' m K c _ rfl 0 _ fd0 _ _ rfl _ (remote_final m c 0 fd0 _ ((read_store_send 0 fsb _ _).trans (load_chunk0L (xOf m c) 0 ⟨1 - c.val % 2, by omega⟩ (k0_off1 c) (off1_b c) _ _)))) $$ [Hsb0 Hd0 HO Hts0 Htp0]
  · isplitr; · iexact HIs0
    isplitr; · iexact HIp0
    isplitl [Hsb0]; · iexact Hsb0
    isplitl [Hd0]; · iexact Hd0
    isplitl [HO]; · iexact HO
    isplitl [Hts0]; · iexact Hts0
    isplitr; · iexact Hrs0
    isplitl [Htp0]; · iexact Htp0
    iexact Hrp0
  iintro ⟨Hcs0, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay2 with ⟨⟨%fd1, Hd1⟩, #Hrp1⟩
  iapply (wp_send_chunk' m K c _ rfl 1 _ fd1 _ _ rfl _ (remote_final m c 1 fd1 _ ((read_store_send 1 fsb _ _).trans (load_chunk1L (xOf m c) 1 ⟨1 - c.val % 2, by omega⟩ (k0_off4 c) (off4_b c) _ _)))) $$ [Hsb1 Hd1 HO Hts1 Htp1]
  · isplitr; · iexact HIs1
    isplitr; · iexact HIp1
    isplitl [Hsb1]; · iexact Hsb1
    isplitl [Hd1]; · iexact Hd1
    isplitl [HO]; · iexact HO
    isplitl [Hts1]; · iexact Hts1
    isplitr; · iexact Hrs1
    isplitl [Htp1]; · iexact Htp1
    iexact Hrp1
  iintro ⟨Hcs1, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay3 with ⟨⟨%fd2, Hd2⟩, #Hrp2⟩
  iapply (wp_send_chunk' m K c _ rfl 2 _ fd2 _ _ rfl _ (remote_final m c 2 fd2 _ ((read_store_send 2 fsb _ _).trans (load_chunk0L (xOf m c) 2 ⟨1 - c.val % 2, by omega⟩ (k0_off1 c) (off1_b c) _ _)))) $$ [Hsb2 Hd2 HO Hts2 Htp2]
  · isplitr; · iexact HIs2
    isplitr; · iexact HIp2
    isplitl [Hsb2]; · iexact Hsb2
    isplitl [Hd2]; · iexact Hd2
    isplitl [HO]; · iexact HO
    isplitl [Hts2]; · iexact Hts2
    isplitr; · iexact Hrs2
    isplitl [Htp2]; · iexact Htp2
    iexact Hrp2
  iintro ⟨Hcs2, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay4 with ⟨⟨%fd3, Hd3⟩, #Hrp3⟩
  iapply (wp_send_chunk' m K c _ rfl 3 _ fd3 _ _ rfl _ (remote_final m c 3 fd3 _ ((read_store_send 3 fsb _ _).trans (load_chunk1L (xOf m c) 3 ⟨1 - c.val % 2, by omega⟩ (k0_off4 c) (off4_b c) _ _)))) $$ [Hsb3 Hd3 HO Hts3 Htp3]
  · isplitr; · iexact HIs3
    isplitr; · iexact HIp3
    isplitl [Hsb3]; · iexact Hsb3
    isplitl [Hd3]; · iexact Hd3
    isplitl [HO]; · iexact HO
    isplitl [Hts3]; · iexact Hts3
    isplitr; · iexact Hrs3
    isplitl [Htp3]; · iexact Htp3
    iexact Hrp3
  iintro ⟨Hcs3, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay5 with ⟨⟨%fd4, Hd4⟩, #Hrp4⟩
  iapply (wp_send_chunk' m K c _ rfl 4 _ fd4 _ _ rfl _ (remote_final m c 4 fd4 _ ((read_store_send 4 fsb _ _).trans (load_chunk0L (xOf m c) 4 ⟨1 - c.val % 2, by omega⟩ (k0_off1 c) (off1_b c) _ _)))) $$ [Hsb4 Hd4 HO Hts4 Htp4]
  · isplitr; · iexact HIs4
    isplitr; · iexact HIp4
    isplitl [Hsb4]; · iexact Hsb4
    isplitl [Hd4]; · iexact Hd4
    isplitl [HO]; · iexact HO
    isplitl [Hts4]; · iexact Hts4
    isplitr; · iexact Hrs4
    isplitl [Htp4]; · iexact Htp4
    iexact Hrp4
  iintro ⟨Hcs4, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay6 with ⟨⟨%fd5, Hd5⟩, #Hrp5⟩
  iapply (wp_send_chunk' m K c _ rfl 5 _ fd5 _ _ rfl _ (remote_final m c 5 fd5 _ ((read_store_send 5 fsb _ _).trans (load_chunk1L (xOf m c) 5 ⟨1 - c.val % 2, by omega⟩ (k0_off4 c) (off4_b c) _ _)))) $$ [Hsb5 Hd5 HO Hts5 Htp5]
  · isplitr; · iexact HIs5
    isplitr; · iexact HIp5
    isplitl [Hsb5]; · iexact Hsb5
    isplitl [Hd5]; · iexact Hd5
    isplitl [HO]; · iexact HO
    isplitl [Hts5]; · iexact Hts5
    isplitr; · iexact Hrs5
    isplitl [Htp5]; · iexact Htp5
    iexact Hrp5
  iintro ⟨Hcs5, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay7 with ⟨⟨%fd6, Hd6⟩, #Hrp6⟩
  iapply (wp_send_chunk' m K c _ rfl 6 _ fd6 _ _ rfl _ (remote_final m c 6 fd6 _ ((read_store_send 6 fsb _ _).trans (load_chunk0L (xOf m c) 6 ⟨1 - c.val % 2, by omega⟩ (k0_off1 c) (off1_b c) _ _)))) $$ [Hsb6 Hd6 HO Hts6 Htp6]
  · isplitr; · iexact HIs6
    isplitr; · iexact HIp6
    isplitl [Hsb6]; · iexact Hsb6
    isplitl [Hd6]; · iexact Hd6
    isplitl [HO]; · iexact HO
    isplitl [Hts6]; · iexact Hts6
    isplitr; · iexact Hrs6
    isplitl [Htp6]; · iexact Htp6
    iexact Hrp6
  iintro ⟨Hcs6, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay8 with ⟨⟨%fd7, Hd7⟩, #Hrp7⟩
  iapply (wp_send_chunk' m K c _ rfl 7 _ fd7 _ _ rfl _ (remote_final m c 7 fd7 _ ((read_store_send 7 fsb _ _).trans (load_chunk1L (xOf m c) 7 ⟨1 - c.val % 2, by omega⟩ (k0_off4 c) (off4_b c) _ _)))) $$ [Hsb7 Hd7 HO Hts7 Htp7]
  · isplitr; · iexact HIs7
    isplitr; · iexact HIp7
    isplitl [Hsb7]; · iexact Hsb7
    isplitl [Hd7]; · iexact Hd7
    isplitl [HO]; · iexact HO
    isplitl [Hts7]; · iexact Hts7
    isplitr; · iexact Hrs7
    isplitl [Htp7]; · iexact Htp7
    iexact Hrp7
  iintro ⟨Hcs7, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay9 with ⟨⟨%fd8, Hd8⟩, #Hrp8⟩
  iapply (wp_send_chunk' m K c _ rfl 8 _ fd8 _ _ rfl _ (remote_final m c 8 fd8 _ ((read_store_send 8 fsb _ _).trans (load_chunk0L (xOf m c) 8 ⟨1 - c.val % 2, by omega⟩ (k0_off1 c) (off1_b c) _ _)))) $$ [Hsb8 Hd8 HO Hts8 Htp8]
  · isplitr; · iexact HIs8
    isplitr; · iexact HIp8
    isplitl [Hsb8]; · iexact Hsb8
    isplitl [Hd8]; · iexact Hd8
    isplitl [HO]; · iexact HO
    isplitl [Hts8]; · iexact Hts8
    isplitr; · iexact Hrs8
    isplitl [Htp8]; · iexact Htp8
    iexact Hrp8
  iintro ⟨Hcs8, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay10 with ⟨⟨%fd9, Hd9⟩, #Hrp9⟩
  iapply (wp_send_chunk' m K c _ rfl 9 _ fd9 _ _ rfl _ (remote_final m c 9 fd9 _ ((read_store_send 9 fsb _ _).trans (load_chunk1L (xOf m c) 9 ⟨1 - c.val % 2, by omega⟩ (k0_off4 c) (off4_b c) _ _)))) $$ [Hsb9 Hd9 HO Hts9 Htp9]
  · isplitr; · iexact HIs9
    isplitr; · iexact HIp9
    isplitl [Hsb9]; · iexact Hsb9
    isplitl [Hd9]; · iexact Hd9
    isplitl [HO]; · iexact HO
    isplitl [Hts9]; · iexact Hts9
    isplitr; · iexact Hrs9
    isplitl [Htp9]; · iexact Htp9
    iexact Hrp9
  iintro ⟨Hcs9, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay11 with ⟨⟨%fd10, Hd10⟩, #Hrp10⟩
  iapply (wp_send_chunk' m K c _ rfl 10 _ fd10 _ _ rfl _ (remote_final m c 10 fd10 _ ((read_store_send 10 fsb _ _).trans (load_chunk0L (xOf m c) 10 ⟨1 - c.val % 2, by omega⟩ (k0_off1 c) (off1_b c) _ _)))) $$ [Hsb10 Hd10 HO Hts10 Htp10]
  · isplitr; · iexact HIs10
    isplitr; · iexact HIp10
    isplitl [Hsb10]; · iexact Hsb10
    isplitl [Hd10]; · iexact Hd10
    isplitl [HO]; · iexact HO
    isplitl [Hts10]; · iexact Hts10
    isplitr; · iexact Hrs10
    isplitl [Htp10]; · iexact Htp10
    iexact Hrp10
  iintro ⟨Hcs10, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay12 with ⟨⟨%fd11, Hd11⟩, #Hrp11⟩
  iapply (wp_send_chunk' m K c _ rfl 11 _ fd11 _ _ rfl _ (remote_final m c 11 fd11 _ ((read_store_send 11 fsb _ _).trans (load_chunk1L (xOf m c) 11 ⟨1 - c.val % 2, by omega⟩ (k0_off4 c) (off4_b c) _ _)))) $$ [Hsb11 Hd11 HO Hts11 Htp11]
  · isplitr; · iexact HIs11
    isplitr; · iexact HIp11
    isplitl [Hsb11]; · iexact Hsb11
    isplitl [Hd11]; · iexact Hd11
    isplitl [HO]; · iexact HO
    isplitl [Hts11]; · iexact Hts11
    isplitr; · iexact Hrs11
    isplitl [Htp11]; · iexact Htp11
    iexact Hrp11
  iintro ⟨Hcs11, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay13 with ⟨⟨%fd12, Hd12⟩, #Hrp12⟩
  iapply (wp_send_chunk' m K c _ rfl 12 _ fd12 _ _ rfl _ (remote_final m c 12 fd12 _ ((read_store_send 12 fsb _ _).trans (load_chunk0L (xOf m c) 12 ⟨1 - c.val % 2, by omega⟩ (k0_off1 c) (off1_b c) _ _)))) $$ [Hsb12 Hd12 HO Hts12 Htp12]
  · isplitr; · iexact HIs12
    isplitr; · iexact HIp12
    isplitl [Hsb12]; · iexact Hsb12
    isplitl [Hd12]; · iexact Hd12
    isplitl [HO]; · iexact HO
    isplitl [Hts12]; · iexact Hts12
    isplitr; · iexact Hrs12
    isplitl [Htp12]; · iexact Htp12
    iexact Hrp12
  iintro ⟨Hcs12, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay14 with ⟨⟨%fd13, Hd13⟩, #Hrp13⟩
  iapply (wp_send_chunk' m K c _ rfl 13 _ fd13 _ _ rfl _ (remote_final m c 13 fd13 _ ((read_store_send 13 fsb _ _).trans (load_chunk1L (xOf m c) 13 ⟨1 - c.val % 2, by omega⟩ (k0_off4 c) (off4_b c) _ _)))) $$ [Hsb13 Hd13 HO Hts13 Htp13]
  · isplitr; · iexact HIs13
    isplitr; · iexact HIp13
    isplitl [Hsb13]; · iexact Hsb13
    isplitl [Hd13]; · iexact Hd13
    isplitl [HO]; · iexact HO
    isplitl [Hts13]; · iexact Hts13
    isplitr; · iexact Hrs13
    isplitl [Htp13]; · iexact Htp13
    iexact Hrp13
  iintro ⟨Hcs13, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay15 with ⟨⟨%fd14, Hd14⟩, #Hrp14⟩
  iapply (wp_send_chunk' m K c _ rfl 14 _ fd14 _ _ rfl _ (remote_final m c 14 fd14 _ ((read_store_send 14 fsb _ _).trans (load_chunk0L (xOf m c) 14 ⟨1 - c.val % 2, by omega⟩ (k0_off1 c) (off1_b c) _ _)))) $$ [Hsb14 Hd14 HO Hts14 Htp14]
  · isplitr; · iexact HIs14
    isplitr; · iexact HIp14
    isplitl [Hsb14]; · iexact Hsb14
    isplitl [Hd14]; · iexact Hd14
    isplitl [HO]; · iexact HO
    isplitl [Hts14]; · iexact Hts14
    isplitr; · iexact Hrs14
    isplitl [Htp14]; · iexact Htp14
    iexact Hrp14
  iintro ⟨Hcs14, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  icases HatB_pay17 with #Hrp15
  iapply (wp_send_chunk' m K c _ rfl 15 _ HatB_pay16_v _ _ (zero_add _).symm _ (remote_final m c 15 HatB_pay16_v _ ((read_store_send 15 fsb _ _).trans (load_chunk1L (xOf m c) 15 ⟨1 - c.val % 2, by omega⟩ (k0_off4 c) (off4_b c) _ _)))) $$ [Hsb15 HatB_pay16 HO Hts15 Htp15]
  · isplitr; · iexact HIs15
    isplitr; · iexact HIp15
    isplitl [Hsb15]; · iexact Hsb15
    isplitl [HatB_pay16]; · iexact HatB_pay16
    isplitl [HO]; · iexact HO
    isplitl [Hts15]; · iexact Hts15
    isplitr; · iexact Hrs15
    isplitl [Htp15]; · iexact Htp15
    iexact Hrp15
  iintro ⟨Hcs15, HO⟩
  sl_exec_parts (disch := first | simp only [dev1_eq, dev2_eq, dev3_eq, dev4_eq, dev5_eq, dev6_eq, dev7_eq, dev8_eq, dev9_eq, dev10_eq, dev11_eq, dev12_eq, dev13_eq, dev14_eq, dev15_eq, dev16_eq, dev17_eq] | decide | omega)
  try sl_step
  ihave Hq0 := (Entails.of_eq (pointsTo_congr (local_final m c 0 _ _ ((read_store_local 0 flb _ _).trans (load_chunk0L (xOf m c) 0 ⟨c.val % 2, Nat.mod_lt _ (by decide)⟩ (k0_off3 c) (k0_off3_eq c) _ _))))) $$ Hq0
  ihave Hq1 := (Entails.of_eq (pointsTo_congr (local_final m c 1 _ _ ((read_store_local 1 flb _ _).trans (load_chunk1L (xOf m c) 1 ⟨c.val % 2, Nat.mod_lt _ (by decide)⟩ (k0_off5 c) (k0_off5_eq c) _ _))))) $$ Hq1
  ihave Hq2 := (Entails.of_eq (pointsTo_congr (local_final m c 2 _ _ ((read_store_local 2 flb _ _).trans (load_chunk0L (xOf m c) 2 ⟨c.val % 2, Nat.mod_lt _ (by decide)⟩ (k0_off3 c) (k0_off3_eq c) _ _))))) $$ Hq2
  ihave Hq3 := (Entails.of_eq (pointsTo_congr (local_final m c 3 _ _ ((read_store_local 3 flb _ _).trans (load_chunk1L (xOf m c) 3 ⟨c.val % 2, Nat.mod_lt _ (by decide)⟩ (k0_off5 c) (k0_off5_eq c) _ _))))) $$ Hq3
  ihave Hq4 := (Entails.of_eq (pointsTo_congr (local_final m c 4 _ _ ((read_store_local 4 flb _ _).trans (load_chunk0L (xOf m c) 4 ⟨c.val % 2, Nat.mod_lt _ (by decide)⟩ (k0_off3 c) (k0_off3_eq c) _ _))))) $$ Hq4
  ihave Hq5 := (Entails.of_eq (pointsTo_congr (local_final m c 5 _ _ ((read_store_local 5 flb _ _).trans (load_chunk1L (xOf m c) 5 ⟨c.val % 2, Nat.mod_lt _ (by decide)⟩ (k0_off5 c) (k0_off5_eq c) _ _))))) $$ Hq5
  ihave Hq6 := (Entails.of_eq (pointsTo_congr (local_final m c 6 _ _ ((read_store_local 6 flb _ _).trans (load_chunk0L (xOf m c) 6 ⟨c.val % 2, Nat.mod_lt _ (by decide)⟩ (k0_off3 c) (k0_off3_eq c) _ _))))) $$ Hq6
  ihave Hq7 := (Entails.of_eq (pointsTo_congr (local_final m c 7 _ _ ((read_store_local 7 flb _ _).trans (load_chunk1L (xOf m c) 7 ⟨c.val % 2, Nat.mod_lt _ (by decide)⟩ (k0_off5 c) (k0_off5_eq c) _ _))))) $$ Hq7
  ihave Hq8 := (Entails.of_eq (pointsTo_congr (local_final m c 8 _ _ ((read_store_local 8 flb _ _).trans (load_chunk0L (xOf m c) 8 ⟨c.val % 2, Nat.mod_lt _ (by decide)⟩ (k0_off3 c) (k0_off3_eq c) _ _))))) $$ Hq8
  ihave Hq9 := (Entails.of_eq (pointsTo_congr (local_final m c 9 _ _ ((read_store_local 9 flb _ _).trans (load_chunk1L (xOf m c) 9 ⟨c.val % 2, Nat.mod_lt _ (by decide)⟩ (k0_off5 c) (k0_off5_eq c) _ _))))) $$ Hq9
  ihave Hq10 := (Entails.of_eq (pointsTo_congr (local_final m c 10 _ _ ((read_store_local 10 flb _ _).trans (load_chunk0L (xOf m c) 10 ⟨c.val % 2, Nat.mod_lt _ (by decide)⟩ (k0_off3 c) (k0_off3_eq c) _ _))))) $$ Hq10
  ihave Hq11 := (Entails.of_eq (pointsTo_congr (local_final m c 11 _ _ ((read_store_local 11 flb _ _).trans (load_chunk1L (xOf m c) 11 ⟨c.val % 2, Nat.mod_lt _ (by decide)⟩ (k0_off5 c) (k0_off5_eq c) _ _))))) $$ Hq11
  ihave Hq12 := (Entails.of_eq (pointsTo_congr (local_final m c 12 _ _ ((read_store_local 12 flb _ _).trans (load_chunk0L (xOf m c) 12 ⟨c.val % 2, Nat.mod_lt _ (by decide)⟩ (k0_off3 c) (k0_off3_eq c) _ _))))) $$ Hq12
  ihave Hq13 := (Entails.of_eq (pointsTo_congr (local_final m c 13 _ _ ((read_store_local 13 flb _ _).trans (load_chunk1L (xOf m c) 13 ⟨c.val % 2, Nat.mod_lt _ (by decide)⟩ (k0_off5 c) (k0_off5_eq c) _ _))))) $$ Hq13
  ihave Hq14 := (Entails.of_eq (pointsTo_congr (local_final m c 14 _ _ ((read_store_local 14 flb _ _).trans (load_chunk0L (xOf m c) 14 ⟨c.val % 2, Nat.mod_lt _ (by decide)⟩ (k0_off3 c) (k0_off3_eq c) _ _))))) $$ Hq14
  ihave Hq15 := (Entails.of_eq (pointsTo_congr (local_final m c 15 _ _ ((read_store_local 15 flb _ _).trans (load_chunk1L (xOf m c) 15 ⟨c.val % 2, Nat.mod_lt _ (by decide)⟩ (k0_off5 c) (k0_off5_eq c) _ _))))) $$ Hq15
  iapply Hk
  unfold bodyPost sbuf lbuf slot localSems
  simp (config := { proj := false }) only [bigSep_fin16, bigSep_fin18, Fin.coe_ofNat_eq_mod, Nat.reduceMod]
  rw [show whole c main_arg0 (m ((c : Thread nD τ).loc main_arg0)) = (xM.view.loc (c : Thread nD τ) ↦{fullShare} m ((c : Thread nD τ).loc main_arg0)) from rfl]
  sl_close

end Cert.KernelIdeal.Exchange

end
-- ==== Proof.KernelIdeal.Regions.lean ====
import proofs.«900631_g7700000000000632_dist_a2a_v7x_xyz2x2x2_z_m8192_n1024_bf16_1_alg».proof.Proof.KernelIdeal.Slices
import Idealize.ShloMosaic.Lib.Ring

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

/-! # Region algebra: the buffers cut into the slices the body works through, and joined back

Each buffer a device holds whole is the disjoint union of the row blocks the kernel addresses: a staging buffer of
8192 rows is sixteen blocks of 512 rows; the result array of 16384 rows is the sixteen blocks of the device's own half
and the sixteen of its partner's half; the input ring is its two slots.  A points-to on the whole buffer is therefore the
separating conjunction of the points-tos on the blocks at the same contents, and blocks held at contents of their own
join to the whole buffer at some contents.  No program is run here. -/

/-! ## The staging buffers: sixteen blocks of 512 rows -/

/-- Rows `[512·i, 512·i + 512)` of a staging buffer, all columns. -/
def rows (i : Fin 16) : Finset S8192x1024.Idx :=
  (Rect.unit (s := S8192x1024) ![512 * i.val, 0] S512x1024.size (sb_inb i)).set

/-- Blocks at different chunk numbers share no row. -/
theorem rows_disjoint (i j : Fin 16) (h : i ≠ j) : Disjoint (rows i) (rows j) :=
  Ring.lead_disjoint (s := S8192x1024) (0 : Fin 2) 512 (fun i : Fin 16 => ![512 * i.val, 0]) S512x1024.size sb_inb
    (fun b => rfl) rfl i j h

/-- `16 · 512 = 8192`: the blocks cover the buffer. -/
theorem rows_cover : Finset.univ.biUnion rows = Finset.univ :=
  Ring.lead_cover (s := S8192x1024) (0 : Fin 2) 512 (fun i : Fin 16 => ![512 * i.val, 0]) S512x1024.size sb_inb
    (fun b => rfl) (by decide) rfl (by decide) (by decide)

theorem sbSl_set (i : Fin 16) : ((sbSl i).view.set : Finset S8192x1024.Idx) = rows i :=
  View.set_slice_whole _ _

theorem lbSl_set (i : Fin 16) : ((lbSl i).view.set : Finset S8192x1024.Idx) = rows i :=
  View.set_slice_whole _ _

theorem sbuf_eq (c : Dev nD) (i : Fin 16) (f : Buf (Elt F) ((c : Thread nD τ).loc cc0_scratch1)) :
    sbuf c i f = ((c : Thread nD τ).loc cc0_scratch1 ↦[rows i]{fullShare} f : sProp 𝕄) :=
  congrArg (fun S : Finset (Idx ((c : Thread nD τ).loc cc0_scratch1)) =>
    ((c : Thread nD τ).loc cc0_scratch1 ↦[S]{fullShare} f : sProp 𝕄)) (sbSl_set i)

theorem lbuf_eq (c : Dev nD) (i : Fin 16) (f : Buf (Elt F) ((c : Thread nD τ).loc cc0_scratch2)) :
    lbuf c i f = ((c : Thread nD τ).loc cc0_scratch2 ↦[rows i]{fullShare} f : sProp 𝕄) :=
  congrArg (fun S : Finset (Idx ((c : Thread nD τ).loc cc0_scratch2)) =>
    ((c : Thread nD τ).loc cc0_scratch2 ↦[S]{fullShare} f : sProp 𝕄)) (lbSl_set i)

/-- The send staging buffer held whole is its sixteen chunks' rows at the same contents. -/
theorem send_split (c : Dev nD) (f : Buf (Elt F) ((c : Thread nD τ).loc cc0_scratch1)) :
    whole c cc0_scratch1 f ⊣⊢ (bigSep Finset.univ fun i : Fin 16 => sbuf c i f) :=
  BiEntails.of_eq ((Ring.pointsTo_blocks (Ix := Unit) (Val := Elt F) (Name := ℕ) (U := UU) (Lvl := ℕ)
    (ℓ := (c : Thread nD τ).loc cc0_scratch1) (q := fullShare) (B := Fin 16) rows rows_disjoint rows_cover f).trans
    (bigSep_congr fun i _ => (sbuf_eq c i f).symm))

/-- Sixteen chunks' rows, each at contents of its own, are the buffer whole at some contents (on each block the
    block's own). -/
theorem send_join (c : Dev nD) :
    ((bigSep Finset.univ fun i : Fin 16 => iprop(∃ f, sbuf c i f)) : sProp 𝕄) ⊢ iprop(∃ f, whole c cc0_scratch1 f) := by
  simp only [sbuf_eq]
  exact Ring.pointsTo_blocks_join_exists (Ix := Unit) (Val := Elt F) (Name := ℕ) (U := UU) (Lvl := ℕ)
    (ℓ := (c : Thread nD τ).loc cc0_scratch1) (q := fullShare) (B := Fin 16) rows rows_disjoint rows_cover
    (fun _ => Classical.arbitrary _)

/-- The local staging buffer likewise. -/
theorem local_split (c : Dev nD) (f : Buf (Elt F) ((c : Thread nD τ).loc cc0_scratch2)) :
    whole c cc0_scratch2 f ⊣⊢ (bigSep Finset.univ fun i : Fin 16 => lbuf c i f) :=
  BiEntails.of_eq ((Ring.pointsTo_blocks (Ix := Unit) (Val := Elt F) (Name := ℕ) (U := UU) (Lvl := ℕ)
    (ℓ := (c : Thread nD τ).loc cc0_scratch2) (q := fullShare) (B := Fin 16) rows rows_disjoint rows_cover f).trans
    (bigSep_congr fun i _ => (lbuf_eq c i f).symm))

theorem local_join (c : Dev nD) :
    ((bigSep Finset.univ fun i : Fin 16 => iprop(∃ f, lbuf c i f)) : sProp 𝕄) ⊢ iprop(∃ f, whole c cc0_scratch2 f) := by
  simp only [lbuf_eq]
  exact Ring.pointsTo_blocks_join_exists (Ix := Unit) (Val := Elt F) (Name := ℕ) (U := UU) (Lvl := ℕ)
    (ℓ := (c : Thread nD τ).loc cc0_scratch2) (q := fullShare) (B := Fin 16) rows rows_disjoint rows_cover
    (fun _ => Classical.arbitrary _)

/-! ## The result array: the device's half and its partner's half, sixteen blocks each

Device `d`'s chunk `i` goes to rows `[8192·z_d + 512·i, +512)`, `z_d = d % 2` its last mesh coordinate.  Within one
device the sixteen row ranges are consecutive and disjoint and fill the half `[8192·z_d, 8192·z_d + 8192)`; the partner
has the other value of `z`, hence the other half. -/

/-- Rows `[8192·z_d + 512·i, +512)` of a result array, all columns. -/
def orows (d : Dev nD) (i : Fin 16) : Finset S16384x1024.Idx :=
  (Rect.unit (s := S16384x1024) (k0_off2 d (BitVec.ofNat 32 (512 * i.val))) S512x1024.size (k0_off2_inb d i)).set

theorem oSl_set (d : Dev nD) (i : Fin 16) : ((oSl d i).view.set : Finset S16384x1024.Idx) = orows d i :=
  View.set_slice_whole _ _

/-- Membership is a condition on the row alone: every column is in. -/
theorem mem_orows (d : Dev nD) (i : Fin 16) (x : S16384x1024.Idx) :
    x ∈ orows d i ↔ 8192 * (d.val % 2) + 512 * i.val ≤ (x 0).val ∧ (x 0).val < 8192 * (d.val % 2) + 512 * i.val + 512 := by
  unfold orows
  rw [Rect.mem_set_unit, k0_off2_eq]
  have h1 : (x 1).val < 1024 := (x 1).isLt
  refine (Fin.forall_fin_two (p := fun a => _)).trans ?_
  show (8192 * (d.val % 2) + 512 * i.val ≤ (x 0).val ∧ (x 0).val < 8192 * (d.val % 2) + 512 * i.val + 512)
    ∧ (0 ≤ (x 1).val ∧ (x 1).val < 0 + 1024) ↔ _
  omega

/-- One device's sixteen blocks are pairwise disjoint. -/
theorem orows_disjoint (d : Dev nD) (i j : Fin 16) (h : i ≠ j) : Disjoint (orows d i) (orows d j) := by
  rw [Finset.disjoint_left]
  intro x hi hj
  rw [mem_orows] at hi hj
  have : i.val ≠ j.val := fun e => h (Fin.ext e)
  omega

/-- A device's blocks and its partner's are disjoint: they lie in different halves of the rows. -/
theorem orows_disjoint_peer (c : Dev nD) (i j : Fin 16) : Disjoint (orows c i) (orows (peer c) j) := by
  rw [Finset.disjoint_left]
  intro x hi hj
  rw [mem_orows] at hi hj
  rw [peer_z] at hj
  have := i.isLt; have := j.isLt
  omega

/-- The two devices' blocks cover the result array: row `R` is in the half `R / 8192`, in block `R % 8192 / 512` of it. -/
theorem orows_cover (c : Dev nD) :
    (Finset.univ.biUnion (orows c)) ∪ (Finset.univ.biUnion (orows (peer c))) = Finset.univ := by
  ext x
  simp only [Finset.mem_union, Finset.mem_biUnion, Finset.mem_univ, true_and, iff_true, mem_orows, peer_z]
  have h0 : (x 0).val < 16384 := (x 0).isLt
  by_cases hz : (x 0).val / 8192 = c.val % 2
  · refine Or.inl ⟨⟨(x 0).val % 8192 / 512, by omega⟩, ?_⟩
    show 8192 * (c.val % 2) + 512 * ((x 0).val % 8192 / 512) ≤ (x 0).val
      ∧ (x 0).val < 8192 * (c.val % 2) + 512 * ((x 0).val % 8192 / 512) + 512
    omega
  · refine Or.inr ⟨⟨(x 0).val % 8192 / 512, by omega⟩, ?_⟩
    show 8192 * (1 - c.val % 2) + 512 * ((x 0).val % 8192 / 512) ≤ (x 0).val
      ∧ (x 0).val < 8192 * (1 - c.val % 2) + 512 * ((x 0).val % 8192 / 512) + 512
    omega

theorem slot_eq (q d : Dev nD) (i : Fin 16) (f : Buf (Elt F) ((q : Thread nD τ).loc main_v1)) :
    slot q d i f = ((q : Thread nD τ).loc main_v1 ↦[orows d i]{fullShare} f : sProp 𝕄) :=
  congrArg (fun S : Finset (Idx ((q : Thread nD τ).loc main_v1)) =>
    ((q : Thread nD τ).loc main_v1 ↦[S]{fullShare} f : sProp 𝕄)) (oSl_set d i)

/-- The thirty-two row blocks `[8192·z_d + 512·i, +512)` × all 1024 columns, `d ∈ {c, peer c}`, partition the
    16384 × 1024 result. -/
theorem result_split (c : Dev nD) (f : Buf (Elt F) ((c : Thread nD τ).loc main_v1)) :
    whole c main_v1 f ⊣⊢ iprop((bigSep Finset.univ fun i : Fin 16 => slot c c i f) ∗ (bigSep Finset.univ fun i : Fin 16 => slot c (peer c) i f)) := by
  have hd : Disjoint (Finset.univ.biUnion (orows c)) (Finset.univ.biUnion (orows (peer c))) :=
    (Finset.disjoint_biUnion_left _ _ _).mpr fun i _ => (Finset.disjoint_biUnion_right _ _ _).mpr fun j _ => orows_disjoint_peer c i j
  have hu := pointsTo_union (Ix := Unit) (Val := Elt F) (Name := ℕ) (U := UU) (Lvl := ℕ) (ℓ := (c : Thread nD τ).loc main_v1) (q := fullShare) (f := f) hd
  have e1 := pointsTo_biUnion (Ix := Unit) (Val := Elt F) (Name := ℕ) (U := UU) (Lvl := ℕ) (ℓ := (c : Thread nD τ).loc main_v1) (q := fullShare) (f := f)
    Finset.univ (orows c) (fun i _ j _ h => orows_disjoint c i j h)
  have e2 := pointsTo_biUnion (Ix := Unit) (Val := Elt F) (Name := ℕ) (U := UU) (Lvl := ℕ) (ℓ := (c : Thread nD τ).loc main_v1) (q := fullShare) (f := f)
    Finset.univ (orows (peer c)) (fun i _ j _ h => orows_disjoint (peer c) i j h)
  rw [orows_cover c, e1, e2] at hu
  simp only [slot_eq]
  exact hu

/-! ## The input ring: two slots -/

theorem ring_inb (k : Fin 2) : ∀ a, (![k.val, 0, 0] : Fin 3 → Nat) a + S1x512x2048.size a ≤ S2x512x2048.size a := by
  revert k; decide

/-- Slot `k` of the input ring: the elements `[k, ·, ·]`. -/
def ringSlot (k : Fin 2) : Finset S2x512x2048.Idx :=
  (Rect.unit (s := S2x512x2048) ![k.val, 0, 0] S1x512x2048.size (ring_inb k)).set

theorem ringSlot_disjoint (j k : Fin 2) (h : j ≠ k) : Disjoint (ringSlot j) (ringSlot k) :=
  Ring.lead_disjoint (s := S2x512x2048) (0 : Fin 3) 1 (fun k : Fin 2 => ![k.val, 0, 0]) S1x512x2048.size ring_inb
    (fun b => (Nat.one_mul _).symm) rfl j k h

theorem ringSlot_cover : Finset.univ.biUnion ringSlot = Finset.univ :=
  Ring.lead_cover (s := S2x512x2048) (0 : Fin 3) 1 (fun k : Fin 2 => ![k.val, 0, 0]) S1x512x2048.size ring_inb
    (fun b => (Nat.one_mul _).symm) (by decide) rfl (by decide) (by decide)

/-- Dropping the unit leading axis keeps the element set. -/
theorem inSl0_set : (inSl0.view.set : Finset S2x512x2048.Idx) = ringSlot 0 :=
  (Memref.set_view_squeeze _ _).trans (View.set_slice_whole _ _)

theorem inSl1_set : (inSl1.view.set : Finset S2x512x2048.Idx) = ringSlot 1 :=
  (Memref.set_view_squeeze _ _).trans (View.set_slice_whole _ _)

theorem in0_eq (c : Dev nD) (f : Buf (Elt F) ((c : Thread nD τ).loc cc0_scratch0)) :
    (inSl0.view.loc (c : Thread nD τ) ↦[inSl0.view.set]{fullShare} f : sProp 𝕄)
      = ((c : Thread nD τ).loc cc0_scratch0 ↦[ringSlot 0]{fullShare} f) :=
  congrArg (fun S : Finset (Idx ((c : Thread nD τ).loc cc0_scratch0)) =>
    ((c : Thread nD τ).loc cc0_scratch0 ↦[S]{fullShare} f : sProp 𝕄)) inSl0_set

theorem in1_eq (c : Dev nD) (f : Buf (Elt F) ((c : Thread nD τ).loc cc0_scratch0)) :
    (inSl1.view.loc (c : Thread nD τ) ↦[inSl1.view.set]{fullShare} f : sProp 𝕄)
      = ((c : Thread nD τ).loc cc0_scratch0 ↦[ringSlot 1]{fullShare} f) :=
  congrArg (fun S : Finset (Idx ((c : Thread nD τ).loc cc0_scratch0)) =>
    ((c : Thread nD τ).loc cc0_scratch0 ↦[S]{fullShare} f : sProp 𝕄)) inSl1_set

/-- The input ring held whole is its two slots at the same contents. -/
theorem ring_split (c : Dev nD) (f : Buf (Elt F) ((c : Thread nD τ).loc cc0_scratch0)) :
    whole c cc0_scratch0 f ⊣⊢ iprop((inSl0.view.loc (c : Thread nD τ) ↦[inSl0.view.set]{fullShare} f) ∗ (inSl1.view.loc (c : Thread nD τ) ↦[inSl1.view.set]{fullShare} f)) := by
  rw [in0_eq, in1_eq]
  exact BiEntails.of_eq ((Ring.pointsTo_blocks (Ix := Unit) (Val := Elt F) (Name := ℕ) (U := UU) (Lvl := ℕ)
    (ℓ := (c : Thread nD τ).loc cc0_scratch0) (q := fullShare) (B := Fin 2) ringSlot ringSlot_disjoint ringSlot_cover f).trans
    (BI.bigSep_fin_two _))

/-- The two slots, each at contents of its own, are the ring whole at some contents. -/
theorem ring_join (c : Dev nD) :
    (iprop((∃ f, inSl0.view.loc (c : Thread nD τ) ↦[inSl0.view.set]{fullShare} f) ∗ (∃ f, inSl1.view.loc (c : Thread nD τ) ↦[inSl1.view.set]{fullShare} f)) : sProp 𝕄)
      ⊢ iprop(∃ f, whole c cc0_scratch0 f) :=
  Ring.slots2_join (Ix := Unit) (Val := Elt F) (Name := ℕ) (U := UU) (Lvl := ℕ) (ℓ := (c : Thread nD τ).loc cc0_scratch0) (q := fullShare)
    ringSlot ringSlot_disjoint ringSlot_cover
    (fun f => (inSl0.view.loc (c : Thread nD τ) ↦[inSl0.view.set]{fullShare} f : sProp 𝕄))
    (fun f => (inSl1.view.loc (c : Thread nD τ) ↦[inSl1.view.set]{fullShare} f : sProp 𝕄))
    (in0_eq c) (in1_eq c)

end Cert.KernelIdeal.Exchange

end
-- ==== Proof.KernelIdeal.Launch.lean ====
import proofs.«900631_g7700000000000632_dist_a2a_v7x_xyz2x2x2_z_m8192_n1024_bf16_1_alg».proof.Proof.KernelIdeal.Invariant

/-!
# The launch: from every device's body to the run of the whole program

The launch element funds the pipeline library's (empty) staging protocol and the exchange's thirty-three cells a
device; one global step allocates every cell's invariant from its counter at zero — the barrier semaphore among the
unscoped ones, the send and receive semaphores among the kernel's own fifty, whose first eighteen stay plain counters —
and deals each device the invariants it opens, its positions, and the tokens of the duties it pays: its partner's
barrier duty, its own send duties, its partner's receive duties.  Both operands stay in HBM, so the input block and
the result array travel as the unscoped rest, and the result is read off the final memory directly.
-/

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The kernel's own semaphores: all fifty DMA semaphores -/

abbrev osem : DmaSem sig → SemLoc sig := fun k => .dma k

theorem ownSemFacts : Pipeline.OwnSemFacts cfg0.spec osem :=
  ⟨fun k => by revert k; decide, fun a b h => SemLoc.dma.inj h, fun k w s => w.elim0⟩

theorem sendSem_inj : Function.Injective sendSem := fun i j h =>
  Fin.ext (by have := congrArg Fin.val h; rw [sendSem_val, sendSem_val] at this; omega)
theorem recvSem_inj : Function.Injective recvSem := fun i j h =>
  Fin.ext (by have := congrArg Fin.val h; rw [recvSem_val, recvSem_val] at this; omega)
theorem sendSem_ne_recvSem (i j : Fin 16) : sendSem i ≠ recvSem j := fun h => by
  have := congrArg Fin.val h; rw [sendSem_val, recvSem_val] at this; have := i.isLt; omega

/-- The fifty DMA semaphores: the eighteen local ones, the sixteen send and the sixteen receive semaphores. -/
def semIdx : Fin 18 ⊕ (Fin 16 ⊕ Fin 16) → DmaSem sig
  | .inl k => ⟨k.val, by have := k.isLt; show _ < 50; omega⟩
  | .inr (.inl i) => sendSem i
  | .inr (.inr i) => recvSem i

def semEquiv : Fin 18 ⊕ (Fin 16 ⊕ Fin 16) ≃ DmaSem sig where
  toFun := semIdx
  invFun q :=
    if h : q.val < 18 then .inl ⟨q.val, h⟩
    else if h' : q.val < 34 then .inr (.inl ⟨q.val - 18, by omega⟩)
    else .inr (.inr ⟨q.val - 34, by have : q.val < 50 := q.isLt; omega⟩)
  left_inv := by decide +kernel
  right_inv := by decide +kernel

omit [FloatOps F] in
/-- A device's own DMA semaphores at zero: the local ones, the send cells' and the receive cells'. -/
theorem ownSems0_split (c : Dev nD) :
    (Pipeline.ownSems0 (Ix := Unit) (Name := ℕ) (U := UU) (Lvl := ℕ) (Val := Elt F) (τ := τ) osem c : sProp 𝕄)
      = iprop(localSems c ∗ (bigSep Finset.univ fun i : Fin 16 => semVal (sendCell c i) 0)
          ∗ (bigSep Finset.univ fun i : Fin 16 => semVal (recvCell c i) 0)) := by
  unfold Pipeline.ownSems0 localSems
  rw [bigSep_univ_equiv semEquiv, bigSep_univ_sum, bigSep_univ_sum]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The exchange's cells, thirty-three a device -/

/-- Which of a device's cells: the barrier cell, a send cell, a receive cell. -/
abbrev CI : Type := Unit ⊕ (Fin 16 ⊕ Fin 16)

def ciSem : CI → SemLoc sig
  | .inl _ => .reg barS
  | .inr (.inl i) => .dma (sendSem i)
  | .inr (.inr i) => .dma (recvSem i)

def ciOf : CK → CI
  | .bar => .inl ()
  | .send i => .inr (.inl i)
  | .recv i => .inr (.inr i)

abbrev kcell (x : Dev nD × CI) : GSem nD τ sig := ((x.1 : Thread nD τ), ciSem x.2)

theorem ciSem_injective : Function.Injective ciSem := by
  rintro (u | i | i) (u' | j | j) h
  · rfl
  · exact absurd h (fun h' => by cases h')
  · exact absurd h (fun h' => by cases h')
  · exact absurd h (fun h' => by cases h')
  · exact congrArg (fun i => Sum.inr (Sum.inl i)) (sendSem_inj (SemLoc.dma.inj h))
  · exact absurd (SemLoc.dma.inj h) (sendSem_ne_recvSem i j)
  · exact absurd h (fun h' => by cases h')
  · exact absurd (SemLoc.dma.inj h).symm (sendSem_ne_recvSem j i)
  · exact congrArg (fun i => Sum.inr (Sum.inr i)) (recvSem_inj (SemLoc.dma.inj h))

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := ciSem_injective (congrArg Prod.snd h)
  subst h2; rfl

def exCells : Finset (GSem nD τ sig) := Finset.univ.map ⟨kcell, kcell_injective⟩

/-- One duty token a cell. -/
abbrev tokOf (x : Dev nD × CI) : GSem nD τ sig × ℕ × Unit := (kcell x, 0, ())
theorem tokOf_injective : Function.Injective (tokOf : Dev nD × CI → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), (initOf exCells exToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
/-- A device's cells one by one. -/
theorem bigSep_cells (Φ : GSem nD τ sig → sProp 𝕄) (c : Dev nD) :
    (bigSep Finset.univ fun k : CI => Φ (kcell (c, k)))
      = iprop(Φ (barCell c) ∗ (bigSep Finset.univ fun i : Fin 16 => Φ (sendCell c i)) ∗ (bigSep Finset.univ fun i : Fin 16 => Φ (recvCell c i))) := by
  rw [bigSep_univ_sum, bigSep_univ_sum, bigSep_univ_of_subsingleton ()]
  rfl

/-- What the launch element deals device `c` (the theorem's `G`). -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0))
    ∗ (bigSep Finset.univ fun k : CI => dutyTok ER (kcell (c, k)) 0 ()))

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄))
      = bigSep Finset.univ fun c : Dev nD => bigSep Finset.univ fun k : CI => dutyTok ER (kcell (c, k)) 0 () := by
    unfold exToks; rw [bigSep_map, bigSep_univ_prod]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, and the ghost state dealt to the devices -/

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : CI => semVal (kcell (c, k)) 0) : sProp 𝕄) := by
  rw [ownSems0_split, unscopedSems0_eq, bigSep_cells (fun g => semVal g 0) c]
  iintro ⟨⟨HL, HS, HV⟩, HB⟩
  isplitl [HL]; · iexact HL
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(localSems c ∗ (bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0))
          ∗ (bigSep Finset.univ fun k : CI => dutyTok ER (kcell (c, k)) 0 ())) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [HL]; · iexact HL
  isplitl [Hinv]; · iexact Hinv
  isplitl [Hat]; · iexact Hat
  iexact Htok

/-- The cells' invariants under the names `K` and that every cell's round 0 is reached: what every device may keep. -/
def records (K : Dev nD × CI → ℕ) : sProp 𝕄 :=
  iprop((bigSep Finset.univ fun x : Dev nD × CI => cellInv ER (sched m) (K x) (kcell x))
    ∗ bigSep Finset.univ fun x : Dev nD × CI => reached ER (kcell x) 0)

instance records_persistent (K : Dev nD × CI → ℕ) : BI.Persistent (records m K) := by unfold records; infer_instance

theorem inv_at (K : Dev nD × CI → ℕ) (x : Dev nD × CI) : records m K ⊢ cellInv ER (sched m) (K x) (kcell x) :=
  sep_elim_left.trans (bigSep_elim (Finset.mem_univ x))
theorem reached_at (K : Dev nD × CI → ℕ) (x : Dev nD × CI) : records m K ⊢ reached ER (kcell x) 0 :=
  sep_elim_right.trans (bigSep_elim (Finset.mem_univ x))

/-- The names as the device's invariants are stated over them. -/
abbrev namesOf (K : Dev nD × CI → ℕ) : Dev nD → CK → ℕ := fun d k => K (d, ciOf k)

theorem invs_intro (K : Dev nD × CI → ℕ) (c : Dev nD) : records m K ⊢ invs m (namesOf K) c := by
  unfold invs
  iintro #HR
  isplitr; · iapply (inv_at m K (c, .inl ())); iexact HR
  isplitr; · iapply (inv_at m K (peer c, .inl ())); iexact HR
  isplitr
  · iapply (bigSep_intro_persistent (R := records m K) fun i _ => inv_at m K (c, .inr (.inl i))); iexact HR
  isplitr
  · iapply (bigSep_intro_persistent (R := records m K) fun i _ => inv_at m K (c, .inr (.inr i))); iexact HR
  iapply (bigSep_intro_persistent (R := records m K) fun i _ => inv_at m K (peer c, .inr (.inr i))); iexact HR

/-- The tokens of the duties device `c` pays. -/
def payToks (c : Dev nD) : sProp 𝕄 :=
  iprop(dutyTok ER (barCell (peer c)) 0 () ∗ (bigSep Finset.univ fun i : Fin 16 => dutyTok ER (sendCell c i) 0 ())
    ∗ (bigSep Finset.univ fun i : Fin 16 => dutyTok ER (recvCell (peer c) i) 0 ()))

/-- What stays with device `c` alone: its local semaphores, its positions, the tokens of the duties it pays. -/
def linear (c : Dev nD) : sProp 𝕄 :=
  iprop(localSems c
    ∗ (atPos ER (barCell c) 0 ∅ 0 ∗ (bigSep Finset.univ fun i : Fin 16 => atPos ER (sendCell c i) 0 ∅ 0)
        ∗ (bigSep Finset.univ fun i : Fin 16 => atPos ER (recvCell c i) 0 ∅ 0))
    ∗ payToks c)

/-- What the global step makes of the launch's deal (`G'`). -/
def G' (c : Dev nD) : sProp 𝕄 := iprop((∃ K, ghost m K c) ∗ localSems c)

theorem ghost_intro (K : Dev nD × CI → ℕ) (c : Dev nD) : iprop(records m K ∗ linear c) ⊢ G' m c := by
  unfold linear payToks G' ghost
  iintro ⟨#HR, HL, ⟨HaB, HaS, HaV⟩, HtB, HtS, HtV⟩
  isplitr [HL]
  · iexists (namesOf K)
    isplitr; · iapply (invs_intro m K c); iexact HR
    isplitl [HaB]; · iexact HaB
    isplitl [HaS]; · iexact HaS
    isplitl [HaV]; · iexact HaV
    isplitr; · iapply (reached_at m K (peer c, .inl ())); iexact HR
    isplitr
    · iapply (bigSep_intro_persistent (R := records m K) fun i _ => reached_at m K (c, .inr (.inl i))); iexact HR
    isplitr
    · iapply (bigSep_intro_persistent (R := records m K) fun i _ => reached_at m K (c, .inr (.inr i))); iexact HR
    isplitl [HtB]; · iexact HtB
    isplitl [HtS]; · iexact HtS
    iexact HtV
  · iexact HL

omit [FloatOps F] in
/-- The tokens dealt to their payers: a barrier cell's and a receive cell's to the partner, a send cell's to its owner. -/
theorem toks_around :
    (bigSep Finset.univ fun c : Dev nD => bigSep Finset.univ fun k : CI => (dutyTok ER (kcell (c, k)) 0 () : sProp 𝕄))
      ⊢ bigSep Finset.univ fun c : Dev nD => payToks c := by
  unfold payToks
  rw [bigSep_congr (s := Finset.univ) (fun (c : Dev nD) _ => bigSep_cells (fun g => (dutyTok ER g 0 () : sProp 𝕄)) c),
    bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun i : Fin 16 => dutyTok ER (recvCell c i) 0 () : sProp 𝕄))]
  exact .rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop(localSems c ∗ (bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0))
          ∗ (bigSep Finset.univ fun k : CI => dutyTok ER (kcell (c, k)) 0 ())) : sProp 𝕄)
      ⊢ bigSep Finset.univ (G' m) := by
  rw [bigSep_sep', bigSep_sep', bigSep_sep', ← bigSep_univ_prod (fun x : Dev nD × CI => iprop(∃ κ : ℕ, cellInv ER (sched m) κ (kcell x))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun x : Dev nD × CI => (reached ER (kcell x) 0 : sProp 𝕄))]
  iintro ⟨HL, HI, ⟨Hat, #HR⟩, Htok⟩
  ihave HK := (BI.bigSep_exists_pi Finset.univ (fun (x : Dev nD × CI) (κ : ℕ) => (cellInv ER (sched m) κ (kcell x) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => localSems c)
        (fun c : Dev nD => iprop((bigSep Finset.univ fun k : CI => (atPos ER (kcell (c, k)) 0 ∅ 0 : sProp 𝕄)) ∗ payToks c))).symm)).trans
      (bigSep_mono fun c _ => show _ ⊢ linear c from Entails.of_eq (by unfold linear; rw [bigSep_cells (fun g => (atPos ER g 0 ∅ 0 : sProp 𝕄)) c])))
    isplitl [HL]; · iexact HL
    iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device's dues are its partner's, so the launch deals device `c` one barrier unit and a chunk's credit on each
    of its receive cells. -/
theorem creds (c : Dev nD) :
    (Pipeline.launchCred O₀ c : sProp 𝕄)
      ⊢ iprop(cred (tallyAt (barCell c) () 1) ∗ bigSep Finset.univ fun i : Fin 16 => cred (tallyAt (recvCell c i) () N)) := by
  have hr (i : Fin 16) : (Pipeline.launchCred (fun d : Dev nD => tallyAt (recvCell (peer d) i) () N) c : sProp 𝕄) ⊢ cred (tallyAt (recvCell c i) () N) :=
    Pipeline.launchCred_tallyAt (SemLoc.dma (recvSem i)) peer peer peer_peer peer_peer () N c
  have hb : (Pipeline.launchCred (fun d : Dev nD => tallyAt (barCell (peer d)) () 1) c : sProp 𝕄) ⊢ cred (tallyAt (barCell c) () 1) :=
    Pipeline.launchCred_tallyAt (SemLoc.reg barS) peer peer peer_peer peer_peer () 1 c
  delta O₀
  iterate 16 rw [Pipeline.launchCred_add]
  rw [bigSep_fin16]
  iintro ⟨⟨⟨⟨⟨⟨⟨⟨⟨⟨⟨⟨⟨⟨⟨⟨H15, H14⟩, H13⟩, H12⟩, H11⟩, H10⟩, H9⟩, H8⟩, H7⟩, H6⟩, H5⟩, H4⟩, H3⟩, H2⟩, H1⟩, H0⟩, HB⟩
  isplitl [HB]; · iapply hb; iexact HB
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  isplitl [H7]; · iapply (hr 7); iexact H7
  isplitl [H8]; · iapply (hr 8); iexact H8
  isplitl [H9]; · iapply (hr 9); iexact H9
  isplitl [H10]; · iapply (hr 10); iexact H10
  isplitl [H11]; · iapply (hr 11); iexact H11
  isplitl [H12]; · iapply (hr 12); iexact H12
  isplitl [H13]; · iapply (hr 13); iexact H13
  isplitl [H14]; · iapply (hr 14); iexact H14
  iapply (hr 15); iexact H15

/-! ## The theorem's side conditions -/

/-- What a device enters the region with beside the scoped rest: its start and its two HBM arrays as launched. -/
def X (c : Dev nD) : sProp 𝕄 :=
  iprop(start m c ∗ whole c main_arg0 (m ((c : Thread nD τ).loc main_arg0)) ∗ whole c main_v1 (m ((c : Thread nD τ).loc main_v1)))

/-- What it leaves with: the input block unchanged and the result array at its final contents. -/
def Y (c : Dev nD) : sProp 𝕄 :=
  iprop(whole c main_arg0 (m ((c : Thread nD τ).loc main_arg0)) ∗ whole c main_v1 (Gfun m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, HG, HL⟩
  ihave Hc := (creds (F := F) c) $$ Hcr
  icases Hc with ⟨H1, HN⟩
  imodintro
  unfold X start
  isplitl
  · isplitl [HG HL H1 HN Hlev]
    · isplitl [HG]; · iexact HG
      isplitl [HL]; · iexact HL
      isplitl [H1]; · iexact H1
      isplitl [HN]; · iexact HN
      iexact Hlev
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, H0, H1, H2⟩
  isplitl [Hs]; · iexact Hs
  isplitl [Hx]; · iexact Hx
  isplitl [Ho]; · iexact Ho
  isplitl [H0]; · iexact H0
  isplitl [H1]; · iexact H1
  iexact H2

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨Hx, Ho, H0, H1, H2, Hs⟩
  isplitl [Hx Ho]
  · isplitl [Hx]; · iexact Hx
    iexact Ho
  isplitl [Hs]; · iexact Hs
  isplitl [H0]; · iexact H0
  isplitl [H1]; · iexact H1
  iexact H2

/-- No window is staged: the pipeline itself waits on nothing. -/
theorem waits (c : Dev nD) : (levAts L lv : sProp 𝕄) ⊢ Pipeline.cellsWaits cfgs (dats m) () 0 c :=
  Pipeline.cellsWaits_intro cfgs (dats m) () 0 c fun w _ _ => w.elim0

/-! ## The run -/

set_option maxRecDepth 32768 in
/-- At the compiled mesh of eight devices, from any memory with zero counters, given the body obligation of every device:
    every weakly fair execution of @main terminates, each device's result array ends at its final contents and its block
    of the input is unchanged. -/
theorem kernel_run_of (hbody : ∀ c : Dev nD, BodyObligation (dats (F := F) m 0 c) (defs₀ (F := F)) 𝒱₀ () Set.univ) (ρ : Dev nD → PrngReg) :
    θ_run (defs (F := F)) (onTc (τ := τ) (main (F := F))) ⟨m, fun _ => 0, ρ⟩ (fun r => ∀ c : Dev nD,
      r.2.mem ((c.tc : Thread nD τ).loc main_v1) = Gfun m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ex m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = Gfun m c ∧ s.mem ((c : Thread nD τ).loc main_arg0) = m ((c : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.Exchange.kernel_run_of' depends on axioms: [propext, Classical.choice, Quot.sound] -/
#guard_msgs in #print axioms kernel_run_of

end Cert.KernelIdeal.Exchange

end
-- ==== Proof.KernelIdeal.Obligation.lean ====
import proofs.«900631_g7700000000000632_dist_a2a_v7x_xyz2x2x2_z_m8192_n1024_bf16_1_alg».proof.Proof.KernelIdeal.Body
import proofs.«900631_g7700000000000632_dist_a2a_v7x_xyz2x2x2_z_m8192_n1024_bf16_1_alg».proof.Proof.KernelIdeal.Regions
import proofs.«900631_g7700000000000632_dist_a2a_v7x_xyz2x2x2_z_m8192_n1024_bf16_1_alg».proof.Proof.KernelIdeal.Launch

/-!
# The body obligation, and the run

The pipeline's obligation at the grid's one point, from the body's own statement: the device's start is laid out cell
by cell and its buffers cut into the slices the body works through — the rows of its result that its partner writes
go into the payload of the barrier signal it pays —; afterwards the thirty-two send and receive cells, a round on and
with no duty left, are closed and give their counters back, and the slices are joined into the whole buffers again.
-/

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## Into the body -/

omit [FloatOps F] in
/-- The rows of device `c`'s result that its partner `p` writes, with `c`'s receive cells open: what `p`'s barrier cell
    is paid. -/
theorem barPay_intro (c p : Dev nD) (hp : peer p = c) (f : Buf (Elt F) ((c : Thread nD τ).loc main_v1)) :
    iprop((bigSep Finset.univ fun i : Fin 16 => slot c p i f) ∗ (bigSep Finset.univ fun i : Fin 16 => reached ER (recvCell c i) 0))
      ⊢ (barPay p : sProp 𝕄) := by
  subst hp
  unfold barPay
  rw [← bigSep_sep']
  have h (i : Fin 16) : iprop(slot (peer p) p i f ∗ reached ER (recvCell (peer p) i) 0)
      ⊢ (iprop((∃ f, slot (peer p) p i f) ∗ reached ER (recvCell (peer p) i) 0) : sProp 𝕄) := by
    iintro ⟨H, Hr⟩
    isplitl [H]
    · iexists f; iexact H
    · iexact Hr
  exact bigSep_mono fun i _ => h i

/-! ## Out of the body -/

/-- The send and receive cells, a round on and with no duty left, close: their counters at zero are the device's again. -/
theorem cells_close (K : Dev nD → CK → ℕ) (c : Dev nD) :
    iprop(invs m K c ∗ (bigSep Finset.univ fun i : Fin 16 => atPos ER (sendCell c i) 1 ∅ 0)
        ∗ (bigSep Finset.univ fun i : Fin 16 => atPos ER (recvCell c i) 1 ∅ 0))
      ⊢ |={Set.univ}=> iprop((bigSep Finset.univ fun i : Fin 16 => semVal (sendCell c i) 0)
          ∗ (bigSep Finset.univ fun i : Fin 16 => semVal (recvCell c i) 0)) := by
  unfold invs
  iintro ⟨⟨-, -, #HIs, #HIr, -⟩, HaS, HaV⟩
  imod (show iprop((bigSep Finset.univ fun i : Fin 16 => cellInv ER (sched m) (K c (.send i)) (sendCell c i))
        ∗ (bigSep Finset.univ fun i : Fin 16 => atPos ER (sendCell c i) 1 ∅ 0))
      ⊢ (|={Set.univ}=> bigSep Finset.univ fun i : Fin 16 => semVal (sendCell c i) 0 : sProp 𝕄) from by
        rw [← bigSep_sep']
        exact (bigSep_mono fun i _ => Rounds.cell_close ER (sched m) (Set.mem_univ _) (fun h => h) (R := 1) (duties_later m (sendCell c i))).trans
          (bigSep_fupd _ _)) $$ [HaS] with HzS
  · isplitr; · iexact HIs
    iexact HaS
  imod (show iprop((bigSep Finset.univ fun i : Fin 16 => cellInv ER (sched m) (K c (.recv i)) (recvCell c i))
        ∗ (bigSep Finset.univ fun i : Fin 16 => atPos ER (recvCell c i) 1 ∅ 0))
      ⊢ (|={Set.univ}=> bigSep Finset.univ fun i : Fin 16 => semVal (recvCell c i) 0 : sProp 𝕄) from by
        rw [← bigSep_sep']
        exact (bigSep_mono fun i _ => Rounds.cell_close ER (sched m) (Set.mem_univ _) (fun h => h) (R := 1) (duties_later m (recvCell c i))).trans
          (bigSep_fupd _ _)) $$ [HaV] with HzV
  · isplitr; · iexact HIr
    iexact HaV
  imodintro
  isplitl [HzS]; · iexact HzS
  iexact HzV

omit [FloatOps F] in
/-- The fifty DMA semaphores at zero from the local ones, the send cells' and the receive cells'. -/
theorem sems_join (c : Dev nD) :
    iprop(localSems c ∗ (bigSep Finset.univ fun i : Fin 16 => semVal (sendCell c i) 0) ∗ (bigSep Finset.univ fun i : Fin 16 => semVal (recvCell c i) 0))
      ⊢ (bigSep Finset.univ fun q : DmaSem sig => semVal ((c : Thread nD τ), SemLoc.dma q) 0 : sProp 𝕄) :=
  Entails.of_eq (ownSems0_split (F := F) c).symm

/-- From what the body leaves to the invariant after the point. -/
theorem post_exit (K : Dev nD → CK → ℕ) (c : Dev nD) :
    iprop(invs m K c ∗ bodyPost m K c)
      ⊢ |={Set.univ}=> iprop(Φ₁ m c ∗ (dats m 0 c).owesAt () (t0_0 : Fin cfg0.N).succ ∗ emp) := by
  unfold bodyPost
  iintro ⟨#HI, Hx, Hoo, Hop, Hi0, Hi1, Hsb, Hlb, HL, HaS, HaV, ⟨%W, HO⟩⟩
  imod (cells_close m K c) $$ [HaS HaV] with ⟨HzS, HzV⟩
  · isplitr; · iexact HI
    isplitl [HaS]; · iexact HaS
    iexact HaV
  imodintro
  unfold Φ₁ Dat.owesAt Pipeline.owesWithin
  rw [show (dats m 0 c).owed (t0_0 : Fin cfg0.N).succ = 0 from rfl]
  isplitr [HO]
  · isplitl [Hx]; · iexact Hx
    isplitl [Hoo Hop]
    · iapply (result_split c (Gfun m c)).mpr
      isplitl [Hoo]; · iexact Hoo
      iexact Hop
    isplitl [Hi0 Hi1]
    · iapply (ring_join (F := F) c)
      isplitl [Hi0]; · iexact Hi0
      iexact Hi1
    isplitl [Hsb]; · iapply (send_join (F := F) c); iexact Hsb
    isplitl [Hlb]; · iapply (local_join (F := F) c); iexact Hlb
    iapply (sems_join (F := F) c)
    isplitl [HL]; · iexact HL
    isplitl [HzS]; · iexact HzS
    iexact HzV
  isplitl
  · iexists W
    isplitr; · ipureintro; exact fun _ _ => Or.inl trivial
    iexact HO
  · iempintro

/-! ## The obligation -/

set_option maxRecDepth 32768 in
/-- The pipeline's body obligation on device `c`. -/
theorem body_obligation (c : Dev nD) : BodyObligation (dats (F := F) m 0 c) (defs₀ (F := F)) 𝒱₀ () Set.univ := fun t => by
  obtain rfl : t = t0_0 := fin_N0 t
  show iprop(Φ₀ m c ∗ (dats m 0 c).owesAt () (t0_0 : Fin cfg0.N).castSucc ∗ emp)
    ⊢ wp frame (wpE (defs₀ (F := F)) 𝒱₀ c none) Set.univ (bodyProg (F := F))
        (fun _ => iprop(Φ₁ m c ∗ (dats m 0 c).owesAt () (t0_0 : Fin cfg0.N).succ ∗ emp))
  refine BIBase.Entails.trans ?_ (wp_fupd frame (wpE (defs₀ (F := F)) 𝒱₀ c none) Set.univ (bodyProg (F := F)) _)
  unfold Φ₀ start Dat.owesAt Pipeline.owesWithin
  rw [show (dats m 0 c).owed (t0_0 : Fin cfg0.N).castSucc = O₀ c from rfl]
  iintro ⟨⟨⟨⟨%K, Hg⟩, HL, Hc1, HcN, Hlev⟩, Hx, Ho, ⟨%fin, Hin⟩, ⟨%fsb, Hsb⟩, ⟨%flb, Hlb⟩⟩, ⟨%W, -, HO⟩, -⟩
  unfold ghost
  icases Hg with ⟨#HI, HaB, HaS, HaV, #HrB, #HrS, #HrV, HtB, HtS, HtV⟩
  ihave Ho' := (result_split c (m ((c : Thread nD τ).loc main_v1))).mp $$ Ho
  icases Ho' with ⟨Hoo, Hop⟩
  ihave Hsb' := (send_split c fsb).mp $$ Hsb
  ihave Hlb' := (local_split c flb).mp $$ Hlb
  ihave Hin' := (ring_split c fin).mp $$ Hin
  icases Hin' with ⟨Hi0, Hi1⟩
  ihave Hpay := (barPay_intro (F := F) c (peer c) (peer_peer c) (m ((c : Thread nD τ).loc main_v1))) $$ [Hop]
  · isplitl [Hop]; · iexact Hop
    iexact HrV
  iapply (body_run m K c _ fin fsb flb (m ((c : Thread nD τ).loc main_v1)) W)
  unfold bodyPre
  isplitr []
  · isplitr; · iexact HI
    isplitl [HO]; · iexact HO
    isplitl [HtB]; · iexact HtB
    isplitr; · iexact HrB
    isplitl [Hpay]; · iexact Hpay
    isplitl [HL]; · iexact HL
    isplitr; · iexact HrS
    isplitl [HaB]; · iexact HaB
    isplitl [HaS]; · iexact HaS
    isplitl [HaV]; · iexact HaV
    isplitl [HtS]; · iexact HtS
    isplitl [HtV]; · iexact HtV
    isplitl [Hc1]; · iexact Hc1
    isplitl [HcN]; · iexact HcN
    isplitl [Hlev]; · iexact Hlev
    isplitl [Hx]; · iexact Hx
    isplitl [Hi0]; · iexact Hi0
    isplitl [Hi1]; · iexact Hi1
    isplitl [Hsb']; · iexact Hsb'
    isplitl [Hlb']; · iexact Hlb'
    iexact Hoo
  · iintro Hpost
    iapply (post_exit m K c)
    isplitr; · iexact HI
    iexact Hpost

/-- At the compiled mesh, from any memory with zero counters: every weakly fair execution of @main terminates, each
    device's result array ends at its final contents and its block of the input is unchanged. -/
theorem kernel_run (ρ : Dev nD → PrngReg) :
    θ_run (defs (F := F)) (onTc (τ := τ) (main (F := F))) ⟨m, fun _ => 0, ρ⟩ (fun r => ∀ c : Dev nD,
      r.2.mem ((c.tc : Thread nD τ).loc main_v1) = Gfun m c
      ∧ r.2.mem ((c.tc : Thread nD τ).loc main_arg0) = m ((c.tc : Thread nD τ).loc main_arg0)) :=
  kernel_run_of m (body_obligation m) ρ

end Cert.KernelIdeal.Exchange

end
-- ==== Proof.KernelIdeal.Run.lean ====
import proofs.«900631_g7700000000000632_dist_a2a_v7x_xyz2x2x2_z_m8192_n1024_bf16_1_alg».proof.Proof.KernelIdeal.Obligation

/-! The run of the whole program on the mesh: `Cert.KernelIdeal.Exchange.kernel_run`, from the body obligation of every
device through the launch. -/
-- ==== Proof.Bridge.lean ====
import proofs.«900631_g7700000000000632_dist_a2a_v7x_xyz2x2x2_z_m8192_n1024_bf16_1_alg».proof.Proof.KernelIdeal.Protocol
import proofs.«900631_g7700000000000632_dist_a2a_v7x_xyz2x2x2_z_m8192_n1024_bf16_1_alg».proof.Proof.Gen.ReferenceIdeal.Run
import proofs.«900631_g7700000000000632_dist_a2a_v7x_xyz2x2x2_z_m8192_n1024_bf16_1_alg».proof.Proof.Gen.ReferenceIdeal.Read
import Idealize.ShloMosaic.Lib.Layout
import Idealize.ShloMosaic.Lib.ValueIdx

/-!
# From the exchange's result to a block of the reference's

The whole input `X` has 16384 rows and 2048 columns.  On the 2×2×2 mesh device `c` has last coordinate
`z = c % 2`; it starts with rows `[8192·z, 8192·z + 8192)` of `X` (the rows are cut in two along the last mesh
axis) and must end with columns `[1024·z, 1024·z + 1024)` of the rounded `X` (the columns are cut in two along
the same axis).

The exchange leaves on device `c`, at row `R` and column `j`, the rounding of entry
`(R % 8192, 1024·z + j)` of the input block of the device of `c`'s pair whose last coordinate is `R / 8192`.
That device's block starts at row `8192·(R / 8192)` of `X`, so the entry is
`X (8192·(R / 8192) + R % 8192, 1024·z + j) = X (R, 1024·z + j)`: exactly entry `(R, j)` of block `z` of the
columns.  At the extended reals the rounding is the identity, on both sides.
-/

noncomputable section

namespace Cert.Bridge

open Idealize.ShloMosaic Idealize.SL.Sem
open Cert.KernelIdeal Cert.KernelIdeal.Exchange

/-- On the 2×2×2 mesh, a dimension cut along the last axis gives device `c` the block its last coordinate
    `c % 2` names. -/
theorem lin_last (c : Dev nD) : Layout.meshLin [2, 2, 2] c.val [2] = c.val % 2 := by revert c; decide

/-- A dimension that is not cut is one block: every device holds block `0` of it. -/
theorem lin_none (n : Nat) : Layout.meshLin [2, 2, 2] n [] = 0 := rfl

/-- Of the two devices of `c`'s pair, the one the exchange reads row `R` of the whole input from has last
    coordinate `R / 8192`: it is `c` when that is `c`'s own coordinate and the partner, whose coordinate is the
    other of `0` and `1`, when it is not. -/
theorem holder_z (c : Dev nD) (R : Nat) (hR : R < 16384) :
    (if R / 8192 = c.val % 2 then c else peer c).val % 2 = R / 8192 := by
  by_cases h : R / 8192 = c.val % 2
  · rw [if_pos h]; exact h.symm
  · rw [if_neg h, peer_z]; omega

/-- When every device's input is its block of rows of `X`, what the exchange leaves on device `c` is `c`'s
    block of columns of the reference's result, the rounded `X`.  Index by index: both sides are `X` at one index
    of the whole array, and the two indices agree coordinate by coordinate — the row is
    `8192·(R / 8192) + R % 8192 = R`, the column `1024·(c % 2) + j` on both sides. -/
theorem gfun_eq_block
    (m : (ℓ : Loc nD τ sig) → Buf (Elt Ideal) ℓ)
    (X : (⟨2, ![16384, 2048]⟩ : Shape).Idx → Ideal .f32)
    (hagree : ∀ c : Dev nD, m ((c.tc : Thread nD τ).loc main_arg0)
      = Layout.blockN ⟨2, ![8192, 2048]⟩ ⟨2, ![16384, 2048]⟩ (Layout.meshBlock [2, 2, 2] ![[2], []] c) X)
    (c : Dev nD) :
    Gfun (F := Ideal) m c
      = Layout.blockN ⟨2, ![16384, 1024]⟩ ⟨2, ![16384, 2048]⟩ (Layout.meshBlock [2, 2, 2] ![[], [2]] c)
          (Cert.ReferenceIdeal.Read.val_main_v0 (F := Ideal) X) := by
  funext idx
  have hd := hagree (if (idx 0).val / 8192 = c.val % 2 then c else peer c)
  have hR : (idx 0).val < 16384 := (idx 0).isLt
  have hC : (idx 1).val < 1024 := (idx 1).isLt
  have hz := holder_z c (idx 0).val hR
  unfold Gfun xOf
  rw [hd]
  -- the rounding is the identity at the extended reals: both sides are `X` at an index of the whole array
  show X _ = X _
  congr 1
  funext b
  apply Fin.ext
  match b with
  | ⟨0, _⟩ =>
    -- rows: the holder's block starts `8192` rows further for each unit of its last coordinate; the result is not cut
    show Layout.meshLin [2, 2, 2] (if (idx 0).val / 8192 = c.val % 2 then c else peer c).val [2] * 8192 + (idx 0).val % 8192
      = Layout.meshLin [2, 2, 2] c.val [] * 16384 + (idx 0).val
    rw [lin_last, hz, lin_none]; omega
  | ⟨1, _⟩ =>
    -- columns: the input is not cut; the result's block starts `1024` columns further for each unit of `c % 2`
    show Layout.meshLin [2, 2, 2] (if (idx 0).val / 8192 = c.val % 2 then c else peer c).val [] * 2048 + (1024 * (c.val % 2) + (idx 1).val)
      = Layout.meshLin [2, 2, 2] c.val [2] * 1024 + (idx 1).val
    rw [lin_none, lin_last]; omega

/-- info: 'Cert.Bridge.gfun_eq_block' depends on axioms: [propext, Classical.choice, Quot.sound] -/
#guard_msgs in #print axioms gfun_eq_block

end Cert.Bridge

end
-- ==== Proof.lean ====
/-
  The proof of `Cert.Claim`: an exchange of halves between partner devices against a cast on one device.

  Eight devices in a 2×2×2 mesh.  Device `c`, with last mesh coordinate `z`, starts with rows
  `[8192·z, 8192·z + 8192)` of a float32 array `X` of 16384 rows and 2048 columns and ends with columns
  `[1024·z, 1024·z + 1024)` of all 16384 rows, rounded to bfloat16; the rows it lacks come from its partner, the
  device whose last coordinate is the other one.  The reference rounds the whole of `X` on one device.

  * The two frames of the kernel (at the word level and at the extended reals) are its run, which ends with every
    device's block of the input unchanged and its result at a closed form `Gfun` of the pair's two input blocks,
    with the statement about the result dropped.
  * The reference's frame is its run with the result dropped.
  * No operation of the kernel was rewritten for the extended reals, so there is nothing to preserve.
  * The value: the reference ends with the rounded `X`; where each device's input is its block of rows of `X`,
    `Gfun` on device `c` is block `z` of the columns of the rounded `X` (`Cert.Bridge.gfun_eq_block`: row
    `R` of the result is row `R % 8192` of the block that starts at row `8192·(R / 8192)`, and the rounding is
    the identity at the extended reals).
-/
import proofs.«900631_g7700000000000632_dist_a2a_v7x_xyz2x2x2_z_m8192_n1024_bf16_1_alg».proof.Defs
import proofs.«900631_g7700000000000632_dist_a2a_v7x_xyz2x2x2_z_m8192_n1024_bf16_1_alg».proof.Proof.Gen.Kernel
import proofs.«900631_g7700000000000632_dist_a2a_v7x_xyz2x2x2_z_m8192_n1024_bf16_1_alg».proof.Proof.Gen.Kernel.Skeleton
import proofs.«900631_g7700000000000632_dist_a2a_v7x_xyz2x2x2_z_m8192_n1024_bf16_1_alg».proof.Proof.Gen.Kernel.Launch
import proofs.«900631_g7700000000000632_dist_a2a_v7x_xyz2x2x2_z_m8192_n1024_bf16_1_alg».proof.Proof.Gen.Kernel.Points
import proofs.«900631_g7700000000000632_dist_a2a_v7x_xyz2x2x2_z_m8192_n1024_bf16_1_alg».proof.Proof.Gen.Kernel.Frame
import proofs.«900631_g7700000000000632_dist_a2a_v7x_xyz2x2x2_z_m8192_n1024_bf16_1_alg».proof.Proof.Gen.KernelIdeal
import proofs.«900631_g7700000000000632_dist_a2a_v7x_xyz2x2x2_z_m8192_n1024_bf16_1_alg».proof.Proof.Gen.KernelIdeal.Skeleton
import proofs.«900631_g7700000000000632_dist_a2a_v7x_xyz2x2x2_z_m8192_n1024_bf16_1_alg».proof.Proof.Gen.KernelIdeal.Launch
import proofs.«900631_g7700000000000632_dist_a2a_v7x_xyz2x2x2_z_m8192_n1024_bf16_1_alg».proof.Proof.Gen.KernelIdeal.Points
import proofs.«900631_g7700000000000632_dist_a2a_v7x_xyz2x2x2_z_m8192_n1024_bf16_1_alg».proof.Proof.Gen.KernelIdeal.Frame
import proofs.«900631_g7700000000000632_dist_a2a_v7x_xyz2x2x2_z_m8192_n1024_bf16_1_alg».proof.Proof.Gen.ReferenceIdeal
import proofs.«900631_g7700000000000632_dist_a2a_v7x_xyz2x2x2_z_m8192_n1024_bf16_1_alg».proof.Proof.Gen.ReferenceIdeal.Run
import proofs.«900631_g7700000000000632_dist_a2a_v7x_xyz2x2x2_z_m8192_n1024_bf16_1_alg».proof.Proof.Gen.ReferenceIdeal.Read
import proofs.«900631_g7700000000000632_dist_a2a_v7x_xyz2x2x2_z_m8192_n1024_bf16_1_alg».proof.Proof.Gen.Pre_finite_inputs_Kernel
import proofs.«900631_g7700000000000632_dist_a2a_v7x_xyz2x2x2_z_m8192_n1024_bf16_1_alg».proof.Proof.Gen.Pre_finite_inputs_ReferenceIdeal
import proofs.«900631_g7700000000000632_dist_a2a_v7x_xyz2x2x2_z_m8192_n1024_bf16_1_alg».proof.Proof.Kernel.Run
import proofs.«900631_g7700000000000632_dist_a2a_v7x_xyz2x2x2_z_m8192_n1024_bf16_1_alg».proof.Proof.KernelIdeal.Run
import proofs.«900631_g7700000000000632_dist_a2a_v7x_xyz2x2x2_z_m8192_n1024_bf16_1_alg».proof.Proof.Bridge
import Idealize.ShloMosaic.Adequacy
import Idealize.ShloMosaic.Init

noncomputable section

namespace Cert.Proof

open Idealize.ShloMosaic Idealize.SL.Sem

/-- The word-level kernel runs to the end and every device's block of the input is unchanged: its run, the result's
    value dropped. -/
theorem frame_kernel : Cert.frame_Kernel := fun m ρ _ =>
  (θ_run Cert.Kernel.defs _ _).mono (fun _ h c => (h c).2) (Cert.Kernel.Exchange.kernel_run (F := Bits) m ρ)

/-- The same at the extended reals. -/
theorem frame_kernelIdeal : Cert.frame_KernelIdeal := fun m ρ _ =>
  (θ_run Cert.KernelIdeal.defs _ _).mono (fun _ h c => (h c).2) (Cert.KernelIdeal.Exchange.kernel_run (F := Ideal) m ρ)

/-- The reference is one cast on one device: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- At the extended reals the reference ends with the rounded whole input; each device of the kernel ends with
    `Gfun` of its pair's input blocks, which, the blocks being blocks of rows of the whole input, is its block of
    columns of that result. -/
theorem algebraic : Cert.algebraic_KernelIdeal_ReferenceIdeal := by
  intro m ρ m' ρ' _ hagree
  refine ⟨Cert.ReferenceIdeal.Read.val_main_v0 (F := Ideal)
      (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.Bridge.gfun_eq_block m _ hagree c), (h c).2⟩)
      (Cert.KernelIdeal.Exchange.kernel_run (F := Ideal) m ρ)
  · exact (θ_run Cert.ReferenceIdeal.defs _ _).mono
      (fun _ h => ⟨(h 0).1.trans (Cert.ReferenceIdeal.Read.val_main_v0_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_referenceIdeal, preserves, algebraic⟩

end Cert.Proof

end
